-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288 : Shape := ⟨1, ![524288]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel

variable [Facts]

def fn {F : FTy → Type} [FloatOps F] (main_arg0 : FVec F S524288x128 .f32) (main_arg1 : IVec S524288 32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  main_v3
-- ==== Kernel.lean ====
abbrev S524288x128 : Shape := ⟨2, ![524288, 128]⟩
abbrev S524288 : Shape := ⟨1, ![524288]⟩
abbrev S524288x1 : Shape := ⟨2, ![524288, 1]⟩
abbrev S2x128x1024 : Shape := ⟨3, ![2, 128, 1024]⟩
abbrev S2x1x1024 : Shape := ⟨3, ![2, 1, 1024]⟩
abbrev S4096x128 : Shape := ⟨2, ![4096, 128]⟩
abbrev S4096x1 : Shape := ⟨2, ![4096, 1]⟩
abbrev S1x128x1024 : Shape := ⟨3, ![1, 128, 1024]⟩
abbrev S1x1x1024 : Shape := ⟨3, ![1, 1, 1024]⟩
abbrev S128x1024 : Shape := ⟨2, ![128, 1024]⟩
abbrev S1x1024 : Shape := ⟨2, ![1, 1024]⟩
abbrev S4096x1024 : Shape := ⟨2, ![4096, 1024]⟩
abbrev S_ : Shape := ⟨0, ![]⟩
abbrev S1024 : Shape := ⟨1, ![1024]⟩
abbrev S2048x128 : Shape := ⟨2, ![2048, 128]⟩
abbrev S2048x1 : Shape := ⟨2, ![2048, 1]⟩
abbrev S2048x1024 : Shape := ⟨2, ![2048, 1024]⟩
abbrev S2048 : Shape := ⟨1, ![2048]⟩
abbrev S1x1000 : Shape := ⟨2, ![1, 1000]⟩

abbrev nBuf : Space → Nat
  | .hbm => 46
  | .vmem => 16
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S524288x1, .i32⟩
  | .hbm, ⟨3, _⟩ => ⟨S2x128x1024, .f32⟩
  | .hbm, ⟨4, _⟩ => ⟨S2x1x1024, .f32⟩
  | .hbm, ⟨5, _⟩ => ⟨S1x128x1024, .f32⟩
  | .hbm, ⟨6, _⟩ => ⟨S128x1024, .f32⟩
  | .hbm, ⟨7, _⟩ => ⟨S1x128x1024, .f32⟩
  | .hbm, ⟨8, _⟩ => ⟨S128x1024, .f32⟩
  | .hbm, ⟨9, _⟩ => ⟨S128x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x1024, .bf16⟩
  | .hbm, ⟨21, _⟩ => ⟨S128x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S2x1x1024, .f32⟩
  | .hbm, ⟨26, _⟩ => ⟨S1x1x1024, .f32⟩
  | .hbm, ⟨27, _⟩ => ⟨S1x1024, .f32⟩
  | .hbm, ⟨28, _⟩ => ⟨S1x1x1024, .f32⟩
  | .hbm, ⟨29, _⟩ => ⟨S1x1024, .f32⟩
  | .hbm, ⟨30, _⟩ => ⟨S1x1024, .f32⟩
  | .hbm, ⟨31, _⟩ => ⟨S1x1000, .f32⟩
  | .hbm, ⟨32, _⟩ => ⟨S1x1000, .f32⟩
  | .hbm, ⟨33, _⟩ => ⟨S_, .f32⟩
  | .hbm, ⟨34, _⟩ => ⟨S1x1000, .f32⟩
  | .hbm, ⟨35, _⟩ => ⟨S1x1000, .f32⟩
  | .hbm, ⟨36, _⟩ => ⟨S_, .f32⟩
  | .hbm, ⟨37, _⟩ => ⟨S1x1000, .f32⟩
  | .hbm, ⟨38, _⟩ => ⟨S1x1000, .i1⟩
  | .hbm, ⟨39, _⟩ => ⟨S1x1000, .f32⟩
  | .hbm, ⟨40, _⟩ => ⟨S_, .f32⟩
  | .hbm, ⟨41, _⟩ => ⟨S_, .f32⟩
  | .hbm, ⟨42, _⟩ => ⟨S1x1000, .f32⟩
  | .hbm, ⟨43, _⟩ => ⟨S1x1000, .f32⟩
  | .hbm, ⟨44, _⟩ => ⟨S_, .f32⟩
  | .hbm, ⟨45, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x1, .i32⟩
  | .local _ .vmem, ⟨3, _⟩ => ⟨S4096x1, .i32⟩
  | .local _ .vmem, ⟨4, _⟩ => ⟨S1x128x1024, .f32⟩
  | .local _ .vmem, ⟨5, _⟩ => ⟨S1x128x1024, .f32⟩
  | .local _ .vmem, ⟨6, _⟩ => ⟨S1x1x1024, .f32⟩
  | .local _ .vmem, ⟨7, _⟩ => ⟨S1x1x1024, .f32⟩
  | .local _ .vmem, ⟨8, _⟩ => ⟨S2048x128, .f32⟩
  | .local _ .vmem, ⟨9, _⟩ => ⟨S2048x128, .f32⟩
  | .local _ .vmem, ⟨10, _⟩ => ⟨S2048x1, .i32⟩
  | .local _ .vmem, ⟨11, _⟩ => ⟨S2048x1, .i32⟩
  | .local _ .vmem, ⟨12, _⟩ => ⟨S128x1024, .bf16⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 128], ![false, false]⟩

def cc1_transform_0 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S524288_S524288x1 : S524288.ShapeCasts S524288x1
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  iota_S1x1024_d1_w32 : S1x1024.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1024 : S4096x1.Broadcasts S4096x1024
  broadcasts_S1x1024_S4096x1024 : S1x1024.Broadcasts S4096x1024
  natLt_1_32 : 1 < 32
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  slices_S2x128x1024_S1x128x1024_0_0_0 : S2x128x1024.Slices ![0, 0, 0] S1x128x1024
  slices_S2x128x1024_S1x128x1024_1_0_0 : S2x128x1024.Slices ![1, 0, 0] S1x128x1024
  slices_S2x1x1024_S1x1x1024_0_0_0 : S2x1x1024.Slices ![0, 0, 0] S1x1x1024
  slices_S2x1x1024_S1x1x1024_1_0_0 : S2x1x1024.Slices ![1, 0, 0] S1x1x1024
  bcast_S_S1x1024 : S_.BroadcastsInDim S1x1024 (![] : Fin 0 → Fin S1x1024.rank)
  bcast_S1x1024_S128x1024_0_1 : S1x1024.BroadcastsInDim S128x1024 (![0, 1] : Fin 2 → Fin S128x1024.rank)
  reducesTo_S128x1024_S1024_d0 : S128x1024.ReducesTo [0] S1024
  h_S_ : 0 < S_.numel
  bcast_S1024_S1x1024_1 : S1024.BroadcastsInDim S1x1024 (![1] : Fin 1 → Fin S1x1024.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  broadcasts_S1x1024_S2048x1024 : S1x1024.Broadcasts S2048x1024
  inb_S2048x128_S2048x128_0_0 : ∀ a, (![0, 0] : Fin 2 → Nat) a + S2048x128.size a ≤ S2048x128.size a
  h_S2048x128 : 0 < S2048x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S2048x128_S2048 : S2048x128.Reduces [1] S2048
  shapeCasts_S2048_S2048x1 : S2048.ShapeCasts S2048x1
  reduces_S2048x1024_S2048 : S2048x1024.Reduces [1] S2048
  reduces_S2048x1024_S1024 : S2048x1024.Reduces [0] S1024
  shapeCasts_S1024_S1x1024 : S1024.ShapeCasts S1x1024
  slices_S1x1024_S1x1000_0_0 : S1x1024.Slices ![0, 0] S1x1000
  bcast_S_S1x1000 : S_.BroadcastsInDim S1x1000 (![] : Fin 0 → Fin S1x1000.rank)
  reducesTo_S1x1000_S_d0_1 : S1x1000.ReducesTo [0, 1] S_
  dot_S4096x128_S4096x1024_S128x1024_0_0_1_1_n_n_wf : DotDims.WF S4096x128 S4096x1024 S128x1024 [0] [0] [1] [1] [] []
  dot_S4096x1_S4096x1024_S1x1024_0_0_1_1_n_n_wf : DotDims.WF S4096x1 S4096x1024 S1x1024 [0] [0] [1] [1] [] []
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S524288x1.size a
  hwx0_1 : ∀ i : grid0.Coords, EltTy.bits .i32 = 32 ∨ (Rect.block (s := S524288x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S2x128x1024.size a
  hwx0_2 : ∀ i : grid0.Coords, EltTy.bits .f32 = 32 ∨ (Rect.block (s := S2x128x1024) S1x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S524288x128.size a
  hwx1_0 : ∀ i : grid1.Coords, EltTy.bits .f32 = 32 ∨ (Rect.block (s := S524288x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S524288x1.size a
  hwx1_1 : ∀ i : grid1.Coords, EltTy.bits .i32 = 32 ∨ (Rect.block (s := S524288x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S128x1024.size a
  hwx1_2 : ∀ i : grid1.Coords, EltTy.bits .bf16 = 32 ∨ (Rect.block (s := S128x1024) S128x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024.size a ≤ S2x1x1024.size a
  hwx1_4 : ∀ i : grid1.Coords, EltTy.bits .f32 = 32 ∨ (Rect.block (s := S2x1x1024) S1x1x1024.size (cc1_transform_4 i) (hinb1_4 i)).WholeWords (EltTy.packing .f32)

variable [Facts₀]

def dot_S4096x128_S4096x1024_S128x1024_0_0_1_1_n_n : DotDims S4096x128 S4096x1024 S128x1024 where
  lhsContracting := [0]
  rhsContracting := [0]
  lhsNonContracting := [1]
  rhsNonContracting := [1]
  lhsBatch := []
  rhsBatch := []
  wf := dot_S4096x128_S4096x1024_S128x1024_0_0_1_1_n_n_wf
def dot_S4096x1_S4096x1024_S1x1024_0_0_1_1_n_n : DotDims S4096x1 S4096x1024 S1x1024 where
  lhsContracting := [0]
  rhsContracting := [0]
  lhsNonContracting := [1]
  rhsNonContracting := [1]
  lhsBatch := []
  rhsBatch := []
  wf := dot_S4096x1_S4096x1024_S1x1024_0_0_1_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x1x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S524288x128 : Shape := ⟨2, ![524288, 128]⟩
abbrev S524288 : Shape := ⟨1, ![524288]⟩
abbrev S_ : Shape := ⟨0, ![]⟩
abbrev S1000 : Shape := ⟨1, ![1000]⟩
abbrev S524288x1 : Shape := ⟨2, ![524288, 1]⟩
abbrev S1000x128 : Shape := ⟨2, ![1000, 128]⟩
abbrev S1000x1 : Shape := ⟨2, ![1000, 1]⟩

abbrev nBuf : Space → Nat
  | .hbm => 46
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S_, .f32⟩
  | .hbm, ⟨3, _⟩ => ⟨S524288, .f32⟩
  | .hbm, ⟨4, _⟩ => ⟨S_, .f32⟩
  | .hbm, ⟨5, _⟩ => ⟨S1000, .f32⟩
  | .hbm, ⟨6, _⟩ => ⟨S524288x1, .i32⟩
  | .hbm, ⟨7, _⟩ => ⟨S1000, .f32⟩
  | .hbm, ⟨8, _⟩ => ⟨S_, .f32⟩
  | .hbm, ⟨9, _⟩ => ⟨S1000x128, .f32⟩
  | .hbm, ⟨10, _⟩ => ⟨S524288x1, .i32⟩
  | .hbm, ⟨11, _⟩ => ⟨S1000x128, .f32⟩
  | .hbm, ⟨12, _⟩ => ⟨S_, .f32⟩
  | .hbm, ⟨13, _⟩ => ⟨S1000, .f32⟩
  | .hbm, ⟨14, _⟩ => ⟨S1000, .f32⟩
  | .hbm, ⟨15, _⟩ => ⟨S1000x1, .f32⟩
  | .hbm, ⟨16, _⟩ => ⟨S1000x128, .f32⟩
  | .hbm, ⟨17, _⟩ => ⟨S1000x128, .f32⟩
  | .hbm, ⟨18, _⟩ => ⟨S_, .i32⟩
  | .hbm, ⟨19, _⟩ => ⟨S524288, .i32⟩
  | .hbm, ⟨20, _⟩ => ⟨S524288, .i1⟩
  | .hbm, ⟨21, _⟩ => ⟨S_, .i32⟩
  | .hbm, ⟨22, _⟩ => ⟨S524288, .i32⟩
  | .hbm, ⟨23, _⟩ => ⟨S524288, .i32⟩
  | .hbm, ⟨24, _⟩ => ⟨S524288, .i32⟩
  | .hbm, ⟨25, _⟩ => ⟨S524288x1, .i32⟩
  | .hbm, ⟨26, _⟩ => ⟨S524288x128, .f32⟩
  | .hbm, ⟨27, _⟩ => ⟨S524288x128, .f32⟩
  | .hbm, ⟨28, _⟩ => ⟨S524288x128, .f32⟩
  | .hbm, ⟨29, _⟩ => ⟨S_, .f32⟩
  | .hbm, ⟨30, _⟩ => ⟨S524288, .f32⟩
  | .hbm, ⟨31, _⟩ => ⟨S524288, .f32⟩
  | .hbm, ⟨32, _⟩ => ⟨S_, .f32⟩
  | .hbm, ⟨33, _⟩ => ⟨S1000, .f32⟩
  | .hbm, ⟨34, _⟩ => ⟨S524288x1, .i32⟩
  | .hbm, ⟨35, _⟩ => ⟨S1000, .f32⟩
  | .hbm, ⟨36, _⟩ => ⟨S1000, .f32⟩
  | .hbm, ⟨37, _⟩ => ⟨S_, .f32⟩
  | .hbm, ⟨38, _⟩ => ⟨S1000, .f32⟩
  | .hbm, ⟨39, _⟩ => ⟨S1000, .i1⟩
  | .hbm, ⟨40, _⟩ => ⟨S_, .f32⟩
  | .hbm, ⟨41, _⟩ => ⟨S_, .f32⟩
  | .hbm, ⟨42, _⟩ => ⟨S1000, .f32⟩
  | .hbm, ⟨43, _⟩ => ⟨S1000, .f32⟩
  | .hbm, ⟨44, _⟩ => ⟨S_, .f32⟩
  | .hbm, ⟨45, _⟩ => ⟨S_, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S1000 : S_.BroadcastsInDim S1000 (![] : Fin 0 → Fin S1000.rank)
  bcast_S524288_S524288x1_0 : S524288.BroadcastsInDim S524288x1 (![0] : Fin 1 → Fin S524288x1.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  reducesTo_S524288x128_S524288_d1 : S524288x128.ReducesTo [1] S524288
  h_S_ : 0 < S_.numel
  reducesTo_S1000_S_d0 : S1000.ReducesTo [0] S_
  scatter_S1000_S524288x1_S524288_n_0_0_1_wf : ScatterDims.WF S1000 S524288x1 S524288 [] [0] [0] 1
  scatter_S1000x128_S524288x1_S524288x128_1_0_0_1_wf : ScatterDims.WF S1000x128 S524288x1 S524288x128 [1] [0] [0] 1
  gather_S1000x128_S524288x1_S524288x128_1_0_n_n_0_1_1128_wf : GatherDims.WF S1000x128 S524288x1 S524288x128 [1] [0] [] [0] [] 1 ![1, 128]

variable [Facts₀]

def scatter_S1000_S524288x1_S524288_n_0_0_1 : ScatterDims S1000 S524288x1 S524288 where
  updateWindowDims := []
  insertedWindowDims := [0]
  scatterDimsToOperandDims := [0]
  indexVectorDim := 1
  wf := scatter_S1000_S524288x1_S524288_n_0_0_1_wf
def scatter_S1000x128_S524288x1_S524288x128_1_0_0_1 : ScatterDims S1000x128 S524288x1 S524288x128 where
  updateWindowDims := [1]
  insertedWindowDims := [0]
  scatterDimsToOperandDims := [0]
  indexVectorDim := 1
  wf := scatter_S1000x128_S524288x1_S524288x128_1_0_0_1_wf
def gather_S1000x128_S524288x1_S524288x128_1_0_n_n_0_1_1128 : GatherDims S1000x128 S524288x1 S524288x128 where
  offsetDims := [1]
  collapsedSliceDims := [0]
  operandBatchingDims := []
  startIndicesBatchingDims := []
  startIndexMap := [0]
  indexVectorDim := 1
  sliceSizes := ![1, 128]
  wf := gather_S1000x128_S524288x1_S524288x128_1_0_n_n_0_1_1128_wf

class Facts : Prop extends Facts₀ where

variable [Facts]
-- ==== Proof.Spec.lean ====
/-
  The center-loss value, written twice over the extended reals.

  Samples `x n` (n < 524288) are rows of 128 extended reals, `t n` is the class word of sample n.
  The loss is the sum, over the 1000 classes, of the mean distance of a class's samples to the class mean
  (an empty class contributes 0).

  `kernelValue` is the form with a one-hot row per sample over 1024 padded classes: per-class sums and counts as
  sums of products with the one-hot entries, accumulated per half of the samples (two halves, each cut into equal
  blocks of rows) and then added; the squared distance expanded as |x|^2 + (|m|^2 - 2 x.m) selected by the one-hot row
  and clamped at 0; the per-class sum of distances again by the one-hot entries; the padded classes dropped at the end.

  `referenceValue` is the form with a class test per sample: per-class sums over the samples whose class word, read as
  a signed integer, is the class; the class mean looked up at the class word wrapped (negative words shifted by 1000) and
  clamped into the table; the squared distance as the sum of squared differences.
-/
import Idealize.ShloMosaic.PureOps.Ideal

noncomputable section

namespace CenterLoss

open Idealize.ShloMosaic

/-- Samples: 524288 rows of 128 extended reals. -/
abbrev Samples := Fin 524288 → Fin 128 → EReal
/-- Class words, one per sample. -/
abbrev Words := Fin 524288 → BitVec 32
/-- A table of one 128-vector per padded class, coordinate first. -/
abbrev Table := Fin 128 → Fin 1024 → EReal

/-- The one-hot entry of class word `b` at padded class `k`. -/
def hot (b : BitVec 32) (k : Fin 1024) : EReal := if b = BitVec.ofNat 32 k.val then 1 else 0

/-- Row `r` of block `i` of half `j` when each half is cut into 64 blocks of 4096 rows. -/
def row0 (j : Fin 2) (i : Fin 64) (r : Fin 4096) : Fin 524288 := ⟨(j.val * 64 + i.val) * 4096 + r.val, by omega⟩

/-- Row `r` of block `i` of half `j` when each half is cut into 128 blocks of 2048 rows. -/
def row1 (j : Fin 2) (i : Fin 128) (r : Fin 2048) : Fin 524288 := ⟨(j.val * 128 + i.val) * 2048 + r.val, by omega⟩

/-- A class below 1000 among the 1024 padded ones. -/
def pad (c : Fin 1000) : Fin 1024 := ⟨c.val, by omega⟩

/-! ## The one-hot form -/

/-- Half `j`'s sum of coordinate `d` over the samples of padded class `k`. -/
def kSumPart (x : Samples) (t : Words) (j : Fin 2) (d : Fin 128) (k : Fin 1024) : EReal :=
  ∑ i : Fin 64, ∑ r : Fin 4096, x (row0 j i r) d * hot (t (row0 j i r)) k

/-- Half `j`'s count of the samples of padded class `k`. -/
def kCntPart (t : Words) (j : Fin 2) (k : Fin 1024) : EReal :=
  ∑ i : Fin 64, ∑ r : Fin 4096, hot (t (row0 j i r)) k

def kSum (x : Samples) (t : Words) (d : Fin 128) (k : Fin 1024) : EReal := kSumPart x t 0 d k + kSumPart x t 1 d k

def kCnt (t : Words) (k : Fin 1024) : EReal := kCntPart t 0 k + kCntPart t 1 k

/-- The class mean, coordinate `d` of padded class `k` (the count replaced by 1 when it is below 1). -/
def kMean (x : Samples) (t : Words) : Table := fun d k => Ideal.div (kSum x t d k) (max (kCnt t k) 1)

/-- The squared length of each vector of a table. -/
def sqLen (mean : Table) (k : Fin 1024) : EReal := ∑ d : Fin 128, mean d k * mean d k

/-- The squared length of sample `n`. -/
def kEsq (x : Samples) (n : Fin 524288) : EReal := ∑ d : Fin 128, x n d * x n d

/-- The inner product of sample `n` with vector `k` of a table. -/
def gDot (x : Samples) (mean : Table) (n : Fin 524288) (k : Fin 1024) : EReal := ∑ d : Fin 128, x n d * mean d k

/-- `msq - 2 x.m` at the sample's own class, picked by its one-hot row. -/
def gSel (x : Samples) (t : Words) (mean : Table) (msq : Fin 1024 → EReal) (n : Fin 524288) : EReal :=
  ∑ k : Fin 1024, hot (t n) k * (msq k - 2 * gDot x mean n k)

/-- The distance of sample `n` to its class's vector of the table, the expanded square clamped at 0. -/
def gNorm (x : Samples) (t : Words) (mean : Table) (msq : Fin 1024 → EReal) (n : Fin 524288) : EReal :=
  Ideal.sqrt (max (kEsq x n + gSel x t mean msq n) 0)

/-- Half `j`'s sum of the distances of the samples of padded class `k`. -/
def gClsPart (x : Samples) (t : Words) (mean : Table) (msq : Fin 1024 → EReal) (j : Fin 2) (k : Fin 1024) : EReal :=
  ∑ i : Fin 128, ∑ r : Fin 2048, hot (t (row1 j i r)) k * gNorm x t mean msq (row1 j i r)

/-- The distance of sample `n` to its class mean. -/
def kNorm (x : Samples) (t : Words) (n : Fin 524288) : EReal := gNorm x t (kMean x t) (sqLen (kMean x t)) n

def kCls (x : Samples) (t : Words) (k : Fin 1024) : EReal :=
  gClsPart x t (kMean x t) (sqLen (kMean x t)) 0 k + gClsPart x t (kMean x t) (sqLen (kMean x t)) 1 k

/-- A class's mean distance from its count and its sum of distances; 0 for an empty class. -/
def perClass (cnt cls : EReal) : EReal := if 0 < cnt then Ideal.div cls (max cnt 1) else 0

def kernelValue (x : Samples) (t : Words) : EReal := ∑ c : Fin 1000, perClass (kCnt t (pad c)) (kCls x t (pad c))

/-! ## The class-test form -/

def rCnt (t : Words) (c : Fin 1000) : EReal := ∑ n : Fin 524288, if (t n).toInt = (c.val : ℤ) then (1 : EReal) else 0

def rSum (x : Samples) (t : Words) (c : Fin 1000) (d : Fin 128) : EReal :=
  ∑ n : Fin 524288, if (t n).toInt = (c.val : ℤ) then x n d else 0

def rMean (x : Samples) (t : Words) (c : Fin 1000) (d : Fin 128) : EReal := Ideal.div (rSum x t c d) (max (rCnt t c) 1)

/-- The table row looked up for class word `b`: a negative word shifted by 1000, then clamped into 0..999. -/
def look (b : BitVec 32) : Fin 1000 :=
  ⟨min (if b.slt 0#32 then b + 1000#32 else b).toInt.toNat 999, by omega⟩

def rNorm (x : Samples) (t : Words) (n : Fin 524288) : EReal :=
  Ideal.sqrt (∑ d : Fin 128, (x n d - rMean x t (look (t n)) d) * (x n d - rMean x t (look (t n)) d))

def rCls (x : Samples) (t : Words) (c : Fin 1000) : EReal :=
  ∑ n : Fin 524288, if (t n).toInt = (c.val : ℤ) then rNorm x t n else 0

def referenceValue (x : Samples) (t : Words) : EReal := ∑ c : Fin 1000, perClass (rCnt t c) (rCls x t c)

end CenterLoss

end
-- ==== Proof.KArrays.lean ====
/-
  The arrays the two accumulation passes read, taken off the contents of the device's buffers at explicit
  coordinates: the samples (row n, coordinate d), the class words (one per row, stored as a column), the table of
  class means (coordinate d, padded class k) and the row of their squared lengths.
-/
import proofs.«406991_j27075473834528_3_alg».proof.Proof.Gen.KernelIdeal.Frame
import proofs.«406991_j27075473834528_3_alg».proof.Proof.Spec
import Idealize.ShloMosaic.Lib.ValueIdx

noncomputable section

namespace Cert.KernelIdeal.Hand

open Cert.KernelIdeal Idealize.ShloMosaic Idealize.ShloMosaic.TcCoe Idealize.ShloMosaic.ValueIdx Idealize.SL.Sem

variable (V : (c : Dev nD) → (b : Ref sig .tc) → Buf (Elt Ideal) ((c : Thread nD τ).loc b))

/-- The samples as a pass finds them. -/
def xs (c : Dev nD) : CenterLoss.Samples := fun n d => (V c main_arg0 : S524288x128.Idx → EReal) (ix2 n d)

/-- The class words as a pass finds them (the column holding one word per row). -/
def ts (c : Dev nD) : CenterLoss.Words := fun n => (V c main_v0 : S524288x1.Idx → BitVec 32) (ix2 n 0)

/-- The table of class means the second pass is given. -/
def means (c : Dev nD) : CenterLoss.Table := fun d k => (V c main_v16 : S128x1024.Idx → EReal) (ix2 d k)

/-- The squared lengths of the class means the second pass is given. -/
def msqs (c : Dev nD) : Fin 1024 → EReal := fun k => (V c main_v19 : S1x1024.Idx → EReal) (ix2 0 k)

end Cert.KernelIdeal.Hand

end
-- ==== Proof.Reg0Body.lean ====
/-
  The first pass's block arithmetic read at an index, over the extended reals. For a block of 4096 rows with class
  words `w` and samples `e`: the block's contribution to entry (d, k) of the per-class sums is the sum over the rows
  of e[r, d] times the one-hot entry of w[r] at class k (a contraction over the rows with the one-hot matrix), added to
  what the accumulator held; its contribution to the count of class k is the sum of the one-hot entries (a contraction
  of a column of ones). The reset stores zeros.
-/
import proofs.«406991_j27075473834528_3_alg».proof.Proof.Gen.KernelIdeal.Skeleton
import proofs.«406991_j27075473834528_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg0Body

open Cert.KernelIdeal Cert.KernelIdeal.Gen Idealize.ShloMosaic Idealize.ShloMosaic.ValueIdx CenterLoss

/-- The bf16 word 0x3F80 is the number one. -/
theorem ofBits_one_bf16 : Ideal.ofBits .bf16 0x3F80#16 = 1 := by
  simp [Ideal.ofBits, Ideal.ieee, -EReal.coe_mul]; norm_num

/-- The one-bit answer of a word equality test, widened to 32 bits and read as a signed integer, is 1 where the
    words are equal and 0 elsewhere. -/
theorem hot_scalar (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    have h1 : IntOp.cmpi .eq a a = 1#1 := by simp [IntOp.cmpi]
    rw [h1, if_pos rfl]
    have h2 : ((1#1 : BitVec 1).setWidth 32).toInt = 1 := by decide
    rw [h2]; simp
  · have hb : (a == b) = false := beq_eq_false_iff_ne.mpr h
    have h1 : IntOp.cmpi .eq a b = 0#1 := by
      show BitVec.ofBool (a == b) = 0#1
      rw [hb]; rfl
    rw [h1, if_neg h]
    have h2 : ((0#1 : BitVec 1).setWidth 32).toInt = 0 := by decide
    rw [h2]; simp

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot block at (r, k): the one-hot entry of row r's class word at class k. -/
theorem pay3_apply (w : Vec Ideal S4096x1 .i32) (r : Fin 4096) (k : Fin 1024) :
    (k0_pay3 (F := Ideal) w : S4096x1024.Idx → EReal) (ix2 r k) = hot ((w : S4096x1.Idx → BitVec 32) (ix2 r 0)) k := by
  unfold k0_pay3
  show (FloatOps.sitofp (F := Ideal) .f32 ((IntOp.cmpi .eq (broadcastTo S4096x1024 (shapeCast S4096x1 w shapeCasts_S4096x1_S4096x1) broadcasts_S4096x1_S4096x1024 (ix2 r k)) (broadcastTo S4096x1024 (iota .tc S1x1024 32 [1] iota_S1x1024_d1_w32) broadcasts_S1x1024_S4096x1024 (ix2 r k))).setWidth 32) : EReal) = _
  rw [hot_scalar, broadcastTo_a1_ab_apply, broadcastTo_1b_ab_apply, shapeCast_self, iota_single_apply]
  rfl

/-! The operand indices of the sums contraction (the rows of both operands are contracted). -/

theorem lhsS_0 (j : S128x1024.Idx) (q : dot_S4096x128_S4096x1024_S128x1024_0_0_1_1_n_n.contr.Idx) :
    (dot_S4096x128_S4096x1024_S128x1024_0_0_1_1_n_n.lhsIdx j q 0).val = (q ⟨0, by decide⟩).val :=
  DotDims.lhsIdx_val_of_single _ (cl := 0) rfl j q

theorem lhsS_1 (j : S128x1024.Idx) (q : dot_S4096x128_S4096x1024_S128x1024_0_0_1_1_n_n.contr.Idx) :
    (dot_S4096x128_S4096x1024_S128x1024_0_0_1_1_n_n.lhsIdx j q 1).val = (j 0).val := by
  simp [DotDims.lhsIdx, dot_S4096x128_S4096x1024_S128x1024_0_0_1_1_n_n]; rfl

theorem rhsS_0 (j : S128x1024.Idx) (q : dot_S4096x128_S4096x1024_S128x1024_0_0_1_1_n_n.contr.Idx) :
    (dot_S4096x128_S4096x1024_S128x1024_0_0_1_1_n_n.rhsIdx j q 0).val = (q ⟨0, by decide⟩).val :=
  DotDims.rhsIdx_val_of_single _ (cr := 0) rfl j q

theorem rhsS_1 (j : S128x1024.Idx) (q : dot_S4096x128_S4096x1024_S128x1024_0_0_1_1_n_n.contr.Idx) :
    (dot_S4096x128_S4096x1024_S128x1024_0_0_1_1_n_n.rhsIdx j q 1).val = (j 1).val := by
  simp [DotDims.rhsIdx, dot_S4096x128_S4096x1024_S128x1024_0_0_1_1_n_n]; rfl

/-- The sums contraction into a zero accumulator, at (d, k): the sum over the rows of the products. -/
theorem matmulS_apply (A : FVec Ideal S4096x128 .bf16) (B : FVec Ideal S4096x1024 .bf16) (d : Fin 128) (k : Fin 1024) :
    FloatOps.matmul dot_S4096x128_S4096x1024_S128x1024_0_0_1_1_n_n none A B
        (constant (F := Ideal) S128x1024 .f32 0x00000000#32) (ix2 d k)
      = ∑ r : Fin 4096, A (ix2 r d) * B (ix2 r k) := by
  rw [Ideal.matmul_constant_zero_apply,
    ← Equiv.sum_comp (contrEquiv1 dot_S4096x128_S4096x1024_S128x1024_0_0_1_1_n_n 4096 rfl rfl).symm]
  refine Finset.sum_congr rfl fun r _ => ?_
  have hq := contrEquiv1_symm_val dot_S4096x128_S4096x1024_S128x1024_0_0_1_1_n_n 4096 rfl rfl r
  have hl : dot_S4096x128_S4096x1024_S128x1024_0_0_1_1_n_n.lhsIdx (ix2 d k)
      ((contrEquiv1 dot_S4096x128_S4096x1024_S128x1024_0_0_1_1_n_n 4096 rfl rfl).symm r) = ix2 r d := by
    funext a; apply Fin.ext
    match a with
    | ⟨0, _⟩ => exact (lhsS_0 _ _).trans hq
    | ⟨1, _⟩ => exact lhsS_1 _ _
  have hr : dot_S4096x128_S4096x1024_S128x1024_0_0_1_1_n_n.rhsIdx (ix2 d k)
      ((contrEquiv1 dot_S4096x128_S4096x1024_S128x1024_0_0_1_1_n_n 4096 rfl rfl).symm r) = ix2 r k := by
    funext a; apply Fin.ext
    match a with
    | ⟨0, _⟩ => exact (rhsS_0 _ _).trans hq
    | ⟨1, _⟩ => exact rhsS_1 _ _
  rw [hl, hr]

/-! The operand indices of the counts contraction (the rows of both operands are contracted). -/

theorem lhsC_0 (j : S1x1024.Idx) (q : dot_S4096x1_S4096x1024_S1x1024_0_0_1_1_n_n.contr.Idx) :
    (dot_S4096x1_S4096x1024_S1x1024_0_0_1_1_n_n.lhsIdx j q 0).val = (q ⟨0, by decide⟩).val :=
  DotDims.lhsIdx_val_of_single _ (cl := 0) rfl j q

theorem lhsC_1 (j : S1x1024.Idx) (q : dot_S4096x1_S4096x1024_S1x1024_0_0_1_1_n_n.contr.Idx) :
    (dot_S4096x1_S4096x1024_S1x1024_0_0_1_1_n_n.lhsIdx j q 1).val = (j 0).val := by
  have h1 : (dot_S4096x1_S4096x1024_S1x1024_0_0_1_1_n_n.lhsIdx j q 1).val < 1 :=
    (dot_S4096x1_S4096x1024_S1x1024_0_0_1_1_n_n.lhsIdx j q 1).isLt
  have h2 : (j 0).val < 1 := (j 0).isLt
  omega

theorem rhsC_0 (j : S1x1024.Idx) (q : dot_S4096x1_S4096x1024_S1x1024_0_0_1_1_n_n.contr.Idx) :
    (dot_S4096x1_S4096x1024_S1x1024_0_0_1_1_n_n.rhsIdx j q 0).val = (q ⟨0, by decide⟩).val :=
  DotDims.rhsIdx_val_of_single _ (cr := 0) rfl j q

theorem rhsC_1 (j : S1x1024.Idx) (q : dot_S4096x1_S4096x1024_S1x1024_0_0_1_1_n_n.contr.Idx) :
    (dot_S4096x1_S4096x1024_S1x1024_0_0_1_1_n_n.rhsIdx j q 1).val = (j 1).val := by
  simp [DotDims.rhsIdx, dot_S4096x1_S4096x1024_S1x1024_0_0_1_1_n_n]; rfl

/-- The counts contraction into a zero accumulator, at (0, k): the sum over the rows of the products. -/
theorem matmulC_apply (A : FVec Ideal S4096x1 .bf16) (B : FVec Ideal S4096x1024 .bf16) (u : Fin 1) (k : Fin 1024) :
    FloatOps.matmul dot_S4096x1_S4096x1024_S1x1024_0_0_1_1_n_n none A B
        (constant (F := Ideal) S1x1024 .f32 0x00000000#32) (ix2 u k)
      = ∑ r : Fin 4096, A (ix2 r u) * B (ix2 r k) := by
  rw [Ideal.matmul_constant_zero_apply,
    ← Equiv.sum_comp (contrEquiv1 dot_S4096x1_S4096x1024_S1x1024_0_0_1_1_n_n 4096 rfl rfl).symm]
  refine Finset.sum_congr rfl fun r _ => ?_
  have hq := contrEquiv1_symm_val dot_S4096x1_S4096x1024_S1x1024_0_0_1_1_n_n 4096 rfl rfl r
  have hl : dot_S4096x1_S4096x1024_S1x1024_0_0_1_1_n_n.lhsIdx (ix2 u k)
      ((contrEquiv1 dot_S4096x1_S4096x1024_S1x1024_0_0_1_1_n_n 4096 rfl rfl).symm r) = ix2 r u := by
    funext a; apply Fin.ext
    match a with
    | ⟨0, _⟩ => exact (lhsC_0 _ _).trans hq
    | ⟨1, _⟩ => exact lhsC_1 _ _
  have hr : dot_S4096x1_S4096x1024_S1x1024_0_0_1_1_n_n.rhsIdx (ix2 u k)
      ((contrEquiv1 dot_S4096x1_S4096x1024_S1x1024_0_0_1_1_n_n 4096 rfl rfl).symm r) = ix2 r k := by
    funext a; apply Fin.ext
    match a with
    | ⟨0, _⟩ => exact (rhsC_0 _ _).trans hq
    | ⟨1, _⟩ => exact rhsC_1 _ _
  rw [hl, hr]

/-- The reset value of the sums accumulator is zero everywhere. -/
theorem zeros_sums (y : S1x128x1024.Idx) : (k0_pay1 (F := Ideal) : S1x128x1024.Idx → EReal) y = 0 := by
  obtain ⟨u, d, k, rfl⟩ : ∃ (u : Fin 1) (d : Fin 128) (k : Fin 1024), y = ix3 u d k := ⟨y 0, y 1, y 2, eq_ix3 y⟩
  unfold k0_pay1
  rw [shapeCast_ab_1ab_apply]
  exact Ideal.ofBits_zero_f32

/-- The reset value of the counts accumulator is zero everywhere. -/
theorem zeros_counts (y : S1x1x1024.Idx) : (k0_pay2 (F := Ideal) : S1x1x1024.Idx → EReal) y = 0 := by
  obtain ⟨u, d, k, rfl⟩ : ∃ (u : Fin 1) (d : Fin 1) (k : Fin 1024), y = ix3 u d k := ⟨y 0, y 1, y 2, eq_ix3 y⟩
  unfold k0_pay2
  rw [shapeCast_ab_1ab_apply]
  exact Ideal.ofBits_zero_f32

/-- One block's update of the sums accumulator at (d, k). -/
theorem sums_step (w : Vec Ideal S4096x1 .i32) (e : Vec Ideal S4096x128 .f32) (acc : Vec Ideal S1x128x1024 .f32)
    (d : Fin 128) (k : Fin 1024) :
    (k0_pay4 w e acc : S1x128x1024.Idx → EReal) (ix3 0 d k)
      = (acc : S1x128x1024.Idx → EReal) (ix3 0 d k)
        + ∑ r : Fin 4096, (e : S4096x128.Idx → EReal) (ix2 r d) * hot ((w : S4096x1.Idx → BitVec 32) (ix2 r 0)) k := by
  unfold k0_pay4
  rw [shapeCast_ab_1ab_apply, addf_apply, shapeCast_1ab_ab_apply]
  refine (congrArg (_ + ·) (matmulS_apply _ _ d k)).trans ?_
  refine congrArg (_ + ·) (Finset.sum_congr rfl fun r _ => ?_)
  rw [truncf_apply, pay3_apply]

/-- One block's update of the counts accumulator at k. -/
theorem counts_step (w : Vec Ideal S4096x1 .i32) (acc : Vec Ideal S1x1x1024 .f32) (k : Fin 1024) :
    (k0_pay5 w acc : S1x1x1024.Idx → EReal) (ix3 0 0 k)
      = (acc : S1x1x1024.Idx → EReal) (ix3 0 0 k)
        + ∑ r : Fin 4096, hot ((w : S4096x1.Idx → BitVec 32) (ix2 r 0)) k := by
  unfold k0_pay5
  rw [shapeCast_ab_1ab_apply, addf_apply, shapeCast_1ab_ab_apply]
  refine (congrArg (_ + ·) (matmulC_apply _ _ 0 k)).trans ?_
  refine congrArg (_ + ·) (Finset.sum_congr rfl fun r _ => ?_)
  rw [pay3_apply]
  show Ideal.ofBits .bf16 0x3F80#16 * _ = _
  rw [ofBits_one_bf16, one_mul]

end Cert.KernelIdeal.Reg0Body

end
-- ==== Proof.Reg0Inv.lean ====
/-
  What the first pass's two accumulators hold after each point. Half j of the samples is visited in 64 consecutive
  blocks of 4096 rows; the accumulators are reset at the half's first block and carried through the rest. So after block
  i of half j the sums accumulator holds, at (d, k), the sum over the blocks 0..i of the half and the rows of each of
  x[row, d] times the one-hot entry of the row's class word at k, and the counts accumulator the sum of the one-hot
  entries: the reset's zero plus the first block's contribution, then one more block's contribution per point.
-/
import proofs.«406991_j27075473834528_3_alg».proof.Proof.Gen.KernelIdeal.Frame
import proofs.«406991_j27075473834528_3_alg».proof.Proof.KArrays
import proofs.«406991_j27075473834528_3_alg».proof.Proof.Reg0Body
import Idealize.ShloMosaic.Lib.Pipeline.Value
import Idealize.ShloMosaic.Lib.ValueIdx
import Idealize.ShloMosaic.Lib.Tactic

noncomputable section

namespace Cert.KernelIdeal.Reg0Inv

open Cert.KernelIdeal Cert.KernelIdeal.Gen Cert.KernelIdeal.Hand Idealize.ShloMosaic Idealize.ShloMosaic.TcCoe
open Idealize.ShloMosaic.ValueIdx Idealize.SL.Sem CenterLoss
open Idealize.ShloMosaic.Pipeline (Dat)

variable (V : (c : Dev nD) → (b : Ref sig .tc) → Buf (Elt Ideal) ((c : Thread nD τ).loc b))

/-! ## What one run of the body leaves in the two accumulators

In either case the last store to an accumulator covers it, so what is read back is that store's value: the block
update applied to the words, the samples and the accumulator's contents before it — the carried contents when the
accumulators are kept, the zeros just stored when they are reset. -/

theorem zeros2 : (![0, 0] : Fin 2 → Nat) = fun _ => 0 := funext fun a => by fin_cases a <;> rfl
theorem zeros3 : (![0, 0, 0] : Fin 3 → Nat) = fun _ => 0 := funext fun a => by fin_cases a <;> rfl

section Cases
variable {F : FTy → Type} [FloatOps F]

/-- Accumulators kept: the sums accumulator ends at the block update of what it held. -/
theorem kept_sums (c : Dev nD) (i : grid0.Coords) (a2 : Memref sig .tc .vmem S4096x128 .f32) (h2 : a2.IsWhole)
    (a3 : Memref sig .tc .vmem S4096x1 .i32) (h3 : a3.IsWhole) (a4 : Memref sig .tc .vmem S1x128x1024 .f32) (h4 : a4.IsWhole)
    (a5 : Memref sig .tc .vmem S1x1x1024 .f32) (h5 : a5.IsWhole) (hc : ¬cond0_0 i)
    (x0 : Vec F S4096x128 .f32) (x1 : Vec F S4096x1 .i32) (xo2 : Vec F S1x128x1024 .f32) (xo3 : Vec F S1x1x1024 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero zeros3]
  simp only [View.readAt_eq_ld, h2.read_unread, h3.read_unread, h4.read_unread, View.ld_unit_zero (S := S4096x1) zeros2,
    View.ld_unit_zero (S := S4096x128) zeros2, View.ld_unit_zero (S := S1x128x1024) zeros3]

/-- Accumulators kept: the counts accumulator ends at the block update of what it held. -/
theorem kept_counts (c : Dev nD) (i : grid0.Coords) (a2 : Memref sig .tc .vmem S4096x128 .f32) (h2 : a2.IsWhole)
    (a3 : Memref sig .tc .vmem S4096x1 .i32) (h3 : a3.IsWhole) (a4 : Memref sig .tc .vmem S1x128x1024 .f32) (h4 : a4.IsWhole)
    (a5 : Memref sig .tc .vmem S1x1x1024 .f32) (h5 : a5.IsWhole) (hc : ¬cond0_0 i)
    (x0 : Vec F S4096x128 .f32) (x1 : Vec F S4096x1 .i32) (xo2 : Vec F S1x128x1024 .f32) (xo3 : Vec F S1x1x1024 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero zeros3]
  simp only [View.readAt_eq_ld, h3.read_unread, h5.read_unread, View.ld_unit_zero (S := S4096x1) zeros2,
    View.ld_unit_zero (S := S1x1x1024) zeros3]

/-- Accumulators reset: the sums accumulator ends at the block update of the zeros. -/
theorem reset_sums (c : Dev nD) (i : grid0.Coords) (a2 : Memref sig .tc .vmem S4096x128 .f32) (h2 : a2.IsWhole)
    (a3 : Memref sig .tc .vmem S4096x1 .i32) (h3 : a3.IsWhole) (a4 : Memref sig .tc .vmem S1x128x1024 .f32) (h4 : a4.IsWhole)
    (a5 : Memref sig .tc .vmem S1x1x1024 .f32) (h5 : a5.IsWhole) (hc : cond0_0 i)
    (x0 : Vec F S4096x128 .f32) (x1 : Vec F S4096x1 .i32) :
    out0_A_2 c i a2 h2 a3 h3 a4 h4 a5 h5 hc x0 x1 = k0_pay4 x1 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x128x1024) zeros3, View.readCov_unit_zero (S := S1x128x1024) _ zeros3]
  simp only [View.readAt_eq_ld, h2.read_unread, h3.read_unread, View.ld_unit_zero (S := S4096x1) zeros2,
    View.ld_unit_zero (S := S4096x128) zeros2]

/-- Accumulators reset: the counts accumulator ends at the block update of the zeros. -/
theorem reset_counts (c : Dev nD) (i : grid0.Coords) (a2 : Memref sig .tc .vmem S4096x128 .f32) (h2 : a2.IsWhole)
    (a3 : Memref sig .tc .vmem S4096x1 .i32) (h3 : a3.IsWhole) (a4 : Memref sig .tc .vmem S1x128x1024 .f32) (h4 : a4.IsWhole)
    (a5 : Memref sig .tc .vmem S1x1x1024 .f32) (h5 : a5.IsWhole) (hc : cond0_0 i)
    (x0 : Vec F S4096x128 .f32) (x1 : Vec F S4096x1 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1024) zeros3, View.readCov_unit_zero (S := S1x1x1024) _ zeros3]
  simp only [View.readAt_eq_ld, h3.read_unread, View.ld_unit_zero (S := S4096x1) zeros2]

end Cases

/-! ## The blocks of a point

Point t of the 128 stages rows 4096 t … 4096 t + 4095 of the samples and of the class-word column, and works on block
t / 64 of each result array. -/

/-- The samples' block at a point. -/
abbrev xblk (c : Dev nD) (t : Fin cfg0.N) : Vec Ideal S4096x128 .f32 := iblk0 V c 0 t
/-- The class words' block at a point. -/
abbrev wblk (c : Dev nD) (t : Fin cfg0.N) : Vec Ideal S4096x1 .i32 := iblk0 V c 1 t

/-- The block indices at a point: the point itself for the two inputs, its half for the two results. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

/-- Row r of block b when the samples are cut into 128 blocks of 4096 rows (the block number read modulo 128). -/
def rowAt (b : ℕ) (r : Fin 4096) : Fin 524288 := ⟨b % 128 * 4096 + r.val, by omega⟩

/-- Block 64 j + i is block i of half j. -/
theorem rowAt_half (j : Fin 2) (i : Fin 64) (r : Fin 4096) : rowAt (j.val * 64 + i.val) r = row0 j i r :=
  Fin.ext (by show (j.val * 64 + i.val) % 128 * 4096 + r.val = (j.val * 64 + i.val) * 4096 + r.val; omega)

/-- The samples' block at point t holds rows 4096 t + r. -/
theorem xblk_apply (c : Dev nD) (t : Fin cfg0.N) (r : Fin 4096) (d : Fin 128) :
    (xblk V c t : S4096x128.Idx → EReal) (ix2 r d) = xs V c (rowAt t.val r) d := by
  have hN : t.val < 128 := lt_of_lt_of_eq t.isLt (show cfg0.N = 128 from N_0)
  obtain ⟨e0, e1, -⟩ := block_index t
  unfold xblk iblk0
  rw [View.read_apply]
  show (V c main_arg0 : S524288x128.Idx → EReal) _ = (V c main_arg0 : S524288x128.Idx → EReal) (ix2 (rowAt t.val r) d)
  congr 1
  funext a
  apply Fin.ext
  match a with
  | ⟨0, _⟩ =>
    show win0_0.index t (0 : Fin 2) * 4096 + 1 * r.val = t.val % 128 * 4096 + r.val
    rw [e0]; omega
  | ⟨1, _⟩ =>
    show win0_0.index t (1 : Fin 2) * 128 + 1 * d.val = d.val
    rw [e1]; omega

/-- The class words' block at point t holds the words of rows 4096 t + r. -/
theorem wblk_apply (c : Dev nD) (t : Fin cfg0.N) (r : Fin 4096) :
    (wblk V c t : S4096x1.Idx → BitVec 32) (ix2 r 0) = ts V c (rowAt t.val r) := by
  have hN : t.val < 128 := lt_of_lt_of_eq t.isLt (show cfg0.N = 128 from N_0)
  obtain ⟨-, -, e0, e1, -⟩ := block_index t
  unfold wblk iblk0
  rw [View.read_apply]
  show (V c main_v0 : S524288x1.Idx → BitVec 32) _ = (V c main_v0 : S524288x1.Idx → BitVec 32) (ix2 (rowAt t.val r) 0)
  congr 1
  funext a
  apply Fin.ext
  match a with
  | ⟨0, _⟩ =>
    show win0_1.index t (0 : Fin 2) * 4096 + 1 * r.val = t.val % 128 * 4096 + r.val
    rw [e0]; omega
  | ⟨1, _⟩ =>
    show win0_1.index t (1 : Fin 2) * 1 + 1 * 0 = 0
    rw [e1]

/-! ## One block's contribution -/

/-- Block b's contribution to the sum of coordinate d over padded class k. -/
def blockSum (c : Dev nD) (b : ℕ) (d : Fin 128) (k : Fin 1024) : EReal :=
  ∑ r : Fin 4096, xs V c (rowAt b r) d * hot (ts V c (rowAt b r)) k

/-- Block b's contribution to the count of padded class k. -/
def blockCnt (c : Dev nD) (b : ℕ) (k : Fin 1024) : EReal := ∑ r : Fin 4096, hot (ts V c (rowAt b r)) k

/-- The update of the sums accumulator at point t adds block t's contribution. -/
theorem sums_update (c : Dev nD) (t : Fin cfg0.N) (acc : Vec Ideal S1x128x1024 .f32) (d : Fin 128) (k : Fin 1024) :
    (k0_pay4 (wblk V c t) (xblk V c t) acc : S1x128x1024.Idx → EReal) (ix3 0 d k)
      = (acc : S1x128x1024.Idx → EReal) (ix3 0 d k) + blockSum V c t.val d k := by
  refine (Reg0Body.sums_step (wblk V c t) (xblk V c t) acc d k).trans ?_
  refine congrArg (fun z => (acc : S1x128x1024.Idx → EReal) (ix3 0 d k) + z) (Finset.sum_congr rfl fun r _ => ?_)
  rw [xblk_apply V c t r d, wblk_apply V c t r]

/-- The update of the counts accumulator at point t adds block t's contribution. -/
theorem counts_update (c : Dev nD) (t : Fin cfg0.N) (acc : Vec Ideal S1x1x1024 .f32) (k : Fin 1024) :
    (k0_pay5 (wblk V c t) acc : S1x1x1024.Idx → EReal) (ix3 0 0 k)
      = (acc : S1x1x1024.Idx → EReal) (ix3 0 0 k) + blockCnt V c t.val k := by
  refine (Reg0Body.counts_step (wblk V c t) acc k).trans ?_
  refine congrArg (fun z => (acc : S1x1x1024.Idx → EReal) (ix3 0 0 k) + z) (Finset.sum_congr rfl fun r _ => ?_)
  rw [wblk_apply V c t r]

/-! ## The accumulators after each point -/

/-- After the first point of a half the sums accumulator holds that block's contribution. -/
theorem sums_first (c : Dev nD) (t : Fin cfg0.N) (h0 : t.val % 64 = 0) (d : Fin 128) (k : Fin 1024) :
    ((outsAt0 V c t.val t.isLt).1 : S1x128x1024.Idx → EReal) (ix3 0 d k) = blockSum V c t.val d k := by
  rw [outsAt0_A V c t h0]
  dsimp only
  refine (congrFun (reset_sums (F := Ideal) c (grid0.coords t) (ms0_0 t) (hs0_0 t) (ms0_1 t) (hs0_1 t) (ms0_2 t) (hs0_2 t)
    (ms0_3 t) (hs0_3 t) ((hcond0_0 t).mpr h0) (xblk V c t) (wblk V c t)) (ix3 0 d k)).trans ?_
  rw [sums_update V c t (k0_pay1 (F := Ideal)) d k, Reg0Body.zeros_sums, zero_add]

/-- After a later point of a half it holds what it held, and that block's contribution. -/
theorem sums_next (c : Dev nD) (t : Fin cfg0.N) (h0 : ¬t.val % 64 = 0) (d : Fin 128) (k : Fin 1024) :
    ((outsAt0 V c t.val t.isLt).1 : S1x128x1024.Idx → EReal) (ix3 0 d k)
      = ((outsAt0 V c (t.val - 1) (Nat.lt_of_le_of_lt (Nat.sub_le _ _) t.isLt)).1 : S1x128x1024.Idx → EReal) (ix3 0 d k)
        + blockSum V c t.val d k := by
  rw [outsAt0_B V c t h0]
  dsimp only
  refine (congrFun (kept_sums (F := Ideal) c (grid0.coords t) (ms0_0 t) (hs0_0 t) (ms0_1 t) (hs0_1 t) (ms0_2 t) (hs0_2 t)
    (ms0_3 t) (hs0_3 t) (fun h => h0 ((hcond0_0 t).mp h)) (xblk V c t) (wblk V c t)
    (outsAt0 V c (t.val - 1) (Nat.lt_of_le_of_lt (Nat.sub_le _ _) t.isLt)).1
    (outsAt0 V c (t.val - 1) (Nat.lt_of_le_of_lt (Nat.sub_le _ _) t.isLt)).2) (ix3 0 d k)).trans ?_
  exact sums_update V c t (outsAt0 V c (t.val - 1) (Nat.lt_of_le_of_lt (Nat.sub_le _ _) t.isLt)).1 d k

/-- After the first point of a half the counts accumulator holds that block's contribution. -/
theorem counts_first (c : Dev nD) (t : Fin cfg0.N) (h0 : t.val % 64 = 0) (k : Fin 1024) :
    ((outsAt0 V c t.val t.isLt).2 : S1x1x1024.Idx → EReal) (ix3 0 0 k) = blockCnt V c t.val k := by
  rw [outsAt0_A V c t h0]
  dsimp only
  refine (congrFun (reset_counts (F := Ideal) c (grid0.coords t) (ms0_0 t) (hs0_0 t) (ms0_1 t) (hs0_1 t) (ms0_2 t) (hs0_2 t)
    (ms0_3 t) (hs0_3 t) ((hcond0_0 t).mpr h0) (xblk V c t) (wblk V c t)) (ix3 0 0 k)).trans ?_
  rw [counts_update V c t (k0_pay2 (F := Ideal)) k, Reg0Body.zeros_counts, zero_add]

/-- After a later point of a half it holds what it held, and that block's contribution. -/
theorem counts_next (c : Dev nD) (t : Fin cfg0.N) (h0 : ¬t.val % 64 = 0) (k : Fin 1024) :
    ((outsAt0 V c t.val t.isLt).2 : S1x1x1024.Idx → EReal) (ix3 0 0 k)
      = ((outsAt0 V c (t.val - 1) (Nat.lt_of_le_of_lt (Nat.sub_le _ _) t.isLt)).2 : S1x1x1024.Idx → EReal) (ix3 0 0 k)
        + blockCnt V c t.val k := by
  rw [outsAt0_B V c t h0]
  dsimp only
  refine (congrFun (kept_counts (F := Ideal) c (grid0.coords t) (ms0_0 t) (hs0_0 t) (ms0_1 t) (hs0_1 t) (ms0_2 t) (hs0_2 t)
    (ms0_3 t) (hs0_3 t) (fun h => h0 ((hcond0_0 t).mp h)) (xblk V c t) (wblk V c t)
    (outsAt0 V c (t.val - 1) (Nat.lt_of_le_of_lt (Nat.sub_le _ _) t.isLt)).1
    (outsAt0 V c (t.val - 1) (Nat.lt_of_le_of_lt (Nat.sub_le _ _) t.isLt)).2) (ix3 0 0 k)).trans ?_
  exact counts_update V c t (outsAt0 V c (t.val - 1) (Nat.lt_of_le_of_lt (Nat.sub_le _ _) t.isLt)).2 k

/-- A running sum over the blocks of a half: started anew at each multiple of 64 and extended by one block at every
    other point, it is at point n the sum of the blocks from the last multiple of 64 up to n. -/
theorem running (f : (n : ℕ) → n < cfg0.N → EReal) (g : ℕ → EReal)
    (hfirst : ∀ (n : ℕ) (h : n < cfg0.N), n % 64 = 0 → f n h = g n)
    (hnext : ∀ (n : ℕ) (h : n + 1 < cfg0.N), ¬(n + 1) % 64 = 0 → f (n + 1) h = f n (Nat.lt_of_succ_lt h) + g (n + 1)) :
    ∀ (n : ℕ) (h : n < cfg0.N), f n h = ∑ s ∈ Finset.range (n % 64 + 1), g (n - n % 64 + s) := by
  intro n
  induction n with
  | zero =>
    intro h
    rw [hfirst 0 h rfl]
    simp
  | succ n ih =>
    intro h
    by_cases h0 : (n + 1) % 64 = 0
    · rw [hfirst (n + 1) h h0, h0]
      simp
    · have hm : (n + 1) % 64 = n % 64 + 1 := by omega
      have hb : n + 1 - (n % 64 + 1) = n - n % 64 := by omega
      rw [hnext n h h0, ih (Nat.lt_of_succ_lt h), hm, hb, Finset.sum_range_succ (fun s => g (n - n % 64 + s)) (n % 64 + 1)]
      congr 2
      omega

/-- The sums accumulator after point n. -/
theorem sums_run (c : Dev nD) (d : Fin 128) (k : Fin 1024) (n : ℕ) (h : n < cfg0.N) :
    ((outsAt0 V c n h).1 : S1x128x1024.Idx → EReal) (ix3 0 d k)
      = ∑ s ∈ Finset.range (n % 64 + 1), blockSum V c (n - n % 64 + s) d k :=
  running (fun n h => ((outsAt0 V c n h).1 : S1x128x1024.Idx → EReal) (ix3 0 d k)) (fun b => blockSum V c b d k)
    (fun n h h0 => sums_first V c ⟨n, h⟩ h0 d k) (fun n h h0 => sums_next V c ⟨n + 1, h⟩ h0 d k) n h

/-- The counts accumulator after point n. -/
theorem counts_run (c : Dev nD) (k : Fin 1024) (n : ℕ) (h : n < cfg0.N) :
    ((outsAt0 V c n h).2 : S1x1x1024.Idx → EReal) (ix3 0 0 k)
      = ∑ s ∈ Finset.range (n % 64 + 1), blockCnt V c (n - n % 64 + s) k :=
  running (fun n h => ((outsAt0 V c n h).2 : S1x1x1024.Idx → EReal) (ix3 0 0 k)) (fun b => blockCnt V c b k)
    (fun n h h0 => counts_first V c ⟨n, h⟩ h0 k) (fun n h h0 => counts_next V c ⟨n + 1, h⟩ h0 k) n h

/-- A sum over the first i + 1 of 64 terms, written over all 64 with the later ones replaced by zero. -/
theorem sum_upto (G : ℕ → EReal) (i : Fin 64) :
    ∑ s ∈ Finset.range (i.val + 1), G s = ∑ i' : Fin 64, if i'.val ≤ i.val then G i'.val else 0 := by
  rw [← Finset.sum_range (fun s => if s ≤ i.val then G s else 0), ← Finset.sum_filter]
  refine Finset.sum_congr ?_ fun _ _ => rfl
  ext s
  simp only [Finset.mem_range, Finset.mem_filter]
  omega

/-- The sums accumulator after block i of half j. -/
theorem sums_at (c : Dev nD) (j : Fin 2) (i : Fin 64) (d : Fin 128) (k : Fin 1024) (h : j.val * 64 + i.val < cfg0.N) :
    ((outsAt0 (F := Ideal) V c (j.val * 64 + i.val) h).1 : S1x128x1024.Idx → EReal) (ix3 0 d k)
      = ∑ i' : Fin 64, if i'.val ≤ i.val then
          ∑ r : Fin 4096, xs V c (row0 j i' r) d * hot (ts V c (row0 j i' r)) k else 0 := by
  have e1 : (j.val * 64 + i.val) % 64 = i.val := by omega
  have e2 : j.val * 64 + i.val - i.val = j.val * 64 := by omega
  rw [sums_run V c d k (j.val * 64 + i.val) h, e1, e2, sum_upto (fun s => blockSum V c (j.val * 64 + s) d k) i]
  refine Finset.sum_congr rfl fun i' _ => ?_
  by_cases hi : i'.val ≤ i.val
  · rw [if_pos hi, if_pos hi]
    unfold blockSum
    refine Finset.sum_congr rfl fun r _ => ?_
    rw [rowAt_half]
  · rw [if_neg hi, if_neg hi]

/-- The counts accumulator after block i of half j. -/
theorem counts_at (c : Dev nD) (j : Fin 2) (i : Fin 64) (k : Fin 1024) (h : j.val * 64 + i.val < cfg0.N) :
    ((outsAt0 (F := Ideal) V c (j.val * 64 + i.val) h).2 : S1x1x1024.Idx → EReal) (ix3 0 0 k)
      = ∑ i' : Fin 64, if i'.val ≤ i.val then ∑ r : Fin 4096, hot (ts V c (row0 j i' r)) k else 0 := by
  have e1 : (j.val * 64 + i.val) % 64 = i.val := by omega
  have e2 : j.val * 64 + i.val - i.val = j.val * 64 := by omega
  rw [counts_run V c k (j.val * 64 + i.val) h, e1, e2, sum_upto (fun s => blockCnt V c (j.val * 64 + s) k) i]
  refine Finset.sum_congr rfl fun i' _ => ?_
  by_cases hi : i'.val ≤ i.val
  · rw [if_pos hi, if_pos hi]
    unfold blockCnt
    refine Finset.sum_congr rfl fun r _ => ?_
    rw [rowAt_half]
  · rw [if_neg hi, if_neg hi]

end Cert.KernelIdeal.Reg0Inv

end
-- ==== Proof.Reg0.lean ====
/-
  What the first pass leaves in its two result arrays. Half j of the samples is visited in 64 consecutive blocks of
  4096 rows; the accumulators are reset at the first block of a half and written back after its last. So entry
  (j, d, k) of the sums array is the sum over the half's blocks and rows of x[row, d] times the one-hot entry of the
  row's class word at k, and entry (j, 0, k) of the counts array the sum of the one-hot entries.

  The road: each result array is cut into two blocks, one per half, block j lying at first coordinate j. A block is
  written back once, after the last of its half's 64 points, and what is written is the accumulator after that point:
  the sum over all 64 blocks of rows of the half. The two written blocks cover the array, so the array ends as the
  function (j, d, k) ↦ half j's sum.
-/
import proofs.«406991_j27075473834528_3_alg».proof.Proof.Gen.KernelIdeal.Frame
import proofs.«406991_j27075473834528_3_alg».proof.Proof.KArrays
import proofs.«406991_j27075473834528_3_alg».proof.Proof.Reg0Inv
import Idealize.ShloMosaic.Lib.Pipeline.Value
import Idealize.ShloMosaic.Lib.ValueIdx
import Idealize.ShloMosaic.Lib.Tactic

noncomputable section

namespace Cert.KernelIdeal.Reg0

open Cert.KernelIdeal Cert.KernelIdeal.Gen Cert.KernelIdeal.Hand Idealize.ShloMosaic Idealize.ShloMosaic.TcCoe
open Idealize.ShloMosaic.ValueIdx Idealize.SL.Sem CenterLoss
open Idealize.ShloMosaic.Pipeline (Dat)

variable (V : (c : Dev nD) → (b : Ref sig .tc) → Buf (Elt Ideal) ((c : Thread nD τ).loc b))

/-! ## Where the result blocks lie -/

/-- The block of either result array at point t is block t / 64 along the first axis and block 0 along the others:
    the half the point belongs to. -/
theorem block_index : ∀ t : Fin cfg0.N,
    win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

/-! ## The accumulators after the last block of a half -/

/-- After the 64th block of half j every block of the half has been added: the sums accumulator holds the half's sum. -/
theorem sums_last (c : Dev nD) (j : Fin 2) (d : Fin 128) (k : Fin 1024) (h : j.val * 64 + 63 < cfg0.N) :
    ((outsAt0 (F := Ideal) V c (j.val * 64 + 63) h).1 : S1x128x1024.Idx → EReal) (ix3 0 d k)
      = kSumPart (xs V c) (ts V c) j d k := by
  refine (Reg0Inv.sums_at V c j ⟨63, by omega⟩ d k h).trans ?_
  unfold kSumPart
  exact Finset.sum_congr rfl fun i' _ => if_pos (by have := i'.isLt; show i'.val ≤ 63; omega)

/-- After the 64th block of half j the counts accumulator holds the half's count. -/
theorem counts_last (c : Dev nD) (j : Fin 2) (k : Fin 1024) (h : j.val * 64 + 63 < cfg0.N) :
    ((outsAt0 (F := Ideal) V c (j.val * 64 + 63) h).2 : S1x1x1024.Idx → EReal) (ix3 0 0 k)
      = kCntPart (ts V c) j k := by
  refine (Reg0Inv.counts_at V c j ⟨63, by omega⟩ k h).trans ?_
  unfold kCntPart
  exact Finset.sum_congr rfl fun i' _ => if_pos (by have := i'.isLt; show i'.val ≤ 63; omega)

/-! ## The sums array -/

/-- The sums array as one function of the index: entry (j, d, k) is half j's sum of coordinate d over class k. -/
def sumsArr (c : Dev nD) : S2x128x1024.Idx → EReal := fun y => kSumPart (xs V c) (ts V c) (y 0) (y 1) (y 2)

/-- What a point that writes the sums block back writes is its block of that function: the point is the last of its
    half t / 64, the accumulator there holds the half's sums, and element (0, d, k) of the block sits at
    (t / 64, d, k) of the array. -/
theorem flushed_sums (c : Dev nD) (t : Fin cfg0.N) (hf : (cfg0.win 2).flush t = true) :
    (dat0 (F := Ideal) V c).flushed 2 t = ((cfg0.win 2).blk t).view.read (Elt Ideal) (sumsArr V c) := by
  have hN : t.val < 128 := lt_of_lt_of_eq t.isLt (show cfg0.N = 128 from N_0)
  have h63 : t.val % 64 = 63 := (flush0_2 t).mp hf
  obtain ⟨e0, e1, e2, -, -, -⟩ := block_index t
  show (cfg0.win 2).cut (grid0.coords t) ((dat0 V c).after 2 t) = _
  rw [after0_2]
  funext y
  have hy0 : (y 0).val < 1 := (y 0).isLt
  have hy1 : (y 1).val < 128 := (y 1).isLt
  have hy2 : (y 2).val < 1024 := (y 2).isLt
  have hj : t.val / 64 < 2 := by omega
  have hin : win0_2.xinj (grid0.coords t) y
      = ix3 (0 : Fin 1) (⟨(y 1).val, hy1⟩ : Fin 128) (⟨(y 2).val, hy2⟩ : Fin 1024) := by
    funext a
    apply Fin.ext
    match a with
    | ⟨0, _⟩ => show (y 0).val = 0; omega
    | ⟨1, _⟩ => rfl
    | ⟨2, _⟩ => rfl
  have hemb : ((cfg0.win 2).blk t).view.emb y
      = ix3 (⟨t.val / 64, hj⟩ : Fin 2) (⟨(y 1).val, hy1⟩ : Fin 128) (⟨(y 2).val, hy2⟩ : Fin 1024) := by
    funext a
    apply Fin.ext
    match a with
    | ⟨0, _⟩ => show win0_2.index t (0 : Fin 3) * 1 + 1 * (y 0).val = t.val / 64; omega
    | ⟨1, _⟩ => show win0_2.index t (1 : Fin 3) * 128 + 1 * (y 1).val = (y 1).val; omega
    | ⟨2, _⟩ => show win0_2.index t (2 : Fin 3) * 1024 + 1 * (y 2).val = (y 2).val; omega
  have same : ∀ (u : ℕ) (hu : u < cfg0.N), u = t.val → outsAt0 V c u hu = outsAt0 V c t.val t.isLt :=
    fun u hu e => by subst e; rfl
  have hlast := sums_last V c ⟨t.val / 64, hj⟩ ⟨(y 1).val, hy1⟩ ⟨(y 2).val, hy2⟩
    (lt_of_lt_of_eq (show t.val / 64 * 64 + 63 < 128 by omega) (show (128 : ℕ) = cfg0.N from N_0.symm))
  rw [same _ _ (by show t.val / 64 * 64 + 63 = t.val; omega)] at hlast
  show (outsAt0 V c t.val t.isLt).1 (win0_2.xinj (grid0.coords t) y) = sumsArr V c (((cfg0.win 2).blk t).view.emb y)
  rw [hin, hemb]
  exact hlast

/-- An index of the sums array is in point t's block iff each coordinate is in the block's range on its axis. -/
theorem mem_blk_sums (t : Fin cfg0.N) (i : S2x128x1024.Idx) :
    i ∈ ((cfg0.win 2).blk t).view.set ↔ ∀ a : Fin 3, win0_2.index t a * S1x128x1024.size a ≤ (i a).val
      ∧ (i a).val < win0_2.index t a * S1x128x1024.size a + S1x128x1024.size a := by
  show i ∈ ((View.whole main_v1_0).slice (win0_2.rect t)).set ↔ _
  rw [View.set_slice_whole, Rect.mem_set_unit]
  exact Iff.rfl

/-- Index (j, d, k) lies in the block written back after the last point of half j. -/
theorem cover_sums (i : S2x128x1024.Idx) :
    ∃ t : Fin cfg0.N, (cfg0.win 2).flush t = true ∧ i ∈ ((cfg0.win 2).blk t).view.set := by
  have h0 : (i 0).val < 2 := (i 0).isLt
  have h1 : (i 1).val < 128 := (i 1).isLt
  have h2 : (i 2).val < 1024 := (i 2).isLt
  have hN : (i 0).val * 64 + 63 < cfg0.N := by rw [show cfg0.N = 128 from N_0]; omega
  obtain ⟨e0, e1, e2, -, -, -⟩ := block_index ⟨(i 0).val * 64 + 63, hN⟩
  have e0' : win0_2.index ⟨(i 0).val * 64 + 63, hN⟩ (0 : Fin 3) = (i 0).val := by
    rw [e0]; show ((i 0).val * 64 + 63) / 64 = (i 0).val; omega
  refine ⟨⟨(i 0).val * 64 + 63, hN⟩, (flush0_2 _).mpr (by show ((i 0).val * 64 + 63) % 64 = 63; omega), ?_⟩
  rw [mem_blk_sums]
  intro a
  match a with
  | ⟨0, _⟩ =>
    show win0_2.index ⟨(i 0).val * 64 + 63, hN⟩ (0 : Fin 3) * 1 ≤ (i 0).val
      ∧ (i 0).val < win0_2.index ⟨(i 0).val * 64 + 63, hN⟩ (0 : Fin 3) * 1 + 1
    omega
  | ⟨1, _⟩ =>
    show win0_2.index ⟨(i 0).val * 64 + 63, hN⟩ (1 : Fin 3) * 128 ≤ (i 1).val
      ∧ (i 1).val < win0_2.index ⟨(i 0).val * 64 + 63, hN⟩ (1 : Fin 3) * 128 + 128
    omega
  | ⟨2, _⟩ =>
    show win0_2.index ⟨(i 0).val * 64 + 63, hN⟩ (2 : Fin 3) * 1024 ≤ (i 2).val
      ∧ (i 2).val < win0_2.index ⟨(i 0).val * 64 + 63, hN⟩ (2 : Fin 3) * 1024 + 1024
    omega

/-- The sums array ends as that function: its two blocks are each written once, and they cover it. -/
theorem final_sums (c : Dev nD) : (dat0 (F := Ideal) V c).arrAt 2 cfg0.N = sumsArr V c :=
  (dat0 V c).arrAt_eq_of_cover 2 (sumsArr V c) (flushed_sums V c) cover_sums

/-! ## The counts array -/

/-- The counts array as one function of the index: entry (j, 0, k) is half j's count of class k. -/
def cntsArr (c : Dev nD) : S2x1x1024.Idx → EReal := fun y => kCntPart (ts V c) (y 0) (y 2)

/-- What a point that writes the counts block back writes is its block of that function. -/
theorem flushed_counts (c : Dev nD) (t : Fin cfg0.N) (hf : (cfg0.win 3).flush t = true) :
    (dat0 (F := Ideal) V c).flushed 3 t = ((cfg0.win 3).blk t).view.read (Elt Ideal) (cntsArr V c) := by
  have hN : t.val < 128 := lt_of_lt_of_eq t.isLt (show cfg0.N = 128 from N_0)
  have h63 : t.val % 64 = 63 := (flush0_3 t).mp hf
  obtain ⟨-, -, -, e0, e1, e2⟩ := block_index t
  show (cfg0.win 3).cut (grid0.coords t) ((dat0 V c).after 3 t) = _
  rw [after0_3]
  funext y
  have hy0 : (y 0).val < 1 := (y 0).isLt
  have hy1 : (y 1).val < 1 := (y 1).isLt
  have hy2 : (y 2).val < 1024 := (y 2).isLt
  have hj : t.val / 64 < 2 := by omega
  have hin : win0_3.xinj (grid0.coords t) y = ix3 (0 : Fin 1) (0 : Fin 1) (⟨(y 2).val, hy2⟩ : Fin 1024) := by
    funext a
    apply Fin.ext
    match a with
    | ⟨0, _⟩ => show (y 0).val = 0; omega
    | ⟨1, _⟩ => show (y 1).val = 0; omega
    | ⟨2, _⟩ => rfl
  have hemb : ((cfg0.win 3).blk t).view.emb y
      = ix3 (⟨t.val / 64, hj⟩ : Fin 2) (0 : Fin 1) (⟨(y 2).val, hy2⟩ : Fin 1024) := by
    funext a
    apply Fin.ext
    match a with
    | ⟨0, _⟩ => show win0_3.index t (0 : Fin 3) * 1 + 1 * (y 0).val = t.val / 64; omega
    | ⟨1, _⟩ => show win0_3.index t (1 : Fin 3) * 1 + 1 * (y 1).val = 0; omega
    | ⟨2, _⟩ => show win0_3.index t (2 : Fin 3) * 1024 + 1 * (y 2).val = (y 2).val; omega
  have same : ∀ (u : ℕ) (hu : u < cfg0.N), u = t.val → outsAt0 V c u hu = outsAt0 V c t.val t.isLt :=
    fun u hu e => by subst e; rfl
  have hlast := counts_last V c ⟨t.val / 64, hj⟩ ⟨(y 2).val, hy2⟩
    (lt_of_lt_of_eq (show t.val / 64 * 64 + 63 < 128 by omega) (show (128 : ℕ) = cfg0.N from N_0.symm))
  rw [same _ _ (by show t.val / 64 * 64 + 63 = t.val; omega)] at hlast
  show (outsAt0 V c t.val t.isLt).2 (win0_3.xinj (grid0.coords t) y) = cntsArr V c (((cfg0.win 3).blk t).view.emb y)
  rw [hin, hemb]
  exact hlast

/-- An index of the counts array is in point t's block iff each coordinate is in the block's range on its axis. -/
theorem mem_blk_counts (t : Fin cfg0.N) (i : S2x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v1_1).slice (win0_3.rect t)).set ↔ _
  rw [View.set_slice_whole, Rect.mem_set_unit]
  exact Iff.rfl

/-- Index (j, 0, k) lies in the block written back after the last point of half j. -/
theorem cover_counts (i : S2x1x1024.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1024 := (i 2).isLt
  have hN : (i 0).val * 64 + 63 < cfg0.N := by rw [show cfg0.N = 128 from N_0]; omega
  obtain ⟨-, -, -, e0, e1, e2⟩ := block_index ⟨(i 0).val * 64 + 63, hN⟩
  have e0' : win0_3.index ⟨(i 0).val * 64 + 63, hN⟩ (0 : Fin 3) = (i 0).val := by
    rw [e0]; show ((i 0).val * 64 + 63) / 64 = (i 0).val; omega
  refine ⟨⟨(i 0).val * 64 + 63, hN⟩, (flush0_3 _).mpr (by show ((i 0).val * 64 + 63) % 64 = 63; omega), ?_⟩
  rw [mem_blk_counts]
  intro a
  match a with
  | ⟨0, _⟩ =>
    show win0_3.index ⟨(i 0).val * 64 + 63, hN⟩ (0 : Fin 3) * 1 ≤ (i 0).val
      ∧ (i 0).val < win0_3.index ⟨(i 0).val * 64 + 63, hN⟩ (0 : Fin 3) * 1 + 1
    omega
  | ⟨1, _⟩ =>
    show win0_3.index ⟨(i 0).val * 64 + 63, hN⟩ (1 : Fin 3) * 1 ≤ (i 1).val
      ∧ (i 1).val < win0_3.index ⟨(i 0).val * 64 + 63, hN⟩ (1 : Fin 3) * 1 + 1
    omega
  | ⟨2, _⟩ =>
    show win0_3.index ⟨(i 0).val * 64 + 63, hN⟩ (2 : Fin 3) * 1024 ≤ (i 2).val
      ∧ (i 2).val < win0_3.index ⟨(i 0).val * 64 + 63, hN⟩ (2 : Fin 3) * 1024 + 1024
    omega

/-- The counts array ends as that function. -/
theorem final_counts (c : Dev nD) : (dat0 (F := Ideal) V c).arrAt 3 cfg0.N = cntsArr V c :=
  (dat0 V c).arrAt_eq_of_cover 3 (cntsArr V c) (flushed_counts V c) cover_counts

/-! ## The two arrays read at an index -/

/-- The sums array after the pass. -/
theorem sums (c : Dev nD) (j : Fin 2) (d : Fin 128) (k : Fin 1024) :
    ((dat0 (F := Ideal) V c).arrAt 2 cfg0.N : S2x128x1024.Idx → EReal) (ix3 j d k)
      = kSumPart (xs V c) (ts V c) j d k :=
  congrFun (final_sums V c) (ix3 j d k)

/-- The counts array after the pass. -/
theorem counts (c : Dev nD) (j : Fin 2) (k : Fin 1024) :
    ((dat0 (F := Ideal) V c).arrAt 3 cfg0.N : S2x1x1024.Idx → EReal) (ix3 j 0 k)
      = kCntPart (ts V c) j k :=
  congrFun (final_counts V c) (ix3 j 0 k)

end Cert.KernelIdeal.Reg0

end
-- ==== Proof.Reg1Body.lean ====
/-
  The second pass's block arithmetic read at an index, over the extended reals. For a block of 2048 rows with class
  words `w`, samples `e`, a table `mt` (coordinate d, class k) and a row `q` of squared lengths: each row's distance is
  the square root of max(|e_r|^2 + sum over k' of onehot(w_r, k') (q[k'] - 2 e_r . mt[., k']), 0); the block's contribution
  to class k is the sum over the rows of onehot(w_r, k) times that distance. The reset stores zeros and the accumulator
  adds the block's row of contributions.
-/
import proofs.«406991_j27075473834528_3_alg».proof.Proof.Gen.KernelIdeal.Skeleton
import proofs.«406991_j27075473834528_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg1Body

open Cert.KernelIdeal Cert.KernelIdeal.Gen Idealize.ShloMosaic Idealize.ShloMosaic.ValueIdx CenterLoss

/-! ## Layout operations, lane sums and the product read at an index -/

/-- The word 0x40000000 of the 32-bit format is the number 2. -/
theorem two_f32 : Ideal.ofBits .f32 0x40000000#32 = 2 := by
  simp [Ideal.ofBits, Ideal.ieee, -EReal.coe_mul]
  norm_num
  norm_cast

/-- A vector of extent a viewed as a column [a, 1]: entry (i, 0) is entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b columns: entry (p, c) is the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the rows of a 2048 × 1024 block, read at column k. -/
theorem colSum_apply (src : FVec Ideal S2048x1024 .f32) (hφ : FKind.Formats .f32)
    (hacc : (0x00000000#32 : BitVec 32) = 0x00000000#32) (k : Fin 1024) :
    multiReduction .add [0] S1024 src 0x00000000#32 reduces_S2048x1024_S1024 hφ hacc (ix1 k)
      = ∑ r : Fin 2048, src (ix2 r k) := by
  refine (Ideal.multiReduction_add_single src 0x00000000#32 reduces_S2048x1024_S1024 hφ hacc (ix1 k)).trans ?_
  refine Finset.sum_congr rfl fun r _ => congrArg src ?_
  funext a
  apply Fin.ext
  match a with
  | ⟨0, _⟩ => rfl
  | ⟨1, _⟩ => rfl

/-- The sum along a row of a 2048 × 1024 block, kept as a column: entry (r, 0). -/
theorem rowSum1024_apply (src : FVec Ideal S2048x1024 .f32) (hφ : FKind.Formats .f32)
    (hacc : (0x00000000#32 : BitVec 32) = 0x00000000#32) (r : Fin 2048) :
    shapeCast S2048x1 (multiReduction .add [1] S2048 src 0x00000000#32 reduces_S2048x1024_S2048 hφ hacc)
        shapeCasts_S2048_S2048x1 (ix2 r 0)
      = ∑ k : Fin 1024, src (ix2 r k) := by
  rw [shapeCast_a_a1_apply]
  refine (Ideal.multiReduction_add_single src 0x00000000#32 reduces_S2048x1024_S2048 hφ hacc (ix1 r)).trans ?_
  refine Finset.sum_congr rfl fun k _ => congrArg src ?_
  funext a
  apply Fin.ext
  match a with
  | ⟨0, _⟩ => rfl
  | ⟨1, _⟩ => rfl

/-- The sum along a row of a 2048 × 128 block, kept as a column: entry (r, 0). -/
theorem rowSum128_apply (src : FVec Ideal S2048x128 .f32) (hφ : FKind.Formats .f32)
    (hacc : (0x00000000#32 : BitVec 32) = 0x00000000#32) (r : Fin 2048) :
    shapeCast S2048x1 (multiReduction .add [1] S2048 src 0x00000000#32 reduces_S2048x128_S2048 hφ hacc)
        shapeCasts_S2048_S2048x1 (ix2 r 0)
      = ∑ d : Fin 128, src (ix2 r d) := by
  rw [shapeCast_a_a1_apply]
  refine (Ideal.multiReduction_add_single src 0x00000000#32 reduces_S2048x128_S2048 hφ hacc (ix1 r)).trans ?_
  refine Finset.sum_congr rfl fun k _ => congrArg src ?_
  funext a
  apply Fin.ext
  match a with
  | ⟨0, _⟩ => rfl
  | ⟨1, _⟩ => rfl

/-! The product's operand indices: the left operand is contracted along axis 1, the right one along axis 0. -/

theorem lhs_0 (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide),
    dif_pos (show (0 : Fin S2048x128.rank) ∈ dot_S2048x128_S128x1024_S2048x1024_1_0_0_1_n_n.lhsNonContracting by decide)]
  rfl

theorem lhs_1 (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q

theorem rhs_0 (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q

theorem rhs_1 (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide),
    dif_pos (show (1 : Fin S128x1024.rank) ∈ dot_S2048x128_S128x1024_S2048x1024_1_0_0_1_n_n.rhsNonContracting by decide)]
  rfl

/-- The product of a 2048 × 128 block with a 128 × 1024 table into a zero accumulator, at entry (r, k):
    the inner product of row r with column k. -/
theorem matmul_entry {φ₁ φ₂ : FTy} (a : FVec Ideal S2048x128 φ₁) (b : FVec Ideal S128x1024 φ₂) (r : Fin 2048) (k : Fin 1024) :
    matmul dot_S2048x128_S128x1024_S2048x1024_1_0_0_1_n_n none a b (constant (F := Ideal) S2048x1024 .f32 0x00000000#32) (ix2 r k)
      = ∑ d : Fin 128, a (ix2 r d) * b (ix2 d k) := by
  refine (Ideal.matmul_constant_zero_apply dot_S2048x128_S128x1024_S2048x1024_1_0_0_1_n_n none a b (ix2 r k)).trans ?_
  rw [← Equiv.sum_comp (contrEquiv1 dot_S2048x128_S128x1024_S2048x1024_1_0_0_1_n_n 128 rfl rfl).symm]
  refine Finset.sum_congr rfl fun d _ => ?_
  have hk := contrEquiv1_symm_val dot_S2048x128_S128x1024_S2048x1024_1_0_0_1_n_n 128 rfl rfl d
  have el : dot_S2048x128_S128x1024_S2048x1024_1_0_0_1_n_n.lhsIdx (ix2 r k)
      ((contrEquiv1 dot_S2048x128_S128x1024_S2048x1024_1_0_0_1_n_n 128 rfl rfl).symm d) = ix2 r d :=
    funext fun ax => Fin.ext (by
      match ax with
      | ⟨0, _⟩ => exact lhs_0 _ _
      | ⟨1, _⟩ => exact (lhs_1 _ _).trans hk)
  have er : dot_S2048x128_S128x1024_S2048x1024_1_0_0_1_n_n.rhsIdx (ix2 r k)
      ((contrEquiv1 dot_S2048x128_S128x1024_S2048x1024_1_0_0_1_n_n 128 rfl rfl).symm d) = ix2 d k :=
    funext fun ax => Fin.ext (by
      match ax with
      | ⟨0, _⟩ => exact (rhs_0 _ _).trans hk
      | ⟨1, _⟩ => exact rhs_1 _ _)
  rw [el, er]

/-- The comparison word of two class words, widened and read as a number, is 1 where they agree and 0 elsewhere. -/
theorem hot_word (a : BitVec 32) (k : Fin 1024) :
    FloatOps.sitofp (F := Ideal) .f32 ((IntOp.cmpi .eq a (BitVec.ofNat 32 k.val)).setWidth 32) = hot a k := by
  unfold hot
  show (((BitVec.setWidth 32 (IntOp.cmpi .eq a (BitVec.ofNat 32 k.val))).toInt : ℝ) : EReal) = _
  unfold IntOp.cmpi
  by_cases h : a = BitVec.ofNat 32 k.val
  · rw [if_pos h, show (a == BitVec.ofNat 32 k.val) = true from by simpa using h]
    show ((((BitVec.ofBool true).setWidth 32).toInt : ℝ) : EReal) = 1
    rw [show ((BitVec.ofBool true).setWidth 32 : BitVec 32).toInt = 1 from by decide]
    norm_num
  · rw [if_neg h, show (a == BitVec.ofNat 32 k.val) = false from by simpa using h]
    show ((((BitVec.ofBool false).setWidth 32).toInt : ℝ) : EReal) = 0
    rw [show ((BitVec.ofBool false).setWidth 32 : BitVec 32).toInt = 0 from by decide]
    norm_num

/-- The lane counter along the classes, at (0, k), is the word of k. -/
theorem iota_entry (k : Fin 1024) :
    iota .tc S1x1024 32 [1] iota_S1x1024_d1_w32 (ix2 (0 : Fin 1) k) = BitVec.ofNat 32 k.val :=
  iota_single_apply .tc S1x1024 32 1 iota_S1x1024_d1_w32 (ix2 (0 : Fin 1) k)

/-- The square root of a vector, read at an index. -/
theorem sqrt_apply {s : Shape} {φ : FTy} (a : FVec Ideal s φ) (i : s.Idx) : sqrt a i = Ideal.sqrt (a i) := rfl

/-! The block's vectors, named after what they hold. -/

/-- The one-hot matrix of the block: row r is the one-hot row of row r's class word over the 1024 padded classes. -/
def hotV (w : Vec Ideal S2048x1 .i32) : FVec Ideal S2048x1024 .f32 :=
  sitofp .f32 (extui 32 (cmpi .eq
    (broadcastTo S2048x1024 (shapeCast S2048x1 w shapeCasts_S2048x1_S2048x1) broadcasts_S2048x1_S2048x1024)
    (broadcastTo S2048x1024 (iota .tc S1x1024 32 [1] iota_S1x1024_d1_w32) broadcasts_S1x1024_S2048x1024)) natLt_1_32)

/-- The inner products of the block's rows with the table's columns. -/
def dotV (e : Vec Ideal S2048x128 .f32) (mt : Vec Ideal S128x1024 .bf16) : FVec Ideal S2048x1024 .f32 :=
  matmul dot_S2048x128_S128x1024_S2048x1024_1_0_0_1_n_n none
    (truncf .bf16 (e : FVec Ideal S2048x128 .f32) bitsLt_bf16_f32 : FVec Ideal S2048x128 .bf16)
    (shapeCast S128x1024 mt shapeCasts_S128x1024_S128x1024 : FVec Ideal S128x1024 .bf16)
    (constant (F := Ideal) S2048x1024 .f32 0x00000000#32)

/-- The squared lengths of the block's rows, as a column. -/
def sqV (e : Vec Ideal S2048x128 .f32) : FVec Ideal S2048x1 .f32 :=
  shapeCast S2048x1 (multiReduction .add [1] S2048 (mulf e e) 0x00000000#32 reduces_S2048x128_S2048 (.inl rfl) rfl)
    shapeCasts_S2048_S2048x1

/-- The term |m|^2 - 2 x.m of each row at its own class, picked by the one-hot row, as a column. -/
def selV (w : Vec Ideal S2048x1 .i32) (e : Vec Ideal S2048x128 .f32) (mt : Vec Ideal S128x1024 .bf16)
    (q : Vec Ideal S1x1024 .f32) : FVec Ideal S2048x1 .f32 :=
  shapeCast S2048x1 (multiReduction .add [1] S2048
      (mulf (hotV w)
        (subf
          (broadcastTo S2048x1024 (shapeCast S1x1024 (shapeCast S1x1024 q shapeCasts_S1x1024_S1x1024) shapeCasts_S1x1024_S1x1024)
            broadcasts_S1x1024_S2048x1024)
          (mulf (broadcast S2048x1024 (Scalar.ofBits (F := Ideal) .f32 0x40000000#32)) (dotV e mt))))
      0x00000000#32 reduces_S2048x1024_S2048 (.inl rfl) rfl)
    shapeCasts_S2048_S2048x1

/-- The distances of the block's rows to their classes' vectors, as a column. -/
def distV (w : Vec Ideal S2048x1 .i32) (e : Vec Ideal S2048x128 .f32) (mt : Vec Ideal S128x1024 .bf16)
    (q : Vec Ideal S1x1024 .f32) : FVec Ideal S2048x1 .f32 :=
  sqrt (maximumf (addf (sqV e) (selV w e mt q)) (broadcast S2048x1 (Scalar.ofBits (F := Ideal) .f32 0x00000000#32)))

/-- The block's payload is the column sums of the one-hot matrix scaled row by row by the distances. -/
theorem pay4_eq (w : Vec Ideal S2048x1 .i32) (e : Vec Ideal S2048x128 .f32) (mt : Vec Ideal S128x1024 .bf16)
    (q : Vec Ideal S1x1024 .f32) :
    k1_pay4 w e mt q = multiReduction .add [0] S1024
      (mulf (hotV w) (broadcastTo S2048x1024 (distV w e mt q) broadcasts_S2048x1_S2048x1024))
      0x00000000#32 reduces_S2048x1024_S1024 (.inl rfl) rfl := rfl

/-- Entry (r, k) of the one-hot matrix. -/
theorem hotV_apply (w : Vec Ideal S2048x1 .i32) (r : Fin 2048) (k : Fin 1024) :
    hotV w (ix2 r k) = hot ((w : S2048x1.Idx → BitVec 32) (ix2 r 0)) k := by
  unfold hotV
  rw [sitofp_apply, extui_apply]
  show FloatOps.sitofp (F := Ideal) .f32 ((IntOp.cmpi .eq
    (broadcastTo S2048x1024 (shapeCast S2048x1 w shapeCasts_S2048x1_S2048x1) broadcasts_S2048x1_S2048x1024 (ix2 r k))
    (broadcastTo S2048x1024 (iota .tc S1x1024 32 [1] iota_S1x1024_d1_w32) broadcasts_S1x1024_S2048x1024 (ix2 r k))).setWidth 32) = _
  rw [broadcastTo_a1_ab_apply, shapeCast_self, broadcastTo_1b_ab_apply, iota_entry]
  exact hot_word _ _

/-- Entry (r, k) of the products: the inner product of row r with the table's column k. -/
theorem dotV_apply (e : Vec Ideal S2048x128 .f32) (mt : Vec Ideal S128x1024 .bf16) (r : Fin 2048) (k : Fin 1024) :
    dotV e mt (ix2 r k)
      = ∑ d : Fin 128, (e : S2048x128.Idx → EReal) (ix2 r d) * (mt : S128x1024.Idx → EReal) (ix2 d k) := by
  unfold dotV
  rw [matmul_entry, shapeCast_self]
  rfl

/-- Row r's squared length. -/
theorem sqV_apply (e : Vec Ideal S2048x128 .f32) (r : Fin 2048) :
    sqV e (ix2 r 0) = ∑ d : Fin 128, (e : S2048x128.Idx → EReal) (ix2 r d) * (e : S2048x128.Idx → EReal) (ix2 r d) := by
  unfold sqV
  rw [rowSum128_apply]
  rfl

/-- Row r's selected term. -/
theorem selV_apply (w : Vec Ideal S2048x1 .i32) (e : Vec Ideal S2048x128 .f32) (mt : Vec Ideal S128x1024 .bf16)
    (q : Vec Ideal S1x1024 .f32) (r : Fin 2048) :
    selV w e mt q (ix2 r 0)
      = ∑ k' : Fin 1024, hot ((w : S2048x1.Idx → BitVec 32) (ix2 r 0)) k' *
          ((q : S1x1024.Idx → EReal) (ix2 0 k')
            - 2 * ∑ d : Fin 128, (e : S2048x128.Idx → EReal) (ix2 r d) * (mt : S128x1024.Idx → EReal) (ix2 d k')) := by
  unfold selV
  rw [rowSum1024_apply]
  refine Finset.sum_congr rfl fun k' _ => ?_
  rw [mulf_apply, hotV_apply, subf_apply, broadcastTo_1b_ab_apply, shapeCast_self, shapeCast_self, mulf_apply,
    broadcast_apply, dotV_apply]
  show _ * (_ - Ideal.ofBits .f32 0x40000000#32 * _) = _
  rw [two_f32]

/-- Row r's distance. -/
theorem distV_apply (w : Vec Ideal S2048x1 .i32) (e : Vec Ideal S2048x128 .f32) (mt : Vec Ideal S128x1024 .bf16)
    (q : Vec Ideal S1x1024 .f32) (r : Fin 2048) :
    distV w e mt q (ix2 r 0)
      = Ideal.sqrt (max
          ((∑ d : Fin 128, (e : S2048x128.Idx → EReal) (ix2 r d) * (e : S2048x128.Idx → EReal) (ix2 r d))
            + ∑ k' : Fin 1024, hot ((w : S2048x1.Idx → BitVec 32) (ix2 r 0)) k' *
                ((q : S1x1024.Idx → EReal) (ix2 0 k')
                  - 2 * ∑ d : Fin 128, (e : S2048x128.Idx → EReal) (ix2 r d) * (mt : S128x1024.Idx → EReal) (ix2 d k')))
          0) := by
  unfold distV
  rw [sqrt_apply, maximumf_apply, addf_apply, sqV_apply, selV_apply, broadcast_apply]
  show Ideal.sqrt (max _ (Ideal.ofBits .f32 0x00000000#32)) = _
  rw [Ideal.ofBits_zero_f32]

/-! ## The four facts -/

/-- The reset value of the accumulator is zero everywhere. -/
theorem zeros_cls (y : S1x1x1024.Idx) : (k1_pay2 (F := Ideal) : S1x1x1024.Idx → EReal) y = 0 := by
  obtain ⟨a, b, c, rfl⟩ : ∃ (a : Fin 1) (b : Fin 1) (c : Fin 1024), y = ix3 a b c := ⟨y 0, y 1, y 2, eq_ix3 y⟩
  unfold k1_pay2
  rw [shapeCast_ab_1ab_apply, broadcast_apply]
  exact Ideal.ofBits_zero_f32

/-- The accumulator as the body reads it back: the same entries, as a row. -/
theorem carried (acc : Vec Ideal S1x1x1024 .f32) (k : Fin 1024) :
    (k1_pay3 acc : S1x1024.Idx → EReal) (ix2 0 k) = (acc : S1x1x1024.Idx → EReal) (ix3 0 0 k) := by
  unfold k1_pay3
  exact shapeCast_1ab_ab_apply _ _ _ _

/-- The accumulator's update: the carried row plus the block's contributions. -/
theorem acc_step (row : FVec Ideal S1x1024 .f32) (blk : FVec Ideal S1024 .f32) (k : Fin 1024) :
    (k1_pay1 row blk : S1x1x1024.Idx → EReal) (ix3 0 0 k)
      = (row : S1x1024.Idx → EReal) (ix2 0 k) + (blk : S1024.Idx → EReal) (ix1 k) := by
  unfold k1_pay1
  rw [shapeCast_ab_1ab_apply, addf_apply, shapeCast_a_1a_apply]

/-- One block's contribution to class k. -/
theorem block_cls (w : Vec Ideal S2048x1 .i32) (e : Vec Ideal S2048x128 .f32) (mt : Vec Ideal S128x1024 .bf16)
    (q : Vec Ideal S1x1024 .f32) (k : Fin 1024) :
    (k1_pay4 w e mt q : S1024.Idx → EReal) (ix1 k)
      = ∑ r : Fin 2048, hot ((w : S2048x1.Idx → BitVec 32) (ix2 r 0)) k *
          Ideal.sqrt (max
            ((∑ d : Fin 128, (e : S2048x128.Idx → EReal) (ix2 r d) * (e : S2048x128.Idx → EReal) (ix2 r d))
              + ∑ k' : Fin 1024, hot ((w : S2048x1.Idx → BitVec 32) (ix2 r 0)) k' *
                  ((q : S1x1024.Idx → EReal) (ix2 0 k')
                    - 2 * ∑ d : Fin 128, (e : S2048x128.Idx → EReal) (ix2 r d) * (mt : S128x1024.Idx → EReal) (ix2 d k')))
            0) := by
  rw [pay4_eq, colSum_apply]
  refine Finset.sum_congr rfl fun r _ => ?_
  rw [mulf_apply, hotV_apply, broadcastTo_a1_ab_apply, distV_apply]

end Cert.KernelIdeal.Reg1Body

end
-- ==== Proof.Reg1Inv.lean ====
/-
  What the second pass's accumulator holds after each point. Half j of the samples is visited in 128 consecutive blocks
  of 2048 rows; the accumulator is reset at the half's first block and carried through the rest. So after block i of
  half j it holds, at class k, the sum over the blocks 0..i of the half and the rows of each of the one-hot entry of the
  row's class word at k times the row's distance to its class's vector of the table the pass is given.
-/
import proofs.«406991_j27075473834528_3_alg».proof.Proof.Gen.KernelIdeal.Frame
import proofs.«406991_j27075473834528_3_alg».proof.Proof.KArrays
import proofs.«406991_j27075473834528_3_alg».proof.Proof.Reg1Body
import Idealize.ShloMosaic.Lib.Pipeline.Value
import Idealize.ShloMosaic.Lib.ValueIdx
import Idealize.ShloMosaic.Lib.Tactic

noncomputable section

namespace Cert.KernelIdeal.Reg1Inv

open Cert.KernelIdeal Cert.KernelIdeal.Gen Cert.KernelIdeal.Hand Idealize.ShloMosaic Idealize.ShloMosaic.TcCoe
open Idealize.ShloMosaic.ValueIdx Idealize.SL.Sem CenterLoss
open Idealize.ShloMosaic.Pipeline (Dat)

variable (V : (c : Dev nD) → (b : Ref sig .tc) → Buf (Elt Ideal) ((c : Thread nD τ).loc b))

/-! ## What one point leaves in the accumulator, as a term of the blocks it reads -/

theorem hz3 : (![0, 0, 0] : Fin 3 → Nat) = fun _ => 0 := funext fun a => by fin_cases a <;> rfl
theorem hz2 : (![0, 0] : Fin 2 → Nat) = fun _ => 0 := funext fun a => by fin_cases a <;> rfl

/-- A point that is not the first of its half: the accumulator `xo` it finds, read back as a row, plus the block's row of
    contributions. The point's one store covers the accumulator and every load reads a whole buffer. -/
theorem out_B (c : Dev nD) (i : grid1.Coords)
    (a2 : Memref sig .tc .vmem S2048x128 .f32) (h2 : a2.IsWhole) (a3 : Memref sig .tc .vmem S2048x1 .i32) (h3 : a3.IsWhole)
    (a4 : Memref sig .tc .vmem S128x1024 .bf16) (h4 : a4.IsWhole) (a5 : Memref sig .tc .vmem S1x1024 .f32) (h5 : a5.IsWhole)
    (a6 : Memref sig .tc .vmem S1x1x1024 .f32) (h6 : a6.IsWhole) (hc : ¬cond1_0 i)
    (x0 : Vec Ideal S2048x128 .f32) (x1 : Vec Ideal S2048x1 .i32) (x2 : Vec Ideal S128x1024 .bf16) (x3 : Vec Ideal S1x1024 .f32)
    (xo : Vec Ideal S1x1x1024 .f32) :
    out1_B_4 (F := Ideal) c i a2 h2 a3 h3 a4 h4 a5 h5 a6 h6 hc x0 x1 x2 x3 xo = k1_pay1 (k1_pay3 xo) (k1_pay4 x1 x0 x2 x3) := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero hz3]
  simp only [View.readAt_eq_ld, h2.read_unread, h3.read_unread, h4.read_unread, h5.read_unread, h6.read_unread,
    View.ld_unit_zero (S := S1x1x1024) hz3, View.ld_unit_zero (S := S2048x128) hz2, View.ld_unit_zero (S := S2048x1) hz2,
    View.ld_unit_zero (S := S128x1024) hz2, View.ld_unit_zero (S := S1x1024) hz2]

/-- The first point of a half: the reset stores the zero row, the update reads it back and adds the block's row of
    contributions; the later store covers the accumulator. -/
theorem out_A (c : Dev nD) (i : grid1.Coords)
    (a2 : Memref sig .tc .vmem S2048x128 .f32) (h2 : a2.IsWhole) (a3 : Memref sig .tc .vmem S2048x1 .i32) (h3 : a3.IsWhole)
    (a4 : Memref sig .tc .vmem S128x1024 .bf16) (h4 : a4.IsWhole) (a5 : Memref sig .tc .vmem S1x1024 .f32) (h5 : a5.IsWhole)
    (a6 : Memref sig .tc .vmem S1x1x1024 .f32) (h6 : a6.IsWhole) (hc : cond1_0 i)
    (x0 : Vec Ideal S2048x128 .f32) (x1 : Vec Ideal S2048x1 .i32) (x2 : Vec Ideal S128x1024 .bf16) (x3 : Vec Ideal S1x1024 .f32) :
    out1_A_4 (F := Ideal) c i a2 h2 a3 h3 a4 h4 a5 h5 a6 h6 hc x0 x1 x2 x3 = k1_pay1 (k1_pay3 k1_pay2) (k1_pay4 x1 x0 x2 x3) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x1x1024) hz3]
  simp only [View.readAt_eq_ld, h2.read_unread, h3.read_unread, h4.read_unread, h5.read_unread,
    View.readCov_unit_zero (S := S1x1x1024) _ hz3,
    View.ld_unit_zero (S := S2048x128) hz2, View.ld_unit_zero (S := S2048x1) hz2,
    View.ld_unit_zero (S := S128x1024) hz2, View.ld_unit_zero (S := S1x1024) hz2]

/-! ## The blocks a point reads, as entries of the arrays -/

/-- The block of samples, of class words, the table and the row of squared lengths at point `t`, each at its literal type. -/
abbrev xblk (c : Dev nD) (t : Fin cfg1.N) : Vec Ideal S2048x128 .f32 := iblk1 V c 0 t
abbrev wblk (c : Dev nD) (t : Fin cfg1.N) : Vec Ideal S2048x1 .i32 := iblk1 V c 1 t
abbrev mblk (c : Dev nD) (t : Fin cfg1.N) : Vec Ideal S128x1024 .bf16 := iblk1 V c 2 t
abbrev qblk (c : Dev nD) (t : Fin cfg1.N) : Vec Ideal S1x1024 .f32 := iblk1 V c 3 t

/-- The block indices at point `t`: samples and class words move with the point along the rows, the table and the squared
    lengths stay at block (0, 0). Decided over the 256 points. -/
theorem idx_facts : ∀ t : Fin cfg1.N,
    win1_0.index t (0 : Fin 2) = t.val ∧ win1_0.index t (1 : Fin 2) = 0 ∧
    win1_1.index t (0 : Fin 2) = t.val ∧ win1_1.index t (1 : Fin 2) = 0 ∧
    win1_2.index t (0 : Fin 2) = 0 ∧ win1_2.index t (1 : Fin 2) = 0 ∧
    win1_3.index t (0 : Fin 2) = 0 ∧ win1_3.index t (1 : Fin 2) = 0 :=
  (by decide +kernel : ∀ t : Fin grid1.N, _)

/-- Row `r`, coordinate `d` of the samples' block at point `t` is sample `2048 t + r`, coordinate `d`. -/
theorem xblk_apply (c : Dev nD) (t : Fin cfg1.N) (r : Fin 2048) (d : Fin 128) (n : Fin 524288)
    (hn : n.val = t.val * 2048 + r.val) : xblk V c t (ix2 r d) = xs V c n d := by
  obtain ⟨e0, e1, -⟩ := idx_facts t
  show V c main_arg0 (((cfg1.win 0).blk t).view.emb (ix2 r d)) = V c main_arg0 (ix2 n d)
  congr 1
  funext a; apply Fin.ext
  match a with
  | ⟨0, _⟩ => show win1_0.index t (0 : Fin 2) * 2048 + 1 * r.val = n.val; omega
  | ⟨1, _⟩ => show win1_0.index t (1 : Fin 2) * 128 + 1 * d.val = d.val; omega

/-- Row `r` of the class words' block at point `t` is the class word of sample `2048 t + r`. -/
theorem wblk_apply (c : Dev nD) (t : Fin cfg1.N) (r : Fin 2048) (n : Fin 524288)
    (hn : n.val = t.val * 2048 + r.val) : wblk V c t (ix2 r 0) = ts V c n := by
  obtain ⟨-, -, e0, e1, -⟩ := idx_facts t
  show V c main_v0 (((cfg1.win 1).blk t).view.emb (ix2 r 0)) = V c main_v0 (ix2 n 0)
  congr 1
  funext a; apply Fin.ext
  match a with
  | ⟨0, _⟩ => show win1_1.index t (0 : Fin 2) * 2048 + 1 * r.val = n.val; omega
  | ⟨1, _⟩ => show win1_1.index t (1 : Fin 2) * 1 + 1 * 0 = 0; omega

/-- The table's block at every point is the whole table. -/
theorem mblk_apply (c : Dev nD) (t : Fin cfg1.N) (d : Fin 128) (k : Fin 1024) : mblk V c t (ix2 d k) = means V c d k := by
  obtain ⟨-, -, -, -, e0, e1, -⟩ := idx_facts t
  show V c main_v16 (((cfg1.win 2).blk t).view.emb (ix2 d k)) = V c main_v16 (ix2 d k)
  congr 1
  funext a; apply Fin.ext
  match a with
  | ⟨0, _⟩ => show win1_2.index t (0 : Fin 2) * 128 + 1 * d.val = d.val; omega
  | ⟨1, _⟩ => show win1_2.index t (1 : Fin 2) * 1024 + 1 * k.val = k.val; omega

/-- The squared lengths' block at every point is the whole row. -/
theorem qblk_apply (c : Dev nD) (t : Fin cfg1.N) (k : Fin 1024) : qblk V c t (ix2 0 k) = msqs V c k := by
  obtain ⟨-, -, -, -, -, -, e0, e1⟩ := idx_facts t
  show V c main_v19 (((cfg1.win 3).blk t).view.emb (ix2 0 k)) = V c main_v19 (ix2 0 k)
  congr 1
  funext a; apply Fin.ext
  match a with
  | ⟨0, _⟩ => show win1_3.index t (0 : Fin 2) * 1 + 1 * 0 = 0; omega
  | ⟨1, _⟩ => show win1_3.index t (1 : Fin 2) * 1024 + 1 * k.val = k.val; omega

/-! ## The accumulation -/

/-- The contribution of block `i` of half `j` to class `k`: the sum over the block's rows of the one-hot entry times the
    row's distance (zero past the half's last block). -/
def part (x : Samples) (t : Words) (mean : CenterLoss.Table) (msq : Fin 1024 → EReal) (j : Fin 2) (k : Fin 1024) (i : ℕ) : EReal :=
  if h : i < 128 then ∑ r : Fin 2048, hot (t (row1 j ⟨i, h⟩ r)) k * gNorm x t mean msq (row1 j ⟨i, h⟩ r) else 0

/-- The block arithmetic at point `128 j + i` is block `i` of half `j`'s contribution: its rows are the samples
    `(128 j + i) 2048 + r`, and the distance is the expanded square read off the whole table. -/
theorem blk_step (c : Dev nD) (t : Fin cfg1.N) (j : Fin 2) (i : ℕ) (hi : i < 128) (ht : t.val = j.val * 128 + i) (k : Fin 1024) :
    (k1_pay4 (wblk V c t) (xblk V c t) (mblk V c t) (qblk V c t) : S1024.Idx → EReal) (ix1 k)
      = part (xs V c) (ts V c) (means V c) (msqs V c) j k i := by
  refine (Reg1Body.block_cls (wblk V c t) (xblk V c t) (mblk V c t) (qblk V c t) k).trans ?_
  unfold part
  rw [dif_pos hi]
  refine Finset.sum_congr rfl fun r _ => ?_
  have hn : (row1 j ⟨i, hi⟩ r).val = t.val * 2048 + r.val := by
    show (j.val * 128 + i) * 2048 + r.val = _
    omega
  simp only [wblk_apply V c t r (row1 j ⟨i, hi⟩ r) hn, fun d => xblk_apply V c t r d (row1 j ⟨i, hi⟩ r) hn,
    mblk_apply V c t, qblk_apply V c t]
  rfl

/-- At the first point of a half the accumulator is the zero row plus the block's contributions. -/
theorem at_A (c : Dev nD) (t : Fin cfg1.N) (h0 : t.val % 128 = 0) (k : Fin 1024) :
    (outsAt1 V c t.val t.isLt : S1x1x1024.Idx → EReal) (ix3 0 0 k)
      = (k1_pay4 (wblk V c t) (xblk V c t) (mblk V c t) (qblk V c t) : S1024.Idx → EReal) (ix1 k) := by
  rw [outsAt1_A V c t h0,
    out_A c (grid1.coords t) (ms1_0 t) (hs1_0 t) (ms1_1 t) (hs1_1 t) (ms1_2 t) (hs1_2 t) (ms1_3 t) (hs1_3 t) (ms1_4 t) (hs1_4 t)
      ((hcond1_0 t).mpr h0) (xblk V c t) (wblk V c t) (mblk V c t) (qblk V c t),
    Reg1Body.acc_step, Reg1Body.carried, Reg1Body.zeros_cls, zero_add]

/-- At any other point it is what the point before left plus the block's contributions. -/
theorem at_B (c : Dev nD) (t : Fin cfg1.N) (h0 : ¬t.val % 128 = 0) (k : Fin 1024) :
    (outsAt1 V c t.val t.isLt : S1x1x1024.Idx → EReal) (ix3 0 0 k)
      = (outsAt1 V c (t.val - 1) (Nat.lt_of_le_of_lt (Nat.sub_le _ _) t.isLt) : S1x1x1024.Idx → EReal) (ix3 0 0 k)
        + (k1_pay4 (wblk V c t) (xblk V c t) (mblk V c t) (qblk V c t) : S1024.Idx → EReal) (ix1 k) := by
  rw [outsAt1_B V c t h0,
    out_B c (grid1.coords t) (ms1_0 t) (hs1_0 t) (ms1_1 t) (hs1_1 t) (ms1_2 t) (hs1_2 t) (ms1_3 t) (hs1_3 t) (ms1_4 t) (hs1_4 t)
      (fun h => h0 ((hcond1_0 t).mp h)) (xblk V c t) (wblk V c t) (mblk V c t) (qblk V c t)
      (outsAt1 V c (t.val - 1) (Nat.lt_of_le_of_lt (Nat.sub_le _ _) t.isLt)),
    Reg1Body.acc_step, Reg1Body.carried]

theorem outsAt_congr (c : Dev nD) {n m : ℕ} (e : n = m) (hn : n < cfg1.N) (hm : m < cfg1.N) :
    outsAt1 V c n hn = outsAt1 V c m hm := by
  subst e; rfl

/-- After block `i` of half `j` the accumulator holds the contributions of the half's blocks `0..i`: by induction on `i`,
    the reset at `i = 0`, one more term at each later block. -/
theorem acc_eq (c : Dev nD) (j : Fin 2) (k : Fin 1024) : ∀ (i : ℕ) (hi : i < 128) (h : j.val * 128 + i < cfg1.N),
    (outsAt1 V c (j.val * 128 + i) h : S1x1x1024.Idx → EReal) (ix3 0 0 k)
      = ∑ i' ∈ Finset.range (i + 1), part (xs V c) (ts V c) (means V c) (msqs V c) j k i'
  | 0, hi, h => by
    rw [Finset.sum_range_succ, Finset.sum_range_zero, zero_add]
    exact (at_A V c ⟨j.val * 128 + 0, h⟩ (by dsimp only; omega) k).trans (blk_step V c ⟨j.val * 128 + 0, h⟩ j 0 hi rfl k)
  | i + 1, hi, h => by
    rw [Finset.sum_range_succ, ← acc_eq c j k i (by omega) (by omega)]
    refine (at_B V c ⟨j.val * 128 + (i + 1), h⟩ (by dsimp only; omega) k).trans ?_
    rw [blk_step V c ⟨j.val * 128 + (i + 1), h⟩ j (i + 1) hi rfl k]
    rw [outsAt_congr V c (show (⟨j.val * 128 + (i + 1), h⟩ : Fin cfg1.N).val - 1 = j.val * 128 + i by dsimp only; omega) _
      (by omega)]

/-- A sum over the first `i + 1` naturals of a function of the blocks is the sum over all 128 blocks with the later ones
    replaced by zero. -/
theorem sum_upto (f : Fin 128 → EReal) (i : ℕ) (hi : i < 128) :
    ∑ n ∈ Finset.range (i + 1), (if h : n < 128 then f ⟨n, h⟩ else 0) = ∑ i' : Fin 128, if i'.val ≤ i then f i' else 0 := by
  have e : Finset.range (i + 1) = (Finset.range 128).filter (fun n => n ≤ i) := by
    ext n; rw [Finset.mem_filter, Finset.mem_range, Finset.mem_range]; omega
  rw [e, Finset.sum_filter, Finset.sum_range]
  refine Finset.sum_congr rfl fun i' _ => ?_
  beta_reduce
  rw [dif_pos i'.isLt]

/-- The accumulator after block i of half j. -/
theorem cls_at (c : Dev nD) (j : Fin 2) (i : Fin 128) (k : Fin 1024) (h : j.val * 128 + i.val < cfg1.N) :
    ((outsAt1 (F := Ideal) V c (j.val * 128 + i.val) h) : S1x1x1024.Idx → EReal) (ix3 0 0 k)
      = ∑ i' : Fin 128, if i'.val ≤ i.val then
          ∑ r : Fin 2048, hot (ts V c (row1 j i' r)) k * gNorm (xs V c) (ts V c) (means V c) (msqs V c) (row1 j i' r)
        else 0 := by
  rw [acc_eq V c j k i.val i.isLt h]
  exact sum_upto (fun i' => ∑ r : Fin 2048, hot (ts V c (row1 j i' r)) k * gNorm (xs V c) (ts V c) (means V c) (msqs V c) (row1 j i' r))
    i.val i.isLt

end Cert.KernelIdeal.Reg1Inv

end
-- ==== Proof.Reg1.lean ====
/-
  What the second pass leaves in its result array. Half j of the samples is visited in 128 consecutive blocks of
  2048 rows; the accumulator is reset at the first block of a half and written back after its last. So entry (j, 0, k)
  is the sum over the half's blocks and rows of the one-hot entry of the row's class word at k times the row's
  distance to its class's vector of the table the pass is given.
-/
import proofs.«406991_j27075473834528_3_alg».proof.Proof.Gen.KernelIdeal.Frame
import proofs.«406991_j27075473834528_3_alg».proof.Proof.KArrays
import proofs.«406991_j27075473834528_3_alg».proof.Proof.Reg1Inv
import Idealize.ShloMosaic.Lib.Pipeline.Value
import Idealize.ShloMosaic.Lib.ValueIdx
import Idealize.ShloMosaic.Lib.Tactic

noncomputable section

namespace Cert.KernelIdeal.Reg1

open Cert.KernelIdeal Cert.KernelIdeal.Gen Cert.KernelIdeal.Hand Idealize.ShloMosaic Idealize.ShloMosaic.TcCoe
open Idealize.ShloMosaic.ValueIdx Idealize.SL.Sem CenterLoss
open Idealize.ShloMosaic.Pipeline (Dat)

variable (V : (c : Dev nD) → (b : Ref sig .tc) → Buf (Elt Ideal) ((c : Thread nD τ).loc b))

/-- The result window's block index at point `t` is (t / 128, 0, 0). Decided over the 256 points. -/
theorem idx_out : ∀ t : Fin cfg1.N,
    win1_4.index t (0 : Fin 3) = t.val / 128 ∧ win1_4.index t (1 : Fin 3) = 0 ∧ win1_4.index t (2 : Fin 3) = 0 :=
  (by decide +kernel : ∀ t : Fin grid1.N, _)

/-- An index of a block of one row of 1024 classes is its class coordinate. -/
theorem idx_eq (y : S1x1x1024.Idx) : y = ix3 0 0 (y 2) := by
  funext a
  match a with
  | ⟨0, _⟩ => apply Fin.ext; have h : (y 0).val < 1 := (y 0).isLt; show (y 0).val = 0; omega
  | ⟨1, _⟩ => apply Fin.ext; have h : (y 1).val < 1 := (y 1).isLt; show (y 1).val = 0; omega
  | ⟨2, _⟩ => rfl

theorem outs_congr (c : Dev nD) {n m : ℕ} (e : n = m) (hn : n < cfg1.N) (hm : m < cfg1.N) :
    outsAt1 V c n hn = outsAt1 V c m hm := by
  subst e; rfl

/-- After the last block of half `j` the accumulator holds the half's sums: every block of the half is counted. -/
theorem last_eq (c : Dev nD) (t : Fin cfg1.N) (j : Fin 2) (hj : t.val = j.val * 128 + 127) (k : Fin 1024) :
    (outsAt1 V c t.val t.isLt : S1x1x1024.Idx → EReal) (ix3 0 0 k)
      = gClsPart (xs V c) (ts V c) (means V c) (msqs V c) j k := by
  have h : j.val * 128 + (127 : Fin 128).val < cfg1.N := by
    have := t.isLt
    show j.val * 128 + 127 < cfg1.N
    omega
  rw [outs_congr V c hj t.isLt h]
  refine (Reg1Inv.cls_at V c j 127 k h).trans ?_
  unfold gClsPart
  refine Finset.sum_congr rfl fun i' _ => ?_
  exact if_pos (show i'.val ≤ (127 : Fin 128).val by have := i'.isLt; show i'.val ≤ 127; omega)

/-- The result array the pass should leave: entry (j, 0, k) is half j's sum for class k. -/
abbrev G (c : Dev nD) : Vec Ideal S2x1x1024 .f32 :=
  fun y => gClsPart (xs V c) (ts V c) (means V c) (msqs V c) (y 0) (y 2)

/-- What a point that writes back (the last of its half) writes is its half's row of the result. -/
theorem flushed_eq (c : Dev nD) (t : Fin cfg1.N) (hf : (cfg1.win 4).flush t = true) :
    (dat1 V c).flushed 4 t = ((cfg1.win 4).blk t).view.read (Elt Ideal) (G V c) := by
  have hN : cfg1.N = 256 := N_1
  have hlt : t.val < 256 := lt_of_lt_of_eq t.isLt hN
  have h127 : t.val % 128 = 127 := (flush1_4 t).mp hf
  obtain ⟨e0, e1, e2⟩ := idx_out t
  show (cfg1.win 4).cut (grid1.coords t) ((dat1 V c).after 4 t) = _
  rw [after1_4]
  funext y
  show (outsAt1 V c t.val t.isLt : S1x1x1024.Idx → EReal) y = G V c (((cfg1.win 4).blk t).view.emb y)
  refine (congrArg (outsAt1 V c t.val t.isLt : S1x1x1024.Idx → EReal) (idx_eq y)).trans ?_
  refine (last_eq V c t ⟨t.val / 128, by omega⟩ (by dsimp only; omega) (y 2)).trans ?_
  show gClsPart (xs V c) (ts V c) (means V c) (msqs V c) _ _ = gClsPart (xs V c) (ts V c) (means V c) (msqs V c) _ _
  congr 1
  · apply Fin.ext
    show t.val / 128 = win1_4.index t (0 : Fin 3) * 1 + 1 * (y 0).val
    have h : (y 0).val < 1 := (y 0).isLt
    omega
  · apply Fin.ext
    show (y 2).val = win1_4.index t (2 : Fin 3) * 1024 + 1 * (y 2).val
    omega

/-- An index of the result is in point `t`'s block iff each coordinate is in the block's range on its axis. -/
theorem mem_blk (t : Fin cfg1.N) (i : S2x1x1024.Idx) :
    i ∈ ((cfg1.win 4).blk t).view.set ↔ ∀ a : Fin 3, win1_4.index t a * S1x1x1024.size a ≤ (i a).val ∧ (i a).val < win1_4.index t a * S1x1x1024.size a + S1x1x1024.size a := by
  show i ∈ ((View.whole main_v20).slice (win1_4.rect t)).set ↔ _
  rw [View.set_slice_whole, Rect.mem_set_unit]
  exact Iff.rfl

/-- Row j of the result is written back at point 128 j + 127. -/
theorem cover (i : S2x1x1024.Idx) :
    ∃ t : Fin cfg1.N, (cfg1.win 4).flush t = true ∧ i ∈ ((cfg1.win 4).blk t).view.set := by
  have hN : cfg1.N = 256 := N_1
  have h0 : (i 0).val < 2 := (i 0).isLt
  have h1 : (i 1).val < 1 := (i 1).isLt
  have h2 : (i 2).val < 1024 := (i 2).isLt
  have ht : 128 * (i 0).val + 127 < cfg1.N := by omega
  obtain ⟨e0, e1, e2⟩ := idx_out ⟨128 * (i 0).val + 127, ht⟩
  refine ⟨⟨128 * (i 0).val + 127, ht⟩, (flush1_4 _).mpr (by dsimp only; omega), ?_⟩
  rw [mem_blk]
  intro a
  match a with
  | ⟨0, _⟩ =>
    show win1_4.index ⟨128 * (i 0).val + 127, ht⟩ (0 : Fin 3) * 1 ≤ (i 0).val ∧ (i 0).val < win1_4.index ⟨128 * (i 0).val + 127, ht⟩ (0 : Fin 3) * 1 + 1
    rw [e0]; dsimp only; omega
  | ⟨1, _⟩ =>
    show win1_4.index ⟨128 * (i 0).val + 127, ht⟩ (1 : Fin 3) * 1 ≤ (i 1).val ∧ (i 1).val < win1_4.index ⟨128 * (i 0).val + 127, ht⟩ (1 : Fin 3) * 1 + 1
    rw [e1]; omega
  | ⟨2, _⟩ =>
    show win1_4.index ⟨128 * (i 0).val + 127, ht⟩ (2 : Fin 3) * 1024 ≤ (i 2).val ∧ (i 2).val < win1_4.index ⟨128 * (i 0).val + 127, ht⟩ (2 : Fin 3) * 1024 + 1024
    rw [e2]; omega

/-- The per-class sums of distances after the pass. -/
theorem cls (c : Dev nD) (j : Fin 2) (k : Fin 1024) :
    ((dat1 (F := Ideal) V c).arrAt 4 cfg1.N : S2x1x1024.Idx → EReal) (ix3 j 0 k)
      = gClsPart (xs V c) (ts V c) (means V c) (msqs V c) j k :=
  congrFun ((dat1 (F := Ideal) V c).arrAt_eq_of_cover 4 (G V c) (flushed_eq V c) cover) (ix3 j 0 k)

end Cert.KernelIdeal.Reg1

end
-- ==== Proof.HostGlue.lean ====
/-
  The plain array arithmetic between and after the two passes, read at an index, from any contents `W` of the device's
  buffers. Before the first pass the class words are laid out as a column. Between the passes the two halves' sums and
  counts are added, the class means are the sums divided by max(count, 1), and each mean's squared length is summed
  over its 128 coordinates. The arrays of the arithmetic after the second pass (the two halves' per-class distance sums
  and the result) are named here too.
-/
import proofs.«406991_j27075473834528_3_alg».proof.Proof.Gen.KernelIdeal.Launch
import proofs.«406991_j27075473834528_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.HostGlue

open Cert.KernelIdeal Cert.KernelIdeal.Gen Idealize.ShloMosaic Idealize.ShloMosaic.TcCoe Idealize.ShloMosaic.ValueIdx
open Idealize.SL.Sem CenterLoss

/-! ## The arrays, read off the buffers' contents at their literal types -/

/-- The class words. -/
def words (W : Valuation τ sig (Elt Ideal)) : S524288.Idx → BitVec 32 := W (Proc.devRef .tc main_arg1)
/-- The class words laid out as a column. -/
def wordCol (W : Valuation τ sig (Elt Ideal)) : S524288x1.Idx → BitVec 32 := W (Proc.devRef .tc main_v0)
/-- The two halves' per-class sums (half, coordinate, class). -/
def sums2 (W : Valuation τ sig (Elt Ideal)) : S2x128x1024.Idx → EReal := W (Proc.devRef .tc main_v1_0)
/-- The two halves' per-class counts (half, 0, class). -/
def counts2 (W : Valuation τ sig (Elt Ideal)) : S2x1x1024.Idx → EReal := W (Proc.devRef .tc main_v1_1)
/-- The per-class counts (0, class). -/
def counts1 (W : Valuation τ sig (Elt Ideal)) : S1x1024.Idx → EReal := W (Proc.devRef .tc main_v11)
/-- The table of class means (coordinate, class). -/
def meanTab (W : Valuation τ sig (Elt Ideal)) : S128x1024.Idx → EReal := W (Proc.devRef .tc main_v16)
/-- The squared lengths of the class means (0, class). -/
def msqRow (W : Valuation τ sig (Elt Ideal)) : S1x1024.Idx → EReal := W (Proc.devRef .tc main_v19)
/-- The two halves' per-class sums of distances (half, 0, class). -/
def cls2 (W : Valuation τ sig (Elt Ideal)) : S2x1x1024.Idx → EReal := W (Proc.devRef .tc main_v20)
/-- The result, a single number. -/
def result (W : Valuation τ sig (Elt Ideal)) : S_.Idx → EReal := W (Proc.devRef .tc main_v34)

variable (W : Valuation τ sig (Elt Ideal))

/-! ## Before the first pass -/

/-- The class-word column is the class words. -/
theorem pre_words (n : Fin 524288) :
    wordCol (StableHlo.after (hostOps0 (F := Ideal)) W) (ix2 n 0) = words W (ix1 n) := by
  unfold wordCol words
  -- the one operation lays the words out as a column
  have e : (StableHlo.after (hostOps0 (F := Ideal)) W (Proc.devRef .tc main_v0) : S524288x1.Idx → BitVec 32)
      = shapeCast S524288x1 (W (Proc.devRef .tc main_arg1) : S524288.Idx → BitVec 32) shapeCasts_S524288_S524288x1 := by
    after_results; rfl
  rw [e]
  -- entry (n, 0) of the column and entry n of the words have the same row-major position
  exact shapeCast_apply _ _ _ _ (by
    show (S524288.rowMajor (ix1 n)).val = (S524288x1.rowMajor (ix2 n 0)).val
    rw [Shape.rowMajor_val_one, Shape.rowMajor_val_two]
    show n.val = n.val * 1 + 0
    omega)

/-- Laying out the class words leaves the samples alone. -/
theorem pre_samples :
    StableHlo.after (hostOps0 (F := Ideal)) W (Proc.devRef .tc main_arg0) = W (Proc.devRef .tc main_arg0) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## Between the passes -/

/-- Half `h` of a stack of two arrays, cut out: it reads the stack at `(h, a, k)`. -/
private theorem half_apply {m n : Nat} (o : Nat) (h : Fin 2) (ho : h.val = o) (X : (⟨3, ![2, m, n]⟩ : Shape).Idx → EReal)
    (hs : (⟨3, ![2, m, n]⟩ : Shape).Slices ![o, 0, 0] ⟨3, ![1, m, n]⟩) (u : Fin 1) (a : Fin m) (k : Fin n) :
    extractStridedSlice ⟨3, ![1, m, n]⟩ ![o, 0, 0] X hs (ix3 u a k) = X (ix3 h a k) :=
  extractStridedSlice_apply _ _ _ _ _ (fun ax => by
    match ax with
    | ⟨0, _⟩ => show h.val = o + u.val; omega
    | ⟨1, _⟩ => exact (Nat.zero_add _).symm
    | ⟨2, _⟩ => exact (Nat.zero_add _).symm)

/-- The counts as the operations compose them: the two halves, each cut out and laid flat, added. -/
private def cntArr (W : Valuation τ sig (Elt Ideal)) : S1x1024.Idx → EReal :=
  addf (F := Ideal) (φ := .f32)
    (shapeCast S1x1024 (extractStridedSlice S1x1x1024 ![0, 0, 0] (counts2 W) slices_S2x1x1024_S1x1x1024_0_0_0) shapeCasts_S1x1x1024_S1x1024)
    (shapeCast S1x1024 (extractStridedSlice S1x1x1024 ![1, 0, 0] (counts2 W) slices_S2x1x1024_S1x1x1024_1_0_0) shapeCasts_S1x1x1024_S1x1024)

/-- After the arithmetic between the passes the counts' buffer holds them. -/
private theorem after1_v11 : (StableHlo.after (hostOps1 (F := Ideal)) W (Proc.devRef .tc main_v11) : S1x1024.Idx → EReal) = cntArr W := by
  after_results; rfl

/-- The counts read at class `k`. -/
private theorem cntArr_apply (k : Fin 1024) : cntArr W (ix2 0 k) = counts2 W (ix3 0 0 k) + counts2 W (ix3 1 0 k) := by
  unfold cntArr
  rw [addf_apply, shapeCast_1ab_ab_apply, shapeCast_1ab_ab_apply,
    half_apply 0 0 rfl (counts2 W), half_apply 1 1 rfl (counts2 W)]

/-- The quotients as the operations compose them: the two halves' sums, each cut out and laid flat, added, and divided
    by the counts' maximum with 1 copied down the 128 coordinates. -/
private def quotArr (W : Valuation τ sig (Elt Ideal)) : S128x1024.Idx → EReal :=
  Host.divf (F := Ideal) (φ := .f32)
    (addf (F := Ideal) (φ := .f32)
      (shapeCast S128x1024 (extractStridedSlice S1x128x1024 ![0, 0, 0] (sums2 W) slices_S2x128x1024_S1x128x1024_0_0_0) shapeCasts_S1x128x1024_S128x1024)
      (shapeCast S128x1024 (extractStridedSlice S1x128x1024 ![1, 0, 0] (sums2 W) slices_S2x128x1024_S1x128x1024_1_0_0) shapeCasts_S1x128x1024_S128x1024))
    (broadcastInDim S128x1024 ![0, 1] bcast_S1x1024_S128x1024_0_1
      (maximumf (F := Ideal) (φ := .f32) (cntArr W)
        (broadcastInDim S1x1024 ![] bcast_S_S1x1024 (constant (F := Ideal) S_ .f32 0x3F800000#32))))

/-- After the arithmetic between the passes the mean table's buffer holds the quotients, converted to a narrower format. -/
private theorem after1_v16 : (StableHlo.after (hostOps1 (F := Ideal)) W (Proc.devRef .tc main_v16) : S128x1024.Idx → EReal)
    = truncf (F := Ideal) (φ := .f32) .bf16 (quotArr W) bitsLt_bf16_f32 := by
  after_results; rfl

/-- After the arithmetic between the passes the squared lengths' buffer holds the quotients' squares summed down the
    coordinates, as one row. -/
private theorem after1_v19 : (StableHlo.after (hostOps1 (F := Ideal)) W (Proc.devRef .tc main_v19) : S1x1024.Idx → EReal)
    = broadcastInDim S1x1024 ![1] bcast_S1024_S1x1024_1
        (Host.reduceAdd (F := Ideal) (φ := .f32) (mulf (F := Ideal) (φ := .f32) (quotArr W) (quotArr W))
          (constant (F := Ideal) S_ .f32 0x00000000#32) reducesTo_S128x1024_S1024_d0 h_S_) := by
  after_results; rfl

/-- The quotients read at coordinate `d` of class `k`; the bit pattern 0x3F800000 is the number 1. -/
private theorem quotArr_apply (d : Fin 128) (k : Fin 1024) :
    quotArr W (ix2 d k) = Ideal.div (sums2 W (ix3 0 d k) + sums2 W (ix3 1 d k))
          (max (counts2 W (ix3 0 0 k) + counts2 W (ix3 1 0 k)) 1) := by
  unfold quotArr
  rw [hostDivf_apply, addf_apply, shapeCast_1ab_ab_apply, shapeCast_1ab_ab_apply,
    half_apply 0 0 rfl (sums2 W), half_apply 1 1 rfl (sums2 W)]
  rw [broadcastInDim_apply ![0, 1] bcast_S1x1024_S128x1024_0_1 _ (ix2 d k) (ix2 0 k) (fun a => by
    match a with
    | ⟨0, _⟩ => rfl
    | ⟨1, _⟩ => show k.val = if (1024 : Nat) = 1 then 0 else k.val; rw [if_neg (by decide)])]
  rw [maximumf_apply, cntArr_apply, broadcastInDim_scalar_apply, constant_apply, Ideal.ofBits_one_f32]

/-- A sum down the 128 coordinates of a table, from 0, copied into a one-row array, read at class `k`. -/
private theorem colSum_apply (q : S128x1024.Idx → EReal) (k : Fin 1024) :
    broadcastInDim S1x1024 ![1] bcast_S1024_S1x1024_1
        (Host.reduceAdd (F := Ideal) (φ := .f32) q
          (constant (F := Ideal) S_ .f32 0x00000000#32) reducesTo_S128x1024_S1024_d0 h_S_) (ix2 0 k)
      = ∑ d : Fin 128, q (ix2 d k) := by
  rw [broadcastInDim_apply ![1] bcast_S1024_S1x1024_1 _ (ix2 0 k) (ix1 k) (fun a => by
    match a with
    | ⟨0, _⟩ => show k.val = if (1024 : Nat) = 1 then 0 else k.val; rw [if_neg (by decide)])]
  rw [hostReduceAdd_apply, Ideal.hostReduceAdd_single reducesTo_S128x1024_S1024_d0 (by decide),
    constant_apply, Ideal.ofBits_zero_f32, zero_add]
  refine Finset.sum_congr rfl fun d _ => ?_
  exact congrArg q (funext fun a => Fin.ext (by match a with | ⟨0, _⟩ => rfl | ⟨1, _⟩ => rfl))

/-- The counts: the two halves added. -/
theorem mid_counts (k : Fin 1024) :
    counts1 (StableHlo.after (hostOps1 (F := Ideal)) W) (ix2 0 k)
      = counts2 W (ix3 0 0 k) + counts2 W (ix3 1 0 k) := by
  unfold counts1
  rw [after1_v11, cntArr_apply]

/-- The class means: the two halves' sums added, divided by max(count, 1). -/
theorem mid_means (d : Fin 128) (k : Fin 1024) :
    meanTab (StableHlo.after (hostOps1 (F := Ideal)) W) (ix2 d k)
      = Ideal.div (sums2 W (ix3 0 d k) + sums2 W (ix3 1 d k))
          (max (counts2 W (ix3 0 0 k) + counts2 W (ix3 1 0 k)) 1) := by
  unfold meanTab
  -- the stored table is the quotients converted to a narrower format, which changes no extended real
  rw [after1_v16, truncf_apply, quotArr_apply]

/-- The squared lengths of the class means. -/
theorem mid_msq (k : Fin 1024) :
    msqRow (StableHlo.after (hostOps1 (F := Ideal)) W) (ix2 0 k)
      = ∑ d : Fin 128, meanTab (StableHlo.after (hostOps1 (F := Ideal)) W) (ix2 d k)
          * meanTab (StableHlo.after (hostOps1 (F := Ideal)) W) (ix2 d k) := by
  unfold msqRow meanTab
  rw [after1_v19, after1_v16, colSum_apply]
  refine Finset.sum_congr rfl fun d _ => ?_
  rw [mulf_apply, truncf_apply]

/-- The arithmetic between the passes leaves the samples alone. -/
theorem mid_samples :
    StableHlo.after (hostOps1 (F := Ideal)) W (Proc.devRef .tc main_arg0) = W (Proc.devRef .tc main_arg0) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The arithmetic between the passes leaves the class-word column alone. -/
theorem mid_words :
    StableHlo.after (hostOps1 (F := Ideal)) W (Proc.devRef .tc main_v0) = W (Proc.devRef .tc main_v0) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.HostGlue

end
-- ==== Proof.HostTail.lean ====
/-
  The plain array arithmetic after the second pass, read at an index, from any contents `W` of the device's buffers:
  the two halves' per-class sums of distances are added, the first 1000 of the 1024 padded classes are kept (of the
  counts too), each class's sum is divided by max(count, 1) and replaced by 0 where the count is not positive, and the
  result is the sum over the 1000 classes.
-/
import proofs.«406991_j27075473834528_3_alg».proof.Proof.HostGlue
import Idealize.ShloMosaic.Lib.IdealHost

noncomputable section

namespace Cert.KernelIdeal.HostTail

open Cert.KernelIdeal Cert.KernelIdeal.Gen Cert.KernelIdeal.HostGlue Idealize.ShloMosaic Idealize.ShloMosaic.TcCoe
open Idealize.ShloMosaic.ValueIdx Idealize.SL.Sem CenterLoss

variable (W : Valuation τ sig (Elt Ideal))

/-! ## The three stretches of operations, each as one term over the contents before it -/

/-- The last stretch: the result is the sum of the selected array over both its axes, from the initial value zero. -/
private theorem sum_stretch (V : Valuation τ sig (Elt Ideal)) :
    (StableHlo.after (hostOps2_2 (F := Ideal)) V (Proc.devRef .tc main_v34) : S_.Idx → EReal)
      = Host.reduceAdd (F := Ideal) (V (Proc.devRef .tc main_v33) : S1x1000.Idx → EReal)
          (constant (F := Ideal) S_ .f32 0x00000000#32) reducesTo_S1x1000_S_d0_1 h_S_ := by
  after_results

/-- The middle stretch: the select of the quotient where the compare holds, of the broadcast scalar elsewhere. -/
private theorem select_stretch (V : Valuation τ sig (Elt Ideal)) :
    (StableHlo.after (hostOps2_1 (F := Ideal)) V (Proc.devRef .tc main_v33) : S1x1000.Idx → EReal)
      = select (V (Proc.devRef .tc main_v31) : S1x1000.Idx → BitVec 1) (V (Proc.devRef .tc main_v32) : S1x1000.Idx → EReal)
          (broadcastInDim S1x1000 ![] bcast_S_S1x1000 (V (Proc.devRef .tc main_cst_3) : S_.Idx → EReal)) := by
  after_results
  rfl

/-- The counts of the first 1000 classes. -/
private abbrev cnt1000 : S1x1000.Idx → EReal :=
  extractStridedSlice S1x1000 ![0, 0] (counts1 W) slices_S1x1024_S1x1000_0_0

/-- The two halves' sums of distances added, of the first 1000 classes. -/
private abbrev cls1000 : S1x1000.Idx → EReal :=
  extractStridedSlice S1x1000 ![0, 0]
    (addf (F := Ideal) (φ := .f32)
      (shapeCast S1x1024 (extractStridedSlice S1x1x1024 ![0, 0, 0] (cls2 W) slices_S2x1x1024_S1x1x1024_0_0_0) shapeCasts_S1x1x1024_S1x1024)
      (shapeCast S1x1024 (extractStridedSlice S1x1x1024 ![1, 0, 0] (cls2 W) slices_S2x1x1024_S1x1x1024_1_0_0) shapeCasts_S1x1x1024_S1x1024))
    slices_S1x1024_S1x1000_0_0

/-- The first stretch writes the compare: count > 0. -/
private theorem first_stretch_cmp :
    (StableHlo.after (hostOps2 (F := Ideal)) W (Proc.devRef .tc main_v31) : S1x1000.Idx → BitVec 1)
      = cmpf (F := Ideal) .ogt (cnt1000 W)
          (broadcastInDim S1x1000 ![] bcast_S_S1x1000 (constant (F := Ideal) S_ .f32 0x00000000#32)) := by
  after_results
  rfl

/-- The first stretch writes the quotient: the added sums of distances over max(count, 1). -/
private theorem first_stretch_div :
    (StableHlo.after (hostOps2 (F := Ideal)) W (Proc.devRef .tc main_v32) : S1x1000.Idx → EReal)
      = Host.divf (F := Ideal) (cls1000 W)
          (maximumf (F := Ideal) (cnt1000 W)
            (broadcastInDim S1x1000 ![] bcast_S_S1x1000 (constant (F := Ideal) S_ .f32 0x3F800000#32))) := by
  after_results
  rfl

/-- The first stretch writes the scalar zero the select falls back on. -/
private theorem first_stretch_zero :
    (StableHlo.after (hostOps2 (F := Ideal)) W (Proc.devRef .tc main_cst_3) : S_.Idx → EReal)
      = constant (F := Ideal) S_ .f32 0x00000000#32 := by
  after_results

/-! ## Read at an index -/

/-- Class c's count among the first 1000 is entry (0, c) of the padded counts. -/
private theorem cnt1000_apply (c : Fin 1000) : cnt1000 W (ix2 0 c) = counts1 W (ix2 0 (pad c)) :=
  slice2_axis1_apply 0 (counts1 W) slices_S1x1024_S1x1000_0_0 0 c (pad c) (Nat.zero_add _).symm

/-- Class c's sum of distances among the first 1000 is the two halves' entries (h, 0, c) added: the slice keeps
    column c, the cast drops the leading unit axis, and the slice of half h reads row h. -/
private theorem cls1000_apply (c : Fin 1000) :
    cls1000 W (ix2 0 c) = cls2 W (ix3 0 0 (pad c)) + cls2 W (ix3 1 0 (pad c)) := by
  unfold cls1000
  rw [slice2_axis1_apply 0 _ slices_S1x1024_S1x1000_0_0 0 c (pad c) (Nat.zero_add _).symm, addf_apply,
    shapeCast_1ab_ab_apply, shapeCast_1ab_ab_apply]
  congr 1
  · exact extractStridedSlice_apply _ _ _ _ _ (fun ax => by
      match ax with
      | ⟨0, _⟩ => rfl
      | ⟨1, _⟩ => rfl
      | ⟨2, _⟩ => exact (Nat.zero_add _).symm)
  · exact extractStridedSlice_apply _ _ _ _ _ (fun ax => by
      match ax with
      | ⟨0, _⟩ => rfl
      | ⟨1, _⟩ => rfl
      | ⟨2, _⟩ => exact (Nat.zero_add _).symm)

/-- The select of the quotient by the compare `count > 0`, with 0 elsewhere, is the class's mean distance. -/
private theorem select_cmp (a p : EReal) :
    Scalar.select (Ideal.cmp .ogt a 0) (Ideal.div p (max a 1)) 0 = perClass a p := by
  unfold perClass Ideal.cmp
  by_cases h : (0 : EReal) < a
  · rw [if_pos h]
    simp only [h, decide_true, BitVec.ofBool_true]
    exact select_one _ _
  · rw [if_neg h]
    simp only [h, decide_false, BitVec.ofBool_false]
    exact select_zero _ _

/-- Entry (0, c) of the array the final sum adds up is class c's mean distance. -/
private theorem entry_apply (c : Fin 1000) :
    (StableHlo.after (hostOps2_1 (F := Ideal)) (StableHlo.after (hostOps2 (F := Ideal)) W) (Proc.devRef .tc main_v33)
        : S1x1000.Idx → EReal) (ix2 0 c)
      = perClass (counts1 W (ix2 0 (pad c))) (cls2 W (ix3 0 0 (pad c)) + cls2 W (ix3 1 0 (pad c))) := by
  rw [select_stretch, select_apply, first_stretch_cmp, first_stretch_div, first_stretch_zero, cmpf_apply, hostDivf_apply,
    maximumf_apply, broadcastInDim_scalar_apply, broadcastInDim_scalar_apply, constant_apply, constant_apply,
    Ideal.ofBits_zero_f32, Ideal.ofBits_one_f32, cnt1000_apply, cls1000_apply]
  exact select_cmp _ _

/-- The result: the sum over the first 1000 classes of the class's mean distance. -/
theorem tail_result :
    result (StableHlo.after (hostOps2_2 (F := Ideal)) (StableHlo.after (hostOps2_1 (F := Ideal))
        (StableHlo.after (hostOps2 (F := Ideal)) W)))
      = fun _ => ∑ c : Fin 1000, perClass (counts1 W (ix2 0 (pad c)))
          (cls2 W (ix3 0 0 (pad c)) + cls2 W (ix3 1 0 (pad c))) := by
  funext i
  unfold result
  -- the sum over both axes of a [1, 1000] array into a scalar is 0 plus the sum over every index, i.e. over the classes
  rw [sum_stretch, hostReduceAdd_apply, Ideal.hostReduceAdd_total reducesTo_S1x1000_S_d0_1 (fun b => b.elim0),
    constant_apply, Ideal.ofBits_zero_f32, zero_add, sum_idx2, Fin.sum_univ_one]
  exact Finset.sum_congr rfl fun c _ => entry_apply W c

end Cert.KernelIdeal.HostTail

end
-- ==== Proof.KernelValue.lean ====
/-
  The kernel program's result is the one-hot form of the center-loss value of the samples and class words it was
  launched with. The first pass finds the samples as launched and the class words laid out as a column, and leaves the
  two halves' per-class sums and counts; the arithmetic between the passes turns them into the table of class means,
  the means' squared lengths and the counts; the second pass finds the samples and class words unchanged beside that
  table and leaves the two halves' per-class sums of distances; the arithmetic after it adds the halves, keeps the
  first 1000 classes and sums the per-class mean distances.
-/
import proofs.«406991_j27075473834528_3_alg».proof.Proof.Gen.KernelIdeal.Frame
import proofs.«406991_j27075473834528_3_alg».proof.Proof.KArrays
import proofs.«406991_j27075473834528_3_alg».proof.Proof.Reg0
import proofs.«406991_j27075473834528_3_alg».proof.Proof.Reg1
import proofs.«406991_j27075473834528_3_alg».proof.Proof.HostGlue
import proofs.«406991_j27075473834528_3_alg».proof.Proof.HostTail

noncomputable section

namespace Cert.KernelIdeal.KValue

open Cert.KernelIdeal Cert.KernelIdeal.Gen Cert.KernelIdeal.Hand Cert.KernelIdeal.HostGlue
open Idealize.ShloMosaic Idealize.ShloMosaic.TcCoe Idealize.ShloMosaic.ValueIdx Idealize.SL.Sem CenterLoss
open Idealize.ShloMosaic.Pipeline (Dat)

variable (m : (ℓ : Loc nD τ sig) → Buf (Elt Ideal) ℓ) (ρ : Dev nD → PrngReg)

/-- The samples as launched. -/
def X (c : Dev nD) : Samples := fun n d => (m ((c : Thread nD τ).loc main_arg0) : S524288x128.Idx → EReal) (ix2 n d)

/-- The class words as launched. -/
def T (c : Dev nD) : Words := fun n => (m ((c : Thread nD τ).loc main_arg1) : S524288.Idx → BitVec 32) (ix1 n)

/-! ## What the first pass finds and leaves -/

theorem xs_V1 (c : Dev nD) : xs (V1 m ρ) c = X m c := by
  funext n d
  exact congrFun (pre_samples (W0 m ρ c)) (ix2 n d)

theorem ts_V1 (c : Dev nD) : ts (V1 m ρ) c = T m c := by
  funext n
  exact pre_words (W0 m ρ c) n

theorem sums_W2 (c : Dev nD) (j : Fin 2) (d : Fin 128) (k : Fin 1024) :
    sums2 (W2 m ρ c) (ix3 j d k) = kSumPart (X m c) (T m c) j d k := by
  have h := Reg0.sums (V1 m ρ) c j d k
  rw [xs_V1, ts_V1] at h
  rw [← h]
  exact congrFun (W2_arr m ρ c 2) (ix3 j d k)

theorem counts_W2 (c : Dev nD) (j : Fin 2) (k : Fin 1024) :
    counts2 (W2 m ρ c) (ix3 j 0 k) = kCntPart (T m c) j k := by
  have h := Reg0.counts (V1 m ρ) c j k
  rw [ts_V1] at h
  rw [← h]
  exact congrFun (W2_arr m ρ c 3) (ix3 j 0 k)

/-! ## Between the passes -/

theorem counts_W3 (c : Dev nD) (k : Fin 1024) : counts1 (W3 m ρ c) (ix2 0 k) = kCnt (T m c) k := by
  show counts1 (StableHlo.after (hostOps1 (F := Ideal)) (W2 m ρ c)) (ix2 0 k) = _
  rw [mid_counts, counts_W2, counts_W2]
  rfl

theorem means_W3 (c : Dev nD) (d : Fin 128) (k : Fin 1024) :
    meanTab (W3 m ρ c) (ix2 d k) = kMean (X m c) (T m c) d k := by
  show meanTab (StableHlo.after (hostOps1 (F := Ideal)) (W2 m ρ c)) (ix2 d k) = _
  rw [mid_means, sums_W2, sums_W2, counts_W2, counts_W2]
  rfl

theorem msq_W3 (c : Dev nD) (k : Fin 1024) :
    msqRow (W3 m ρ c) (ix2 0 k) = sqLen (kMean (X m c) (T m c)) k := by
  show msqRow (StableHlo.after (hostOps1 (F := Ideal)) (W2 m ρ c)) (ix2 0 k) = _
  rw [mid_msq]
  unfold sqLen
  refine Finset.sum_congr rfl fun d _ => ?_
  have e := means_W3 m ρ c d k
  rw [show meanTab (StableHlo.after (hostOps1 (F := Ideal)) (W2 m ρ c)) (ix2 d k) = kMean (X m c) (T m c) d k from e]

/-! ## What the second pass finds and leaves -/

theorem xs_V3 (c : Dev nD) : xs (V3 m ρ) c = X m c := by
  funext n d
  have h : W3 m ρ c (Proc.devRef .tc main_arg0) = m ((c : Thread nD τ).loc main_arg0) :=
    (mid_samples (W2 m ρ c)).trans (((W2_arr m ρ c 0).trans (((dat0 (V1 m ρ) c).arrAt_in 0 rfl _).trans
      (A_eq0 (V1 m ρ) c 0))).trans (pre_samples (W0 m ρ c)))
  exact congrFun h (ix2 n d)

theorem ts_V3 (c : Dev nD) : ts (V3 m ρ) c = T m c := by
  funext n
  have h : W3 m ρ c (Proc.devRef .tc main_v0) = W1 m ρ c (Proc.devRef .tc main_v0) :=
    (mid_words (W2 m ρ c)).trans ((W2_arr m ρ c 1).trans (((dat0 (V1 m ρ) c).arrAt_in 1 rfl _).trans
      (A_eq0 (V1 m ρ) c 1)))
  exact (congrFun h (ix2 n 0)).trans (pre_words (W0 m ρ c) n)

theorem means_V3 (c : Dev nD) : means (V3 m ρ) c = kMean (X m c) (T m c) := by
  funext d k
  exact means_W3 m ρ c d k

theorem msqs_V3 (c : Dev nD) : msqs (V3 m ρ) c = sqLen (kMean (X m c) (T m c)) := by
  funext k
  exact msq_W3 m ρ c k

theorem cls_W4 (c : Dev nD) (j : Fin 2) (k : Fin 1024) :
    cls2 (W4 m ρ c) (ix3 j 0 k)
      = gClsPart (X m c) (T m c) (kMean (X m c) (T m c)) (sqLen (kMean (X m c) (T m c))) j k := by
  have h := Reg1.cls (V3 m ρ) c j k
  rw [xs_V3, ts_V3, means_V3, msqs_V3] at h
  rw [← h]
  exact congrFun (W4_arr m ρ c 4) (ix3 j 0 k)

theorem counts_W4 (c : Dev nD) (k : Fin 1024) : counts1 (W4 m ρ c) (ix2 0 k) = kCnt (T m c) k := by
  have h : W4 m ρ c (Proc.devRef .tc main_v11) = W3 m ρ c (Proc.devRef .tc main_v11) :=
    W4_of_ne m ρ c main_v11 (by decide)
  exact (congrFun h (ix2 0 k)).trans (counts_W3 m ρ c k)

/-! ## The result -/

/-- The result buffer after the last stretch of array arithmetic holds the one-hot form of the center-loss value. -/
theorem result_eq (c : Dev nD) : result (W7 m ρ c) = fun _ => kernelValue (X m c) (T m c) := by
  show result (StableHlo.after (hostOps2_2 (F := Ideal)) (StableHlo.after (hostOps2_1 (F := Ideal))
    (StableHlo.after (hostOps2 (F := Ideal)) (W4 m ρ c)))) = _
  rw [HostTail.tail_result]
  funext _
  unfold kernelValue
  refine Finset.sum_congr rfl fun cl _ => ?_
  rw [counts_W4, cls_W4, cls_W4]
  rfl

end Cert.KernelIdeal.KValue

end
-- ==== Proof.RefValue.lean ====
/-
  The reference program's result over the extended reals is the class-test form of the center-loss value: its three
  accumulating scatters are sums over the samples whose class word, read as a signed integer, is the class (a word
  outside 0..999 lands on no class); its table lookup reads the row at the word wrapped and clamped into the table.
-/
import proofs.«406991_j27075473834528_3_alg».proof.Proof.RefRead
import proofs.«406991_j27075473834528_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP Idealize.ShloMosaic
open Idealize.ShloMosaic.ValueIdx CenterLoss

/-! ## Sums over a rank-1 index set -/

/-- A sum over a rank-1 index set is the sum over its one coordinate. -/
private theorem sum_idx1 {n : Nat} (f : (⟨1, ![n]⟩ : Shape).Idx → EReal) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

/-! ## Where an accumulating scatter's update lands -/

/-- An update lands on operand index `i` exactly when, on every axis, its window's start plus its window
    coordinate is `i`'s coordinate (being a coordinate of the operand, that is inside the operand). -/
private theorem resultIdx?_eq_some_iff {s si u : Shape} (d : ScatterDims s si u) {w : Nat} (j : u.Idx) (idx : IVec si w)
    (i : s.Idx) : d.resultIdx? j idx = some i ↔ ∀ a, d.start j idx a + (d.window j a : ℤ) = ((i a).val : ℤ) := by
  unfold ScatterDims.resultIdx?
  constructor
  · intro h
    split at h
    · rename_i hc
      intro a
      have h1 := congrFun (Option.some.inj h) a
      rw [← h1]
      exact (Int.toNat_of_nonneg (hc a).1).symm
    · cases h
  · intro h
    have hc : ∀ a, 0 ≤ d.start j idx a + (d.window j a : ℤ) ∧ d.start j idx a + (d.window j a : ℤ) < s.size a := fun a => by
      rw [h a]
      exact ⟨Int.natCast_nonneg _, by exact_mod_cast (i a).isLt⟩
    rw [dif_pos hc]
    congr 1
    funext a
    apply Fin.ext
    show (d.start j idx a + (d.window j a : ℤ)).toNat = (i a).val
    rw [h a]
    exact Int.toNat_natCast _

/-! ## The two scatter records, decoded -/

/-- The record of the two rank-1 scatters (counts, distance sums): operand `[1000]`, updates `[524288]`. -/
private abbrev sc1 := scatter_S1000_S524288x1_S524288_n_0_0_1
/-- The record of the rank-2 scatter (coordinate sums): operand `[1000, 128]`, updates `[524288, 128]`. -/
private abbrev sc2 := scatter_S1000x128_S524288x1_S524288x128_1_0_0_1

/-- Update `n` of a rank-1 scatter reads its one start-index component at row `n` of the index column. -/
private theorem sc1_siIdx (j : S524288.Idx) (c : Fin sc1.scatterDimsToOperandDims.length) :
    sc1.siIdx j c = (ix2 (n0 := 524288) (n1 := 1) (j 0) 0 : S524288x1.Idx) := by
  funext b
  refine Fin.ext ?_
  match b with
  | ⟨0, _⟩ => rfl
  | ⟨1, _⟩ =>
    have hc : c.val < 1 := c.isLt
    show c.val = 0
    omega

private theorem sc1_start (j : S524288.Idx) (idx : IVec S524288x1 32) (a : Fin S1000.rank) :
    sc1.start j idx a = (idx (ix2 (n0 := 524288) (n1 := 1) (j 0) 0 : S524288x1.Idx)).toInt := by
  obtain rfl : a = (0 : Fin 1) := Subsingleton.elim _ _
  unfold ScatterDims.start
  rw [dif_pos (show (0 : Fin 1) ∈ sc1.scatterDimsToOperandDims from List.mem_singleton.mpr rfl), sc1_siIdx]

private theorem sc1_window (j : S524288.Idx) (a : Fin S1000.rank) : sc1.window j a = 0 := by
  obtain rfl : a = (0 : Fin 1) := Subsingleton.elim _ _
  unfold ScatterDims.window
  rw [dif_neg (by decide)]

/-- An update of a rank-1 scatter lands on class `i` exactly when its index word, read signed, is `i`. -/
private theorem sc1_lands (j : S524288.Idx) (idx : IVec S524288x1 32) (i : S1000.Idx) :
    sc1.resultIdx? j idx = some i
      ↔ (idx (ix2 (n0 := 524288) (n1 := 1) (j 0) 0 : S524288x1.Idx)).toInt = ((i 0).val : ℤ) := by
  rw [resultIdx?_eq_some_iff]
  constructor
  · intro h
    have h0 := h 0
    rw [sc1_start, sc1_window, Nat.cast_zero, add_zero] at h0
    exact h0
  · intro h a
    obtain rfl : a = (0 : Fin 1) := Subsingleton.elim _ _
    rw [sc1_start, sc1_window, Nat.cast_zero, add_zero]
    exact h

/-- Update `(n, d)` of the rank-2 scatter reads its one start-index component at row `n` of the index column. -/
private theorem sc2_siIdx (j : S524288x128.Idx) (c : Fin sc2.scatterDimsToOperandDims.length) :
    sc2.siIdx j c = (ix2 (n0 := 524288) (n1 := 1) (j 0) 0 : S524288x1.Idx) := by
  funext b
  refine Fin.ext ?_
  match b with
  | ⟨0, _⟩ => rfl
  | ⟨1, _⟩ =>
    have hc : c.val < 1 := c.isLt
    show c.val = 0
    omega

private theorem sc2_start0 (j : S524288x128.Idx) (idx : IVec S524288x1 32) :
    sc2.start j idx (0 : Fin 2) = (idx (ix2 (n0 := 524288) (n1 := 1) (j 0) 0 : S524288x1.Idx)).toInt := by
  unfold ScatterDims.start
  rw [dif_pos (show (0 : Fin 2) ∈ sc2.scatterDimsToOperandDims from List.mem_singleton.mpr rfl), sc2_siIdx]

private theorem sc2_start1 (j : S524288x128.Idx) (idx : IVec S524288x1 32) : sc2.start j idx (1 : Fin 2) = 0 := by
  unfold ScatterDims.start
  rw [dif_neg (by decide)]

private theorem sc2_window0 (j : S524288x128.Idx) : sc2.window j (0 : Fin 2) = 0 := by
  unfold ScatterDims.window
  rw [dif_neg (by decide)]

private theorem sc2_window1 (j : S524288x128.Idx) : sc2.window j (1 : Fin 2) = (j 1).val := by
  unfold ScatterDims.window
  rw [dif_pos (by decide)]
  rfl

/-- An update `(n, d')` of the rank-2 scatter lands on `(c, d)` exactly when row `n`'s index word, read signed, is
    `c` and `d' = d`. -/
private theorem sc2_lands (j : S524288x128.Idx) (idx : IVec S524288x1 32) (i : S1000x128.Idx) :
    sc2.resultIdx? j idx = some i
      ↔ (idx (ix2 (n0 := 524288) (n1 := 1) (j 0) 0 : S524288x1.Idx)).toInt = ((i 0).val : ℤ) ∧ j 1 = i 1 := by
  rw [resultIdx?_eq_some_iff]
  constructor
  · intro h
    have h0 := h 0
    have h1 := h 1
    rw [sc2_start0, sc2_window0, Nat.cast_zero, add_zero] at h0
    rw [sc2_start1, sc2_window1, zero_add] at h1
    exact ⟨h0, Fin.ext (by exact_mod_cast h1)⟩
  · rintro ⟨h0, h1⟩ a
    match a with
    | ⟨0, _⟩ =>
      show sc2.start j idx (0 : Fin 2) + (sc2.window j (0 : Fin 2) : ℤ) = _
      rw [sc2_start0, sc2_window0, Nat.cast_zero, add_zero]
      exact h0
    | ⟨1, _⟩ =>
      show sc2.start j idx (1 : Fin 2) + (sc2.window j (1 : Fin 2) : ℤ) = _
      rw [sc2_start1, sc2_window1, zero_add, h1]
      rfl

/-! ## The gather record, decoded -/

/-- The record of the table lookup: operand `[1000, 128]`, start indices `[524288, 1]`, result `[524288, 128]`. -/
private abbrev ga := gather_S1000x128_S524288x1_S524288x128_1_0_n_n_0_1_1128

private theorem ga_siIdx (j : S524288x128.Idx) (c : Fin ga.startIndexMap.length) :
    ga.siIdx j c = (ix2 (n0 := 524288) (n1 := 1) (j 0) 0 : S524288x1.Idx) := by
  funext b
  refine Fin.ext ?_
  match b with
  | ⟨0, _⟩ => rfl
  | ⟨1, _⟩ =>
    have hc : c.val < 1 := c.isLt
    show c.val = 0
    omega

/-- Result element `(n, d)` of the lookup reads the table at the row its index word names, read signed and clamped
    into `0..999`, and at column `d`. -/
private theorem ga_operandIdx (j : S524288x128.Idx) (idx : IVec S524288x1 32) :
    ga.operandIdx j idx
      = (ix2 (n0 := 1000) (n1 := 128)
          ⟨min (idx (ix2 (n0 := 524288) (n1 := 1) (j 0) 0 : S524288x1.Idx)).toInt.toNat 999, by omega⟩ (j 1) : S1000x128.Idx) := by
  funext a
  refine Fin.ext ?_
  match a with
  | ⟨0, _⟩ =>
    show ga.start j idx (0 : Fin 2) + ga.batchCoord j (0 : Fin 2) + ga.offCoord j (0 : Fin 2) = _
    rw [GatherDims.batchCoord_eq_zero _ _ _ List.not_mem_nil, GatherDims.offCoord_eq_zero _ _ _ (by decide)]
    unfold GatherDims.start
    rw [dif_pos (show (0 : Fin 2) ∈ ga.startIndexMap from List.mem_singleton.mpr rfl), ga_siIdx]
    rfl
  | ⟨1, _⟩ =>
    show ga.start j idx (1 : Fin 2) + ga.batchCoord j (1 : Fin 2) + ga.offCoord j (1 : Fin 2) = _
    rw [GatherDims.batchCoord_eq_zero _ _ _ List.not_mem_nil]
    unfold GatherDims.start GatherDims.offCoord
    rw [dif_neg (by decide), dif_pos (by decide)]
    show 0 + 0 + (j 1).val = (j 1).val
    omega

/-! ## Words and constants -/

/-- The f32 pattern `0x3F800000` is the extended real one. -/
private theorem one_f32 : Ideal.ofBits .f32 0x3F800000#32 = 1 := by
  rw [show (1 : EReal) = ((1 : ℝ) : EReal) by norm_cast]
  simp [Ideal.ofBits, Ideal.ieee, -EReal.coe_mul]
  norm_num

/-- A select on a decided condition is the `if`. -/
private theorem select_ofBool {α : Type} (c : Bool) (a b : α) :
    Scalar.select (BitVec.ofBool c) a b = if c = true then a else b := by
  cases c
  · exact if_neg (by decide)
  · exact if_pos rfl

/-- The index word the lookup reads: a negative class word shifted by 1000. -/
private theorem wrap_word (w : BitVec 32) :
    Scalar.select (IntOp.cmpi .slt w 0#32) (IntOp.addi w 1000#32) w = if w.slt 0#32 = true then w + 1000#32 else w := by
  show Scalar.select (BitVec.ofBool (w.slt 0#32)) (w + 1000#32) w = _
  exact select_ofBool _ _ _

/-- A select on "greater than zero" is the `if` on positivity. -/
private theorem select_gt_zero (a p : EReal) :
    Scalar.select (FloatOps.cmpf (F := Ideal) (φ := .f32) .ogt a (0 : EReal)) p (0 : EReal) = if 0 < a then p else 0 := by
  show Scalar.select (BitVec.ofBool (decide ((0 : EReal) < a))) p 0 = _
  rw [select_ofBool]
  simp only [decide_eq_true_eq]

/-! ## Index equations: the composed index maps of the broadcasts and the row sum are coordinate constructors -/

private theorem idx_v2 (n : Fin 524288) :
    idx_main_v2 (ix2 (n0 := 524288) (n1 := 1) n 0 : S524288x1.Idx) = (ix1 n : S524288.Idx) :=
  funext fun a => Fin.ext (by match a with | ⟨0, _⟩ => rfl)

private theorem idx_v21 (n : Fin 524288) (k : Fin 128) :
    idx_main_v21 (ix1 n : S524288.Idx) k = (ix2 n k : S524288x128.Idx) :=
  funext fun a => Fin.ext (by match a with | ⟨0, _⟩ => rfl | ⟨1, _⟩ => rfl)

private theorem idx_v9_v10 (c : Fin 1000) (d : Fin 128) :
    idx_main_v9 (idx_main_v10 (ix2 c d : S1000x128.Idx)) = (ix1 c : S1000.Idx) :=
  funext fun a => Fin.ext (by match a with | ⟨0, _⟩ => rfl)

/-! ## The scatters and the lookup read at an index -/

/-- A rank-1 accumulating scatter at class `c`: the operand's element plus the updates of the samples whose index
    word, read signed, is `c`. -/
private theorem scatter_vec_apply (x : FVec Ideal S1000 .f32) (idx : IVec S524288x1 32) (upd : FVec Ideal S524288 .f32)
    (c : Fin 1000) :
    Host.scatterAdd (F := Ideal) sc1 x idx upd (ix1 c)
      = x (ix1 c) + ∑ n : Fin 524288,
          if (idx (ix2 (n0 := 524288) (n1 := 1) n 0 : S524288x1.Idx)).toInt = (c.val : ℤ) then upd (ix1 n) else 0 := by
  unfold Host.scatterAdd
  rw [Ideal.hostScatterAdd_def]
  unfold Ideal.hostScatterAdd
  rw [Finset.sum_filter, sum_idx1]
  refine congrArg (x (ix1 c) + ·) (Finset.sum_congr rfl fun n _ => if_congr ?_ rfl rfl)
  rw [sc1_lands]

/-- The rank-2 accumulating scatter at `(c, d)`: the operand's element plus coordinate `d` of the update rows of the
    samples whose index word, read signed, is `c`. -/
private theorem scatter_rows_apply (x : FVec Ideal S1000x128 .f32) (idx : IVec S524288x1 32)
    (upd : FVec Ideal S524288x128 .f32) (c : Fin 1000) (d : Fin 128) :
    Host.scatterAdd (F := Ideal) sc2 x idx upd (ix2 c d)
      = x (ix2 c d) + ∑ n : Fin 524288,
          if (idx (ix2 (n0 := 524288) (n1 := 1) n 0 : S524288x1.Idx)).toInt = (c.val : ℤ) then upd (ix2 n d) else 0 := by
  unfold Host.scatterAdd
  rw [Ideal.hostScatterAdd_def]
  unfold Ideal.hostScatterAdd
  rw [Finset.sum_filter, sum_idx2]
  refine congrArg (x (ix2 c d) + ·) (Finset.sum_congr rfl fun n _ => ?_)
  have h : ∀ b : Fin 128, (sc2.resultIdx? (ix2 n b : S524288x128.Idx) idx = some (ix2 c d : S1000x128.Idx))
      ↔ ((idx (ix2 (n0 := 524288) (n1 := 1) n 0 : S524288x1.Idx)).toInt = (c.val : ℤ) ∧ b = d) := fun b => by
    rw [sc2_lands]
    exact Iff.rfl
  rw [Finset.sum_congr rfl fun b _ => if_congr (h b) rfl rfl]
  by_cases hP : (idx (ix2 (n0 := 524288) (n1 := 1) n 0 : S524288x1.Idx)).toInt = (c.val : ℤ)
  · simp only [hP, true_and, if_true]
    rw [Finset.sum_ite_eq' Finset.univ d, if_pos (Finset.mem_univ d)]
  · simp only [hP, false_and, if_false, Finset.sum_const_zero]

/-- The lookup at `(n, d)`: the table at the row sample `n`'s index word names, read signed and clamped into
    `0..999`, and at column `d`. -/
private theorem gather_rows_apply {α : Type} (x : S1000x128.Idx → α) (idx : IVec S524288x1 32) (n : Fin 524288)
    (d : Fin 128) :
    Host.gather ga x idx (ix2 n d)
      = x (ix2 (n0 := 1000) (n1 := 128)
          ⟨min (idx (ix2 (n0 := 524288) (n1 := 1) n 0 : S524288x1.Idx)).toInt.toNat 999, by omega⟩ d) := by
  unfold Host.gather
  rw [ga_operandIdx]

/-! ## The reference's arrays, one at a time -/

/-- The counts: class `c`'s is the number of samples whose class word, read signed, is `c`. -/
theorem counts_apply (x1 : (⟨S524288, .i32⟩ : BufTy).Contents (Elt Ideal)) (c : Fin 1000) :
    (val_main_v3 (F := Ideal) x1 : S1000.Idx → EReal) (ix1 c)
      = rCnt (fun n => (x1 : S524288.Idx → BitVec 32) (ix1 n)) c := by
  unfold val_main_v3
  rw [scatter_vec_apply, val_main_v1_apply, val_main_cst_0_apply, Ideal.ofBits_def, Ideal.ofBits_zero_f32, zero_add]
  unfold rCnt
  refine Finset.sum_congr rfl fun n _ => ?_
  rw [val_main_v0_apply, val_main_cst_apply, Ideal.ofBits_def, one_f32, val_main_v2_apply, idx_v2]

/-- The sums: coordinate `d` of class `c`'s is the sum of that coordinate over the samples whose class word, read
    signed, is `c`. -/
theorem sums_apply (x0 : (⟨S524288x128, .f32⟩ : BufTy).Contents (Elt Ideal))
    (x1 : (⟨S524288, .i32⟩ : BufTy).Contents (Elt Ideal)) (c : Fin 1000) (d : Fin 128) :
    (val_main_v6 (F := Ideal) x0 x1 : S1000x128.Idx → EReal) (ix2 c d)
      = rSum (fun n d => (x0 : S524288x128.Idx → EReal) (ix2 n d)) (fun n => (x1 : S524288.Idx → BitVec 32) (ix1 n)) c d := by
  unfold val_main_v6
  rw [scatter_rows_apply, val_main_v4_apply, val_main_cst_1_apply, Ideal.ofBits_def, Ideal.ofBits_zero_f32, zero_add]
  unfold rSum
  refine Finset.sum_congr rfl fun n _ => ?_
  rw [val_main_v5_apply]
  exact if_congr (by rw [show idx_main_v5 (ix2 (n0 := 524288) (n1 := 1) n 0 : S524288x1.Idx) = (ix1 n : S524288.Idx) from
    funext fun a => Fin.ext (by match a with | ⟨0, _⟩ => rfl)]) rfl rfl

/-- The class means. -/
theorem mean_apply (x0 : (⟨S524288x128, .f32⟩ : BufTy).Contents (Elt Ideal))
    (x1 : (⟨S524288, .i32⟩ : BufTy).Contents (Elt Ideal)) (c : Fin 1000) (d : Fin 128) :
    (val_main_v11 (F := Ideal) x0 x1 : S1000x128.Idx → EReal) (ix2 c d)
      = rMean (fun n d => (x0 : S524288x128.Idx → EReal) (ix2 n d)) (fun n => (x1 : S524288.Idx → BitVec 32) (ix1 n)) c d := by
  rw [val_main_v11_apply, val_main_v10_apply, val_main_v9_apply, val_main_v8_apply, idx_v9_v10, sums_apply, counts_apply,
    val_main_v7_apply, val_main_cst_2_apply, Ideal.ofBits_def, one_f32, Ideal.hostDivf_def, Ideal.maximumf_def]
  rfl

/-- The index word the lookup reads for sample `n`: its class word, shifted by 1000 when negative. -/
private theorem word_apply (x1 : (⟨S524288, .i32⟩ : BufTy).Contents (Elt Ideal)) (n : Fin 524288) :
    (val_main_v17 (F := Ideal) x1 : S524288x1.Idx → BitVec 32) (ix2 (n0 := 524288) (n1 := 1) n 0 : S524288x1.Idx)
      = if ((x1 : S524288.Idx → BitVec 32) (ix1 n)).slt 0#32 = true then (x1 : S524288.Idx → BitVec 32) (ix1 n) + 1000#32
        else (x1 : S524288.Idx → BitVec 32) (ix1 n) := by
  rw [val_main_v17_apply,
    show idx_main_v17 (ix2 (n0 := 524288) (n1 := 1) n 0 : S524288x1.Idx) = (ix1 n : S524288.Idx) from
      funext fun a => Fin.ext (by match a with | ⟨0, _⟩ => rfl),
    val_main_v16_apply, val_main_v13_apply, val_main_v15_apply, val_main_v12_apply, val_main_c_apply, val_main_v14_apply,
    val_main_c_3_apply, wrap_word]

/-- The looked-up rows: sample `n`'s is the mean of the class its word names once wrapped and clamped. -/
theorem row_apply (x0 : (⟨S524288x128, .f32⟩ : BufTy).Contents (Elt Ideal))
    (x1 : (⟨S524288, .i32⟩ : BufTy).Contents (Elt Ideal)) (n : Fin 524288) (d : Fin 128) :
    (val_main_v18 (F := Ideal) x0 x1 : S524288x128.Idx → EReal) (ix2 n d)
      = rMean (fun n d => (x0 : S524288x128.Idx → EReal) (ix2 n d)) (fun n => (x1 : S524288.Idx → BitVec 32) (ix1 n))
          (look ((x1 : S524288.Idx → BitVec 32) (ix1 n))) d := by
  unfold val_main_v18
  rw [gather_rows_apply, mean_apply]
  refine congrArg (fun k => rMean _ _ k d) (Fin.ext ?_)
  show min ((val_main_v17 (F := Ideal) x1 : S524288x1.Idx → BitVec 32)
      (ix2 (n0 := 524288) (n1 := 1) n 0 : S524288x1.Idx)).toInt.toNat 999 = _
  rw [word_apply]
  rfl

/-- The distances: sample `n`'s to the mean of its looked-up class. -/
theorem norm_apply (x0 : (⟨S524288x128, .f32⟩ : BufTy).Contents (Elt Ideal))
    (x1 : (⟨S524288, .i32⟩ : BufTy).Contents (Elt Ideal)) (n : Fin 524288) :
    (val_main_v22 (F := Ideal) x0 x1 : S524288.Idx → EReal) (ix1 n)
      = rNorm (fun n d => (x0 : S524288x128.Idx → EReal) (ix2 n d)) (fun n => (x1 : S524288.Idx → BitVec 32) (ix1 n)) n := by
  rw [val_main_v22_apply, val_main_v21_apply, val_main_cst_4_apply, Ideal.ofBits_def, Ideal.ofBits_zero_f32, zero_add,
    Ideal.hostUnary_sqrt_def]
  unfold rNorm
  refine congrArg Ideal.sqrt (Finset.sum_congr rfl fun k _ => ?_)
  rw [idx_v21, val_main_v20_apply, val_main_v19_apply, row_apply, Ideal.mulf_def, Ideal.subf_def]

/-- The per-class distance sums. -/
theorem cls_apply (x0 : (⟨S524288x128, .f32⟩ : BufTy).Contents (Elt Ideal))
    (x1 : (⟨S524288, .i32⟩ : BufTy).Contents (Elt Ideal)) (c : Fin 1000) :
    (val_main_v25 (F := Ideal) x0 x1 : S1000.Idx → EReal) (ix1 c)
      = rCls (fun n d => (x0 : S524288x128.Idx → EReal) (ix2 n d)) (fun n => (x1 : S524288.Idx → BitVec 32) (ix1 n)) c := by
  unfold val_main_v25
  rw [scatter_vec_apply, val_main_v23_apply, val_main_cst_5_apply, Ideal.ofBits_def, Ideal.ofBits_zero_f32, zero_add]
  unfold rCls
  refine Finset.sum_congr rfl fun n _ => ?_
  rw [norm_apply, val_main_v24_apply,
    show idx_main_v24 (ix2 (n0 := 524288) (n1 := 1) n 0 : S524288x1.Idx) = (ix1 n : S524288.Idx) from
      funext fun a => Fin.ext (by match a with | ⟨0, _⟩ => rfl)]

/-- The reference's result, as a function of its two argument arrays, is the class-test form. -/
theorem result_eq (x0 : (⟨S524288x128, .f32⟩ : BufTy).Contents (Elt Ideal)) (x1 : (⟨S524288, .i32⟩ : BufTy).Contents (Elt Ideal)) :
    (val_main_v30 (F := Ideal) x0 x1 : S_.Idx → EReal)
      = fun _ => referenceValue (fun n d => (x0 : S524288x128.Idx → EReal) (ix2 n d))
          (fun n => (x1 : S524288.Idx → BitVec 32) (ix1 n)) := by
  funext i
  show (val_main_v30 (F := Ideal) x0 x1 : S_.Idx → EReal) i = referenceValue _ _
  rw [val_main_v30_apply, val_main_cst_8_apply, Ideal.ofBits_def, Ideal.ofBits_zero_f32, zero_add, sum_idx1]
  unfold referenceValue
  refine Finset.sum_congr rfl fun c _ => ?_
  rw [val_main_v29_apply, val_main_v28_apply, val_main_v26_apply, val_main_v8_apply, val_main_v27_apply,
    val_main_cst_6_apply, val_main_call0_v1_apply, val_main_call0_v0_apply, val_main_cst_7_apply, val_main_v7_apply,
    val_main_cst_2_apply, counts_apply, cls_apply]
  simp only [Ideal.ofBits_def, Ideal.ofBits_zero_f32, one_f32, Ideal.hostDivf_def, Ideal.maximumf_def]
  rw [select_gt_zero]
  rfl

end Cert.ReferenceIdeal.RefValue

end
-- ==== Proof.Finite.lean ====
/-
  The precondition says every sample coordinate is smaller in absolute value than +infinity; so every coordinate is a
  real number: neither +infinity nor -infinity.
-/
import proofs.«406991_j27075473834528_3_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx

/-- The result of a reduction over every axis has a single index. -/
private instance : Subsingleton Cert.Pre_finite_inputs.S_.Idx := ⟨fun a b => funext fun d => d.elim0⟩

/-- The word 0x7F800000 denotes +infinity. -/
private theorem inf_word : Ideal.ofBits .f32 0x7F800000#32 = (⊤ : EReal) := by
  simp [Ideal.ofBits, Ideal.ieee]

/-- An extended real whose absolute value max x (-x) lies below +infinity is neither infinity:
    at +infinity the maximum is +infinity itself, and at -infinity its negation is. -/
private theorem finite_of_abs_lt_top (x : EReal) (h : max x (-x) < ⊤) : x ≠ ⊤ ∧ x ≠ ⊥ := by
  constructor
  · rintro rfl; simp at h
  · rintro rfl; simp at h

/-- The ordered "less than" comparison gives the word 1 only when its left side is below its right side. -/
private theorem lt_of_cmp_olt (a b : EReal) (h : Ideal.cmp .olt a b = 1#1) : a < b := by
  by_contra hn
  simp [Ideal.cmp, hn] at h

/-- Under the precondition every sample coordinate is finite. -/
theorem finite_of_pre [Cert.Pre_finite_inputs.Facts]
    (x0 : FVec Ideal Cert.Pre_finite_inputs.S524288x128 .f32) (x1 : IVec Cert.Pre_finite_inputs.S524288 32)
    (h : Cert.Pre_finite_inputs.fn (F := Ideal) x0 x1 = fun _ => 1#1) :
    ∀ i : Cert.Pre_finite_inputs.S524288x128.Idx, (x0 i : EReal) ≠ ⊤ ∧ (x0 i : EReal) ≠ ⊥ := by
  intro i
  -- the conjunction over all coordinates is 1, so the comparison at coordinate i is 1
  have h0 := congrFun h ValueIdx.ix0
  dsimp only [Cert.Pre_finite_inputs.fn] at h0
  have h1 := Host.reduce_andi_all _ _ _ _ _ h0 i
  -- at coordinate i the comparison reads |x0 i| < (the value of the word 0x7F800000) = +infinity
  have h2 : Ideal.cmp .olt (max (x0 i : EReal) (-(x0 i : EReal))) (Ideal.ofBits .f32 0x7F800000#32) = 1#1 := h1
  rw [inf_word] at h2
  exact finite_of_abs_lt_top _ (lt_of_cmp_olt _ _ h2)

end Cert.Finite

end
-- ==== Proof.Regroup.lean ====
/-
  One-hot sums are class-test sums. The one-hot entry of a word at a class below 1000 is 1 exactly when the word, read
  as a signed integer, is the class. A sum over the samples, cut into two halves of equal blocks of rows, is the sum over
  all samples; a product with a one-hot entry is the term itself or 0.
-/
import proofs.«406991_j27075473834528_3_alg».proof.Proof.Spec

noncomputable section

namespace CenterLoss

open Idealize.ShloMosaic

/-! ### Words and classes -/

/-- A word is the 32-bit word of a class below 1000 exactly when its signed reading is the class. -/
private theorem eq_ofNat_iff (b : BitVec 32) (c : ℕ) (hc : c < 1000) :
    b = BitVec.ofNat 32 c ↔ b.toInt = (c : ℤ) := by
  have hb : b.toNat < 4294967296 := b.isLt
  constructor
  · intro h
    subst h
    rw [BitVec.toInt_eq_toNat_cond, BitVec.toNat_ofNat]
    have hm : c % 2 ^ 32 = c := Nat.mod_eq_of_lt (by omega)
    rw [hm]
    split <;> omega
  · intro h
    apply BitVec.eq_of_toNat_eq
    rw [BitVec.toNat_ofNat]
    rw [BitVec.toInt_eq_toNat_cond] at h
    have hm : c % 2 ^ 32 = c := Nat.mod_eq_of_lt (by omega)
    rw [hm]
    split at h <;> omega

/-- The one-hot entry at a class below 1000 is the class test. -/
theorem hot_pad (b : BitVec 32) (c : Fin 1000) : hot b (pad c) = if b.toInt = (c.val : ℤ) then 1 else 0 := by
  unfold hot pad
  by_cases h : b.toInt = (c.val : ℤ)
  · rw [if_pos h, if_pos ((eq_ofNat_iff b c.val c.isLt).mpr h)]
  · rw [if_neg h, if_neg (fun h' => h ((eq_ofNat_iff b c.val c.isLt).mp h'))]

/-- A word that is class c looks up row c. -/
theorem look_of_class (b : BitVec 32) (c : Fin 1000) (h : b.toInt = (c.val : ℤ)) : look b = c := by
  have hs : b.slt 0#32 = false := by
    rw [BitVec.slt_eq_decide, BitVec.toInt_zero, h]
    simp
  have hc : c.val < 1000 := c.isLt
  unfold look
  apply Fin.ext
  simp only [hs, h]
  simp
  omega

/-! ### Regrouping a sum over blocks of rows -/

/-- A sum over `a * b` indices is the sum over `a` blocks of `b` consecutive indices. -/
private theorem sum_blocks {M : Type*} [AddCommMonoid M] (a b N : ℕ) (hN : a * b = N) (f : Fin N → M)
    (hlt : ∀ (i : Fin a) (r : Fin b), i.val * b + r.val < N) :
    ∑ i : Fin a, ∑ r : Fin b, f ⟨i.val * b + r.val, hlt i r⟩ = ∑ n : Fin N, f n := by
  subst hN
  rw [← finProdFinEquiv.sum_comp f, Fintype.sum_prod_type]
  refine Finset.sum_congr rfl (fun i _ => Finset.sum_congr rfl (fun r _ => ?_))
  congr 1
  apply Fin.ext
  simp only [finProdFinEquiv_apply_val]
  rw [Nat.mul_comm, Nat.add_comm]

/-- Two halves of 64 blocks of 4096 rows are all the samples. -/
private theorem regroup0 {M : Type*} [AddCommMonoid M] (f : Fin 524288 → M) :
    (∑ i : Fin 64, ∑ r : Fin 4096, f (row0 0 i r)) + (∑ i : Fin 64, ∑ r : Fin 4096, f (row0 1 i r))
      = ∑ n : Fin 524288, f n := by
  rw [← sum_blocks 128 4096 524288 (by norm_num) f (fun i r => by omega)]
  rw [← sum_blocks 2 64 128 (by norm_num)
    (fun q : Fin 128 => ∑ r : Fin 4096, f ⟨q.val * 4096 + r.val, by omega⟩) (fun j i => by omega)]
  rw [Fin.sum_univ_two]
  rfl

/-- Two halves of 128 blocks of 2048 rows are all the samples. -/
private theorem regroup1 {M : Type*} [AddCommMonoid M] (f : Fin 524288 → M) :
    (∑ i : Fin 128, ∑ r : Fin 2048, f (row1 0 i r)) + (∑ i : Fin 128, ∑ r : Fin 2048, f (row1 1 i r))
      = ∑ n : Fin 524288, f n := by
  rw [← sum_blocks 256 2048 524288 (by norm_num) f (fun i r => by omega)]
  rw [← sum_blocks 2 128 256 (by norm_num)
    (fun q : Fin 256 => ∑ r : Fin 2048, f ⟨q.val * 2048 + r.val, by omega⟩) (fun j i => by omega)]
  rw [Fin.sum_univ_two]
  rfl

/-! ### The one-hot sums -/

theorem kSum_pad (x : Samples) (t : Words) (c : Fin 1000) (d : Fin 128) : kSum x t d (pad c) = rSum x t c d := by
  unfold kSum kSumPart rSum
  rw [regroup0 (fun n => x n d * hot (t n) (pad c))]
  refine Finset.sum_congr rfl (fun n _ => ?_)
  rw [hot_pad, mul_ite, mul_one, mul_zero]

theorem kCnt_pad (t : Words) (c : Fin 1000) : kCnt t (pad c) = rCnt t c := by
  unfold kCnt kCntPart rCnt
  rw [regroup0 (fun n => hot (t n) (pad c))]
  refine Finset.sum_congr rfl (fun n _ => ?_)
  rw [hot_pad]

theorem kCls_pad (x : Samples) (t : Words) (c : Fin 1000) :
    kCls x t (pad c) = ∑ n : Fin 524288, if (t n).toInt = (c.val : ℤ) then kNorm x t n else 0 := by
  unfold kCls gClsPart
  rw [regroup1 (fun n => hot (t n) (pad c) * gNorm x t (kMean x t) (sqLen (kMean x t)) n)]
  refine Finset.sum_congr rfl (fun n _ => ?_)
  rw [hot_pad, ite_mul, one_mul, zero_mul]
  rfl

end CenterLoss

end
-- ==== Proof.Distance.lean ====
/-
  The distance identity. For a sample whose class word is class c < 1000, its one-hot row is 1 at c and 0 elsewhere, so
  the selected term is |m_c|^2 - 2 x.m_c; when every coordinate is a real number (the class mean then is one too),
  |x|^2 + |m|^2 - 2 x.m is the sum of the squared differences, which is not negative, so the clamp at 0 does nothing.
-/
import proofs.«406991_j27075473834528_3_alg».proof.Proof.Spec

noncomputable section

namespace CenterLoss

open Idealize.ShloMosaic

/-! ## Real numbers inside the extended reals -/

/-- The embedding of the reals commutes with finite sums. -/
private theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of (embedded) real numbers is an (embedded) real number. -/
private theorem real_sum {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsum]; exact Finset.sum_congr rfl fun i _ => hg i⟩

/-- A one-hot entry is the real number 0 or 1. -/
private theorem real_hot (b : BitVec 32) (k : Fin 1024) : ∃ r : ℝ, hot b k = (r : EReal) := by
  unfold hot
  by_cases hb : b = BitVec.ofNat 32 k.val
  · exact ⟨1, by rw [if_pos hb, EReal.coe_one]⟩
  · exact ⟨0, by rw [if_neg hb, EReal.coe_zero]⟩

/-- An extended real that is neither infinity is a real number. -/
private theorem real_of_ne {a : EReal} (ha : a ≠ ⊤ ∧ a ≠ ⊥) : ∃ r : ℝ, a = (r : EReal) :=
  ⟨a.toReal, (EReal.coe_toReal ha.1 ha.2).symm⟩

private theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

private theorem real_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

/-! ## The class sums, counts and means are real numbers -/

private theorem real_kSum (x : Samples) (t : Words) (hfin : ∀ n d, x n d ≠ ⊤ ∧ x n d ≠ ⊥) (d : Fin 128) (k : Fin 1024) :
    ∃ r : ℝ, kSum x t d k = (r : EReal) := by
  have part : ∀ j, ∃ r : ℝ, kSumPart x t j d k = (r : EReal) := fun j =>
    real_sum _ _ fun i => real_sum _ _ fun r => real_mul (real_of_ne (hfin _ _)) (real_hot _ _)
  exact real_add (part 0) (part 1)

private theorem real_kCnt (t : Words) (k : Fin 1024) : ∃ r : ℝ, kCnt t k = (r : EReal) := by
  have part : ∀ j, ∃ r : ℝ, kCntPart t j k = (r : EReal) := fun j =>
    real_sum _ _ fun i => real_sum _ _ fun r => real_hot _ _
  exact real_add (part 0) (part 1)

/-- The class mean is a real number: a real sum divided by a real number that is at least 1. -/
private theorem real_kMean (x : Samples) (t : Words) (hfin : ∀ n d, x n d ≠ ⊤ ∧ x n d ≠ ⊥) (d : Fin 128) (k : Fin 1024) :
    ∃ r : ℝ, kMean x t d k = (r : EReal) := by
  obtain ⟨s, hs⟩ := real_kSum x t hfin d k
  obtain ⟨q, hq⟩ := real_kCnt t k
  have hmax : max (q : EReal) 1 = ((max q 1 : ℝ) : EReal) := by
    rw [← EReal.coe_one]; exact (EReal.coe_strictMono.monotone.map_max).symm
  have hne : max q 1 ≠ 0 := ne_of_gt (lt_of_lt_of_le one_pos (le_max_right q 1))
  refine ⟨s * (1 / max q 1), ?_⟩
  unfold kMean
  rw [hs, hq, hmax, Ideal.div_coe hne, EReal.coe_mul]

theorem kSum_finite (x : Samples) (t : Words) (hfin : ∀ n d, x n d ≠ ⊤ ∧ x n d ≠ ⊥) (d : Fin 128) (k : Fin 1024) :
    kSum x t d k ≠ ⊤ ∧ kSum x t d k ≠ ⊥ := by
  obtain ⟨r, hr⟩ := real_kSum x t hfin d k
  rw [hr]; exact ⟨EReal.coe_ne_top r, EReal.coe_ne_bot r⟩

theorem kCnt_finite (t : Words) (k : Fin 1024) : kCnt t k ≠ ⊤ ∧ kCnt t k ≠ ⊥ := by
  obtain ⟨r, hr⟩ := real_kCnt t k
  rw [hr]; exact ⟨EReal.coe_ne_top r, EReal.coe_ne_bot r⟩

theorem kMean_finite (x : Samples) (t : Words) (hfin : ∀ n d, x n d ≠ ⊤ ∧ x n d ≠ ⊥) (d : Fin 128) (k : Fin 1024) :
    kMean x t d k ≠ ⊤ ∧ kMean x t d k ≠ ⊥ := by
  obtain ⟨r, hr⟩ := real_kMean x t hfin d k
  rw [hr]; exact ⟨EReal.coe_ne_top r, EReal.coe_ne_bot r⟩

/-! ## The one-hot row of a sample of class c -/

/-- A word whose signed value is a class below 1000 is that class's word. -/
private theorem word_of_class (b : BitVec 32) (c : Fin 1000) (h : b.toInt = (c.val : ℤ)) :
    b = BitVec.ofNat 32 c.val := by
  apply BitVec.eq_of_toNat_eq
  rw [BitVec.toNat_ofNat]
  have hcond := BitVec.toInt_eq_toNat_cond b
  have hb := b.isLt
  have hc := c.isLt
  split at hcond <;> omega

/-- The one-hot row of a word of class c is 1 at c and 0 at every other padded class. -/
private theorem hot_of_class (b : BitVec 32) (c : Fin 1000) (h : b.toInt = (c.val : ℤ)) (k : Fin 1024) :
    hot b k = if k = pad c then 1 else 0 := by
  rw [word_of_class b c h]
  unfold hot
  have hk := k.isLt
  have hc := c.isLt
  by_cases hkc : k = pad c
  · rw [if_pos hkc, if_pos]
    rw [hkc]; rfl
  · rw [if_neg hkc, if_neg]
    intro heq
    apply hkc
    have hnat := congrArg BitVec.toNat heq
    rw [BitVec.toNat_ofNat, BitVec.toNat_ofNat] at hnat
    apply Fin.ext
    show k.val = c.val
    omega

/-! ## The identity -/

/-- The expanded, clamped distance of a sample of class c is the distance to the class mean. -/
theorem kNorm_eq_of_class (x : Samples) (t : Words) (hfin : ∀ n d, x n d ≠ ⊤ ∧ x n d ≠ ⊥)
    (n : Fin 524288) (c : Fin 1000) (h : (t n).toInt = (c.val : ℤ)) :
    kNorm x t n
      = Ideal.sqrt (∑ d : Fin 128, (x n d - kMean x t d (pad c)) * (x n d - kMean x t d (pad c))) := by
  -- real coordinates e of the sample and m of its class mean
  have hM : ∀ d, ∃ r : ℝ, kMean x t d (pad c) = (r : EReal) := fun d => real_kMean x t hfin d (pad c)
  choose m hm using hM
  have hE : ∀ d, ∃ r : ℝ, x n d = (r : EReal) := fun d => real_of_ne (hfin n d)
  choose e he using hE
  -- the one-hot row keeps the term of class c only
  have hsel : gSel x t (kMean x t) (sqLen (kMean x t)) n
      = sqLen (kMean x t) (pad c) - 2 * gDot x (kMean x t) n (pad c) := by
    unfold gSel
    rw [Finset.sum_eq_single (pad c)]
    · rw [hot_of_class _ c h, if_pos rfl, one_mul]
    · intro k _ hk
      rw [hot_of_class _ c h, if_neg hk, zero_mul]
    · intro hn
      exact absurd (Finset.mem_univ _) hn
  -- each of the four sums is the embedding of a real sum
  have hsq : sqLen (kMean x t) (pad c) = ((∑ d, m d * m d : ℝ) : EReal) := by
    unfold sqLen
    rw [coe_finsum]
    exact Finset.sum_congr rfl fun d _ => by rw [hm d, EReal.coe_mul]
  have hdot : gDot x (kMean x t) n (pad c) = ((∑ d, e d * m d : ℝ) : EReal) := by
    unfold gDot
    rw [coe_finsum]
    exact Finset.sum_congr rfl fun d _ => by rw [hm d, he d, EReal.coe_mul]
  have hesq : kEsq x n = ((∑ d, e d * e d : ℝ) : EReal) := by
    unfold kEsq
    rw [coe_finsum]
    exact Finset.sum_congr rfl fun d _ => by rw [he d, EReal.coe_mul]
  have hrhs : (∑ d : Fin 128, (x n d - kMean x t d (pad c)) * (x n d - kMean x t d (pad c)))
      = ((∑ d, (e d - m d) * (e d - m d) : ℝ) : EReal) := by
    rw [coe_finsum]
    exact Finset.sum_congr rfl fun d _ => by rw [hm d, he d, EReal.coe_mul, EReal.coe_sub]
  -- over the reals: |e|^2 + (|m|^2 - 2 e.m) = |e - m|^2, which is not negative
  have hreal : (∑ d, e d * e d) + ((∑ d, m d * m d) - 2 * ∑ d, e d * m d) = ∑ d, (e d - m d) * (e d - m d) := by
    rw [Finset.mul_sum, ← Finset.sum_sub_distrib, ← Finset.sum_add_distrib]
    exact Finset.sum_congr rfl fun d _ => by ring
  have hnn : 0 ≤ ∑ d, (e d - m d) * (e d - m d) := Finset.sum_nonneg fun d _ => mul_self_nonneg _
  have h2 : (2 : EReal) = ((2 : ℝ) : EReal) := rfl
  unfold kNorm gNorm
  rw [hsel, hsq, hdot, hesq, hrhs, h2, ← EReal.coe_mul, ← EReal.coe_sub, ← EReal.coe_add, hreal,
    max_eq_left (EReal.coe_nonneg.mpr hnn)]

end CenterLoss

end
-- ==== Proof.Algebra.lean ====
/-
  The two forms of the center-loss value agree when every sample coordinate is a real number: class by class the
  counts, the sums and hence the means agree, each sample's distance agrees, and so do the per-class sums of distances.
-/
import proofs.«406991_j27075473834528_3_alg».proof.Proof.Spec
import proofs.«406991_j27075473834528_3_alg».proof.Proof.Regroup
import proofs.«406991_j27075473834528_3_alg».proof.Proof.Distance

noncomputable section

namespace CenterLoss

open Idealize.ShloMosaic

/-- The class means agree: sums and counts agree, and both forms divide the sum by the count raised to 1. -/
private theorem kMean_pad (x : Samples) (t : Words) (c : Fin 1000) (d : Fin 128) :
    kMean x t d (pad c) = rMean x t c d := by
  show Ideal.div (kSum x t d (pad c)) (max (kCnt t (pad c)) 1) = Ideal.div (rSum x t c d) (max (rCnt t c) 1)
  rw [kSum_pad, kCnt_pad]

/-- For a sample whose class word is class c, the expanded distance is the distance to the looked-up class mean:
    the lookup lands on c, and the two class means are the same vector. -/
private theorem kNorm_eq_rNorm (x : Samples) (t : Words) (hfin : ∀ n d, x n d ≠ ⊤ ∧ x n d ≠ ⊥)
    (n : Fin 524288) (c : Fin 1000) (h : (t n).toInt = (c.val : ℤ)) : kNorm x t n = rNorm x t n := by
  rw [kNorm_eq_of_class x t hfin n c h]
  unfold rNorm
  rw [look_of_class (t n) c h]
  simp only [kMean_pad]

theorem kernelValue_eq_referenceValue (x : Samples) (t : Words) (hfin : ∀ n d, x n d ≠ ⊤ ∧ x n d ≠ ⊥) :
    kernelValue x t = referenceValue x t := by
  unfold kernelValue referenceValue
  refine Finset.sum_congr rfl fun c _ => ?_
  -- class by class: the counts agree, and the sum of distances is a class-test sum of the same terms
  have hcls : (∑ n : Fin 524288, if (t n).toInt = (c.val : ℤ) then kNorm x t n else 0) = rCls x t c := by
    unfold rCls
    refine Finset.sum_congr rfl fun n _ => ?_
    split_ifs with h
    · exact kNorm_eq_rNorm x t hfin n c h
    · rfl
  rw [kCnt_pad, kCls_pad, hcls]

end CenterLoss

end
-- ==== Proof.lean ====
/-
  The center loss of 524288 samples of 128 coordinates over 1000 classes — the sum, over the classes, of the mean
  distance of a class's samples to the class mean — computed by two accumulation passes over blocks of rows equals the
  class-by-class reference computation over the extended reals, when every sample coordinate is finite.

  Both programs run to completion with their argument arrays unchanged. The kernel program's result is the one-hot
  form of the value of the samples and class words it was launched with: per-class sums and counts as contractions with
  a one-hot matrix over 1024 padded classes, the squared distance expanded as |x|^2 + |m|^2 - 2 x.m and clamped at 0.
  The reference's result is the class-test form: sums over the samples whose class word is the class, the squared
  distance as the sum of squared differences. The two forms agree because a one-hot contraction is a class-test sum
  (for every extended real), a class word outside 0..999 contributes to no class in either form, and, all coordinates
  being real numbers, the expansion of the square is exact and not negative.
  No operation of the kernel program was rewritten for its reading over the extended reals.
-/
import proofs.«406991_j27075473834528_3_alg».proof.Defs
import proofs.«406991_j27075473834528_3_alg».proof.Proof.Gen.Kernel
import proofs.«406991_j27075473834528_3_alg».proof.Proof.Gen.Kernel.Frame
import proofs.«406991_j27075473834528_3_alg».proof.Proof.Gen.KernelIdeal
import proofs.«406991_j27075473834528_3_alg».proof.Proof.Gen.KernelIdeal.Frame
import proofs.«406991_j27075473834528_3_alg».proof.Proof.Gen.ReferenceIdeal
import proofs.«406991_j27075473834528_3_alg».proof.Proof.Gen.Pre_finite_inputs
import proofs.«406991_j27075473834528_3_alg».proof.Proof.RunMain
import proofs.«406991_j27075473834528_3_alg».proof.Proof.KernelValue
import proofs.«406991_j27075473834528_3_alg».proof.Proof.RefRead
import proofs.«406991_j27075473834528_3_alg».proof.Proof.RefValue
import proofs.«406991_j27075473834528_3_alg».proof.Proof.Finite
import proofs.«406991_j27075473834528_3_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program as printed runs and leaves its arguments unchanged. -/
theorem frame_k : Cert.frame_Kernel := fun m ρ _ => Cert.Kernel.Gen.frame m ρ

/-- The kernel program read over the extended reals runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the center-loss value of the samples and class words: the one-hot form on the kernel's
    side, the class-test form on the reference's, equal because the coordinates are finite. -/
theorem algebraic : Cert.algebraic_KernelIdeal_ReferenceIdeal := by
  intro m ρ m' ρ' hpre hagree
  refine ⟨fun c => fun _ => CenterLoss.kernelValue (Cert.KernelIdeal.KValue.X m c) (Cert.KernelIdeal.KValue.T m c), ?_, ?_⟩
  · refine (θ_run Cert.KernelIdeal.defs _ _).mono (fun r h c => ⟨(h c).1.trans ?_, (h c).2⟩)
      (Cert.KernelIdeal.GenRun.run_main (F := Ideal) m ρ)
    exact Cert.KernelIdeal.KValue.result_eq m ρ c
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v30_eq, Cert.ReferenceIdeal.RefValue.result_eq, (hagree c).1, (hagree c).2]
    funext _
    have hfin := Cert.Finite.finite_of_pre _ _ (hpre c)
    exact (CenterLoss.kernelValue_eq_referenceValue (Cert.KernelIdeal.KValue.X m c) (Cert.KernelIdeal.KValue.T m c)
      (fun n d => hfin (ix2 n d))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
